-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S512 : Shape := ⟨1, ![512]⟩
abbrev S4x512 : Shape := ⟨2, ![4, 512]⟩
abbrev S32000 : Shape := ⟨1, ![32000]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x512 : S_.BroadcastsInDim S8x2048x512 (![] : Fin 0 → Fin S8x2048x512.rank)
  reducesTo_S8x2048x512_S_d0_1_2 : S8x2048x512.ReducesTo [0, 1, 2] S_
  bcast_S_S8x512 : S_.BroadcastsInDim S8x512 (![] : Fin 0 → Fin S8x512.rank)
  reducesTo_S8x512_S_d0_1 : S8x512.ReducesTo [0, 1] S_
  bcast_S_S512 : S_.BroadcastsInDim S512 (![] : Fin 0 → Fin S512.rank)
  reducesTo_S512_S_d0 : S512.ReducesTo [0] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : IVec S32000 32) (main_v33 : IVec S_ 1) : IVec S_ 1 :=
  let main_c_12 : IVec S_ 32 := constantI S_ 32 0#32
  let main_v34 : IVec S32000 32 := broadcastInDim S32000 ![] bcast_S_S32000 main_c_12
  let main_v35 : IVec S32000 1 := cmpi .sge main_arg8 main_v34
  let main_c_13 : IVec S_ 32 := constantI S_ 32 8#32
  let main_v36 : IVec S32000 32 := broadcastInDim S32000 ![] bcast_S_S32000 main_c_13
  let main_v37 : IVec S32000 1 := cmpi .slt main_arg8 main_v36
  let main_v38 : IVec S32000 1 := andi main_v35 main_v37
  let main_c_14 : IVec S_ 1 := constantI S_ 1 1#1
  let main_v39 : IVec S_ 1 := (fun x v => Host.reduce IntOp.andi x v reducesTo_S32000_S_d0 h_S_) main_v38 main_c_14
  let main_v40 : IVec S_ 1 := andi main_v33 main_v39
  main_v40

def fn_part1 {F : FTy → Type} [FloatOps F] (main_arg4 : FVec F S8x512 .f32) (main_arg5 : FVec F S512 .f32) (main_arg6 : FVec F S512 .f32) (main_arg8 : IVec S32000 32) (main_v13 : IVec S_ 1) (main_v16 : IVec S8x2048x512 1) : IVec S_ 1 :=
  let main_c_5 : IVec S_ 1 := constantI S_ 1 1#1
  let main_v17 : IVec S_ 1 := (fun x v => Host.reduce IntOp.andi x v reducesTo_S8x2048x512_S_d0_1_2 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S4x512x512 .f32) (main_arg1 : FVec F S8x512x2048 .f32) (main_arg2 : FVec F S8x2048 .f32) (main_arg3 : FVec F S8x2048x512 .f32) (main_arg4 : FVec F S8x512 .f32) (main_arg5 : FVec F S512 .f32) (main_arg6 : FVec F S512 .f32) (main_arg7 : IVec S4x512 32) (main_arg8 : IVec S32000 32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x512 .f32 := Host.absf main_arg3
  let main_cst_4 : FVec F S_ .f32 := constant S_ .f32 0x7F800000#32
  let main_v15 : FVec F S8x2048x512 .f32 := broadcastInDim S8x2048x512 ![] bcast_S_S8x2048x512 main_cst_4
  let main_v16 : IVec S8x2048x512 1 := cmpf .olt main_v14 main_v15
  fn_part1 (F := F) main_arg4 main_arg5 main_arg6 main_arg8 main_v13 main_v16
-- ==== Kernel.lean ====
abbrev S4x512x512 : Shape := ⟨3, ![4, 512, 512]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S512 : Shape := ⟨1, ![512]⟩
abbrev S4x512 : Shape := ⟨2, ![4, 512]⟩
abbrev S32000 : Shape := ⟨1, ![32000]⟩
abbrev S_ : Shape := ⟨0, ![]⟩
abbrev S4x512x1 : Shape := ⟨3, ![4, 512, 1]⟩
abbrev S2048 : Shape := ⟨1, ![2048]⟩
abbrev S2048x512 : Shape := ⟨2, ![2048, 512]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1 : Shape := ⟨1, ![1]⟩
abbrev S7 : Shape := ⟨1, ![7]⟩
abbrev S3072 : Shape := ⟨1, ![3072]⟩
abbrev S3072x1 : Shape := ⟨2, ![3072, 1]⟩
abbrev S3072x512 : Shape := ⟨2, ![3072, 512]⟩
abbrev S24 : Shape := ⟨1, ![24]⟩
abbrev S24x1 : Shape := ⟨2, ![24, 1]⟩
abbrev S24x8 : Shape := ⟨2, ![24, 8]⟩
abbrev S8x1x2048 : Shape := ⟨3, ![8, 1, 2048]⟩
abbrev S8x1x512 : Shape := ⟨3, ![8, 1, 512]⟩
abbrev S1x512 : Shape := ⟨2, ![1, 512]⟩
abbrev S128x512 : Shape := ⟨2, ![128, 512]⟩
abbrev S1x512x2048 : Shape := ⟨3, ![1, 512, 2048]⟩
abbrev S1x1x2048 : Shape := ⟨3, ![1, 1, 2048]⟩
abbrev S1x2048x512 : Shape := ⟨3, ![1, 2048, 512]⟩
abbrev S1x1x512 : Shape := ⟨3, ![1, 1, 512]⟩
abbrev S512x2048 : Shape := ⟨2, ![512, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 220
  | .vmem => 14
  | .smem => 1
  | _ => 0

abbrev hbmTy0_0 (i : Nat) : BufTy := match i % 128 with
  | 0 => ⟨S4x512x512, .f32⟩
  | 1 => ⟨S8x512x2048, .f32⟩
  | 2 => ⟨S8x2048, .f32⟩
  | 3 => ⟨S8x2048x512, .f32⟩
  | 4 => ⟨S8x512, .f32⟩
  | 5 => ⟨S512, .f32⟩
  | 6 => ⟨S512, .f32⟩
  | 7 => ⟨S4x512, .i32⟩
  | 8 => ⟨S32000, .i32⟩
  | 9 => ⟨S_, .i32⟩
  | 10 => ⟨S4x512, .i32⟩
  | 11 => ⟨S4x512, .i1⟩
  | 12 => ⟨S_, .i32⟩
  | 13 => ⟨S4x512, .i32⟩
  | 14 => ⟨S4x512, .i32⟩
  | 15 => ⟨S4x512, .i32⟩
  | 16 => ⟨S4x512x1, .i32⟩
  | 17 => ⟨S4x512, .i32⟩
  | 18 => ⟨S2048, .i32⟩
  | 19 => ⟨S2048x512, .f32⟩
  | 20 => ⟨S8, .i32⟩
  | 21 => ⟨S2048x1, .i32⟩
  | 22 => ⟨S1x8, .i32⟩
  | 23 => ⟨S2048x8, .i32⟩
  | 24 => ⟨S2048x8, .i32⟩
  | 25 => ⟨S2048x8, .i1⟩
  | 26 => ⟨S2048x8, .i32⟩
  | 27 => ⟨S_, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S_, .i32⟩
  | 36 => ⟨S_, .i32⟩
  | 37 => ⟨S8, .i32⟩
  | 38 => ⟨S8, .i32⟩
  | 39 => ⟨S8, .i32⟩
  | 40 => ⟨S_, .i32⟩
  | 41 => ⟨S8, .i32⟩
  | 42 => ⟨S8, .i1⟩
  | 43 => ⟨S8, .i32⟩
  | 44 => ⟨S8, .i32⟩
  | 45 => ⟨S_, .i32⟩
  | 46 => ⟨S8, .i32⟩
  | 47 => ⟨S8, .i1⟩
  | 48 => ⟨S8, .i1⟩
  | 49 => ⟨S_, .i32⟩
  | 50 => ⟨S8, .i32⟩
  | 51 => ⟨S8, .i32⟩
  | 52 => ⟨S8, .i32⟩
  | 53 => ⟨S_, .i32⟩
  | 54 => ⟨S1, .i32⟩
  | 55 => ⟨S_, .i32⟩
  | 56 => ⟨S_, .i32⟩
  | 57 => ⟨S8, .i32⟩
  | 58 => ⟨S7, .i32⟩
  | 59 => ⟨S8, .i32⟩
  | 60 => ⟨S_, .i32⟩
  | 61 => ⟨S2048, .i32⟩
  | 62 => ⟨S_, .i32⟩
  | 63 => ⟨S2048, .i32⟩
  | 64 => ⟨S2048, .i1⟩
  | 65 => ⟨S2048, .i32⟩
  | 66 => ⟨S_, .i32⟩
  | 67 => ⟨S_, .i32⟩
  | 68 => ⟨S2048, .i32⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048, .i32⟩
  | 77 => ⟨S_, .i32⟩
  | 78 => ⟨S_, .i32⟩
  | 79 => ⟨S2048, .i32⟩
  | 80 => ⟨S_, .i32⟩
  | 81 => ⟨S2048, .i32⟩
  | 82 => ⟨S2048, .i32⟩
  | 83 => ⟨S2048, .i32⟩
  | 84 => ⟨S_, .i32⟩
  | 85 => ⟨S2048, .i32⟩
  | 86 => ⟨S2048, .i1⟩
  | 87 => ⟨S2048, .i32⟩
  | 88 => ⟨S_, .i32⟩
  | 89 => ⟨S_, .i32⟩
  | 90 => ⟨S2048, .i32⟩
  | 91 => ⟨S_, .i32⟩
  | 92 => ⟨S2048, .i32⟩
  | 93 => ⟨S2048, .i32⟩
  | 94 => ⟨S2048, .i32⟩
  | 95 => ⟨S_, .i32⟩
  | 96 => ⟨S2048, .i32⟩
  | 97 => ⟨S2048, .i1⟩
  | 98 => ⟨S2048, .i32⟩
  | 99 => ⟨S_, .i32⟩
  | 100 => ⟨S_, .i32⟩
  | 101 => ⟨S2048, .i32⟩
  | 102 => ⟨S_, .i32⟩
  | 103 => ⟨S2048, .i32⟩
  | 104 => ⟨S2048, .i32⟩
  | 105 => ⟨S2048, .i32⟩
  | 106 => ⟨S_, .i32⟩
  | 107 => ⟨S2048, .i32⟩
  | 108 => ⟨S2048, .i1⟩
  | 109 => ⟨S2048, .i32⟩
  | 110 => ⟨S_, .i32⟩
  | 111 => ⟨S_, .i32⟩
  | 112 => ⟨S2048, .i32⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S2048, .i1⟩
  | 120 => ⟨S2048, .i32⟩
  | 121 => ⟨S_, .i32⟩
  | 122 => ⟨S_, .i32⟩
  | 123 => ⟨S2048, .i32⟩
  | 124 => ⟨S_, .i32⟩
  | 125 => ⟨S2048, .i32⟩
  | 126 => ⟨S2048, .i32⟩
  | 127 => ⟨S2048, .i32⟩
  | _ => ⟨S4x512x512, .f32⟩

abbrev hbmTy0_1 (i : Nat) : BufTy := match i % 128 with
  | 0 => ⟨S_, .i32⟩
  | 1 => ⟨S2048, .i32⟩
  | 2 => ⟨S2048, .i1⟩
  | 3 => ⟨S2048, .i32⟩
  | 4 => ⟨S_, .i32⟩
  | 5 => ⟨S_, .i32⟩
  | 6 => ⟨S2048, .i32⟩
  | 7 => ⟨S_, .i32⟩
  | 8 => ⟨S2048, .i32⟩
  | 9 => ⟨S2048, .i32⟩
  | 10 => ⟨S2048, .i32⟩
  | 11 => ⟨S_, .i32⟩
  | 12 => ⟨S2048, .i32⟩
  | 13 => ⟨S2048, .i1⟩
  | 14 => ⟨S2048, .i32⟩
  | 15 => ⟨S_, .i32⟩
  | 16 => ⟨S_, .i32⟩
  | 17 => ⟨S2048, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S2048, .i32⟩
  | 31 => ⟨S_, .i32⟩
  | 32 => ⟨S2048, .i32⟩
  | 33 => ⟨S2048, .i32⟩
  | 34 => ⟨S2048, .i32⟩
  | 35 => ⟨S_, .i32⟩
  | 36 => ⟨S3072, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S3072, .i32⟩
  | 47 => ⟨S_, .i32⟩
  | 48 => ⟨S3072, .i32⟩
  | 49 => ⟨S3072, .i1⟩
  | 50 => ⟨S_, .i32⟩
  | 51 => ⟨S3072, .i32⟩
  | 52 => ⟨S3072, .i32⟩
  | 53 => ⟨S3072, .i32⟩
  | 54 => ⟨S3072x1, .i32⟩
  | 55 => ⟨S3072x512, .f32⟩
  | 56 => ⟨S24, .i32⟩
  | 57 => ⟨S24x1, .i32⟩
  | 58 => ⟨S1x8, .i32⟩
  | 59 => ⟨S24x8, .i32⟩
  | 60 => ⟨S24x8, .i32⟩
  | 61 => ⟨S24x8, .i1⟩
  | 62 => ⟨S24x8, .i32⟩
  | 63 => ⟨S_, .i32⟩
  | 64 => ⟨S24, .i32⟩
  | 65 => ⟨S_, .i32⟩
  | 66 => ⟨S24, .i32⟩
  | 67 => ⟨S24, .i32⟩
  | 68 => ⟨S_, .i32⟩
  | 69 => ⟨S_, .i32⟩
  | 70 => ⟨S_, .i32⟩
  | 71 => ⟨S24, .i32⟩
  | 72 => ⟨S24, .i32⟩
  | 73 => ⟨S_, .i32⟩
  | 74 => ⟨S24, .i32⟩
  | 75 => ⟨S8x512x2048, .bf16⟩
  | 76 => ⟨S8x2048x512, .bf16⟩
  | 77 => ⟨S8x1x2048, .f32⟩
  | 78 => ⟨S8x1x512, .f32⟩
  | 79 => ⟨S1x512, .f32⟩
  | 80 => ⟨S1x512, .f32⟩
  | 81 => ⟨S3072x512, .f32⟩
  | 82 => ⟨S_, .i32⟩
  | 83 => ⟨S2048, .i32⟩
  | 84 => ⟨S2048, .i1⟩
  | 85 => ⟨S_, .i32⟩
  | 86 => ⟨S2048, .i32⟩
  | 87 => ⟨S2048, .i32⟩
  | 88 => ⟨S2048, .i32⟩
  | 89 => ⟨S2048x1, .i32⟩
  | 90 => ⟨S2048x512, .f32⟩
  | 91 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S1x512x2048, .bf16⟩
  | .local _ .vmem, ⟨3, _⟩ => ⟨S1x512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x1x512, .f32⟩
  | .local _ .vmem, ⟨9, _⟩ => ⟨S1x1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .smem, ⟨0, _⟩ => ⟨S24, .i32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_call1_call0_c : Ref sig .tc := ⟨.hbm, 55, rfl⟩
abbrev main_call1_call0_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_c_7 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_call2_call0_c : Ref sig .tc := ⟨.hbm, 66, rfl⟩
abbrev main_call2_call0_v0 : Ref sig .tc := ⟨.hbm, 67, rfl⟩
abbrev main_v30 : Ref sig .tc := ⟨.hbm, 68, rfl⟩
abbrev main_c_8 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call4_call0_c : Ref sig .tc := ⟨.hbm, 77, rfl⟩
abbrev main_call4_call0_v0 : Ref sig .tc := ⟨.hbm, 78, rfl⟩
abbrev main_v37 : Ref sig .tc := ⟨.hbm, 79, rfl⟩
abbrev main_c_10 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_11 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_call6_call0_c : Ref sig .tc := ⟨.hbm, 88, rfl⟩
abbrev main_call6_call0_v0 : Ref sig .tc := ⟨.hbm, 89, rfl⟩
abbrev main_v44 : Ref sig .tc := ⟨.hbm, 90, rfl⟩
abbrev main_c_12 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_13 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_call8_call0_c : Ref sig .tc := ⟨.hbm, 99, rfl⟩
abbrev main_call8_call0_v0 : Ref sig .tc := ⟨.hbm, 100, rfl⟩
abbrev main_v51 : Ref sig .tc := ⟨.hbm, 101, rfl⟩
abbrev main_c_14 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_15 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_call10_call0_c : Ref sig .tc := ⟨.hbm, 110, rfl⟩
abbrev main_call10_call0_v0 : Ref sig .tc := ⟨.hbm, 111, rfl⟩
abbrev main_v58 : Ref sig .tc := ⟨.hbm, 112, rfl⟩
abbrev main_c_16 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_c_17 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_call12_call0_c : Ref sig .tc := ⟨.hbm, 121, rfl⟩
abbrev main_call12_call0_v0 : Ref sig .tc := ⟨.hbm, 122, rfl⟩
abbrev main_v65 : Ref sig .tc := ⟨.hbm, 123, rfl⟩
abbrev main_c_18 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_c_19 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call14_call0_c : Ref sig .tc := ⟨.hbm, 132, rfl⟩
abbrev main_call14_call0_v0 : Ref sig .tc := ⟨.hbm, 133, rfl⟩
abbrev main_v72 : Ref sig .tc := ⟨.hbm, 134, rfl⟩
abbrev main_c_20 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_c_21 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_call16_call0_c : Ref sig .tc := ⟨.hbm, 143, rfl⟩
abbrev main_call16_call0_v0 : Ref sig .tc := ⟨.hbm, 144, rfl⟩
abbrev main_v79 : Ref sig .tc := ⟨.hbm, 145, rfl⟩
abbrev main_c_22 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_c_23 : Ref sig .tc := ⟨.hbm, 150, rfl⟩
abbrev main_v83 : Ref sig .tc := ⟨.hbm, 151, rfl⟩
abbrev main_v84 : Ref sig .tc := ⟨.hbm, 152, rfl⟩
abbrev main_c_24 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_c_25 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_c_26 : Ref sig .tc := ⟨.hbm, 163, rfl⟩
abbrev main_v93 : Ref sig .tc := ⟨.hbm, 164, rfl⟩
abbrev main_v94 : Ref sig .tc := ⟨.hbm, 165, rfl⟩
abbrev main_c_27 : Ref sig .tc := ⟨.hbm, 166, rfl⟩
abbrev main_v95 : Ref sig .tc := ⟨.hbm, 167, rfl⟩
abbrev main_v96 : Ref sig .tc := ⟨.hbm, 168, rfl⟩
abbrev main_c_28 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_29 : Ref sig .tc := ⟨.hbm, 175, rfl⟩
abbrev main_v102 : Ref sig .tc := ⟨.hbm, 176, rfl⟩
abbrev main_v103 : Ref sig .tc := ⟨.hbm, 177, rfl⟩
abbrev main_c_30 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_c_31 : Ref sig .tc := ⟨.hbm, 191, rfl⟩
abbrev main_v116 : Ref sig .tc := ⟨.hbm, 192, rfl⟩
abbrev main_c_32 : Ref sig .tc := ⟨.hbm, 193, rfl⟩
abbrev main_v117 : Ref sig .tc := ⟨.hbm, 194, rfl⟩
abbrev main_v118 : Ref sig .tc := ⟨.hbm, 195, rfl⟩
abbrev main_c_33 : Ref sig .tc := ⟨.hbm, 196, rfl⟩
abbrev main_c_34 : Ref sig .tc := ⟨.hbm, 197, rfl⟩
abbrev main_call18_v0 : Ref sig .tc := ⟨.hbm, 198, rfl⟩
abbrev main_call18_v1 : Ref sig .tc := ⟨.hbm, 199, rfl⟩
abbrev main_call18_v2 : Ref sig .tc := ⟨.hbm, 200, rfl⟩
abbrev main_call18_v3 : Ref sig .tc := ⟨.hbm, 201, rfl⟩
abbrev main_call18_v4 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_c_35 : Ref sig .tc := ⟨.hbm, 210, rfl⟩
abbrev main_v127 : Ref sig .tc := ⟨.hbm, 211, rfl⟩
abbrev main_v128 : Ref sig .tc := ⟨.hbm, 212, rfl⟩
abbrev main_c_36 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v119 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![24], ![false]⟩

abbrev pre0 : Pipeline.Prefetch sig := ⟨1, ![main_v119.idx], fun | 0 => main_v119.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  shapeCasts_S4x512_S2048 : S4x512.ShapeCasts S2048
  shapeCasts_S4x512x512_S2048x512 : S4x512x512.ShapeCasts S2048x512
  bcast_S2048_S2048x1_0 : S2048.BroadcastsInDim S2048x1 (![0] : Fin 1 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S_S2048 : S_.BroadcastsInDim S2048 (![] : Fin 0 → Fin S2048.rank)
  reduceWindows_S2048_S2048_w2048s1p2047_0 : S2048.ReduceWindows (![2048] : Fin 1 → Nat) ![1] ![2047] ![0] S2048
  bcast_S_S3072 : S_.BroadcastsInDim S3072 (![] : Fin 0 → Fin S3072.rank)
  bcast_S3072_S3072x1_0 : S3072.BroadcastsInDim S3072x1 (![0] : Fin 1 → Fin S3072x1.rank)
  bcast_S24_S24x1_0 : S24.BroadcastsInDim S24x1 (![0] : Fin 1 → Fin S24x1.rank)
  bcast_S24x1_S24x8_0_1 : S24x1.BroadcastsInDim S24x8 (![0, 1] : Fin 2 → Fin S24x8.rank)
  bcast_S1x8_S24x8_0_1 : S1x8.BroadcastsInDim S24x8 (![0, 1] : Fin 2 → Fin S24x8.rank)
  reducesTo_S24x8_S24_d1 : S24x8.ReducesTo [1] S24
  bcast_S_S24 : S_.BroadcastsInDim S24 (![] : Fin 0 → Fin S24.rank)
  bitsLt_bf16_f32 : FTy.bits .bf16 < FTy.bits .f32
  shapeCasts_S8x2048_S8x1x2048 : S8x2048.ShapeCasts S8x1x2048
  shapeCasts_S8x512_S8x1x512 : S8x512.ShapeCasts S8x1x512
  shapeCasts_S512_S1x512 : S512.ShapeCasts S1x512
  numel1_S1 : S1.numel = 1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S128x512 : S1x512.Broadcasts S128x512
  reduces_S128x512_S128 : S128x512.Reduces [1] S128
  shapeCasts_S128_S128x1 : S128.ShapeCasts S128x1
  broadcasts_S128x1_S128x512 : S128x1.Broadcasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S2048x512_S4x512x512 : S2048x512.ShapeCasts S4x512x512
  gather_S32000_S4x512x1_S4x512_n_0_n_n_0_2_1_wf : GatherDims.WF S32000 S4x512x1 S4x512 [] [0] [] [0] [] 2 ![1]
  gather_S8_S2048x1_S2048_n_0_n_n_0_1_1_wf : GatherDims.WF S8 S2048x1 S2048 [] [0] [] [0] [] 1 ![1]
  scatter_S3072_S2048x1_S2048_n_0_0_1_wf : ScatterDims.WF S3072 S2048x1 S2048 [] [0] [0] 1
  gather_S2048x512_S3072x1_S3072x512_1_0_n_n_0_1_1512_wf : GatherDims.WF S2048x512 S3072x1 S3072x512 [1] [0] [] [0] [] 1 ![1, 512]
  dot_S128x512_S512x2048_S128x2048_1_0_0_1_n_n_wf : DotDims.WF S128x512 S512x2048 S128x2048 [1] [0] [0] [1] [] []
  dot_S128x2048_S2048x512_S128x512_1_0_0_1_n_n_wf : DotDims.WF S128x2048 S2048x512 S128x512 [1] [0] [0] [1] [] []
  gather_S3072x512_S2048x1_S2048x512_1_0_n_n_0_1_1512_wf : GatherDims.WF S3072x512 S2048x1 S2048x512 [1] [0] [] [0] [] 1 ![1, 512]
  hrank0 : 0 < grid0.rank
  k0_off1_inb : ∀ i : grid0.Coords, ∀ a, (k0_off1 i) a + S1.size a ≤ S24.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S3072x512.size a
  hwx0_0 : ∀ i : grid0.Coords, EltTy.bits .f32 = 32 ∨ (Rect.block (s := S3072x512) S128x512.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S3072x512.size a
  hwx0_7 : ∀ i : grid0.Coords, EltTy.bits .f32 = 32 ∨ (Rect.block (s := S3072x512) S128x512.size (cc0_transform_7 i) (hinb0_7 i)).WholeWords (EltTy.packing .f32)

variable [Facts₀]

def gather_S32000_S4x512x1_S4x512_n_0_n_n_0_2_1 : GatherDims S32000 S4x512x1 S4x512 where
  offsetDims := []
  collapsedSliceDims := [0]
  operandBatchingDims := []
  startIndicesBatchingDims := []
  startIndexMap := [0]
  indexVectorDim := 2
  sliceSizes := ![1]
  wf := gather_S32000_S4x512x1_S4x512_n_0_n_n_0_2_1_wf
def gather_S8_S2048x1_S2048_n_0_n_n_0_1_1 : GatherDims S8 S2048x1 S2048 where
  offsetDims := []
  collapsedSliceDims := [0]
  operandBatchingDims := []
  startIndicesBatchingDims := []
  startIndexMap := [0]
  indexVectorDim := 1
  sliceSizes := ![1]
  wf := gather_S8_S2048x1_S2048_n_0_n_n_0_1_1_wf
def scatter_S3072_S2048x1_S2048_n_0_0_1 : ScatterDims S3072 S2048x1 S2048 where
  updateWindowDims := []
  insertedWindowDims := [0]
  scatterDimsToOperandDims := [0]
  indexVectorDim := 1
  wf := scatter_S3072_S2048x1_S2048_n_0_0_1_wf
def gather_S2048x512_S3072x1_S3072x512_1_0_n_n_0_1_1512 : GatherDims S2048x512 S3072x1 S3072x512 where
  offsetDims := [1]
  collapsedSliceDims := [0]
  operandBatchingDims := []
  startIndicesBatchingDims := []
  startIndexMap := [0]
  indexVectorDim := 1
  sliceSizes := ![1, 512]
  wf := gather_S2048x512_S3072x1_S3072x512_1_0_n_n_0_1_1512_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def gather_S3072x512_S2048x1_S2048x512_1_0_n_n_0_1_1512 : GatherDims S3072x512 S2048x1 S2048x512 where
  offsetDims := [1]
  collapsedSliceDims := [0]
  operandBatchingDims := []
  startIndicesBatchingDims := []
  startIndexMap := [0]
  indexVectorDim := 1
  sliceSizes := ![1, 512]
  wf := gather_S3072x512_S2048x1_S2048x512_1_0_n_n_0_1_1512_wf

abbrev spec0_0 : Pipeline.WinSpec sig grid0.rank :=
  Pipeline.WinSpec.ofSpec (Memref.whole main_v108) S128x512.size reads0_0 false false 2 stage0_0 sem0_0 nbuf0_0 hstage0_0

abbrev spec0_1 : Pipeline.WinSpec sig grid0.rank :=
  Pipeline.WinSpec.ofSpec (Memref.whole main_v120) S1x512x2048.size reads0_1 false false 2 stage0_1 sem0_1 nbuf0_1 hstage0_1

abbrev spec0_2 : Pipeline.WinSpec sig grid0.rank :=
  Pipeline.WinSpec.ofSpec (Memref.whole main_v122) S1x1x2048.size reads0_2 false false 2 stage0_2 sem0_2 nbuf0_2 hstage0_2

abbrev spec0_3 : Pipeline.WinSpec sig grid0.rank :=
  Pipeline.WinSpec.ofSpec (Memref.whole main_v121) S1x2048x512.size reads0_3 false false 2 stage0_3 sem0_3 nbuf0_3 hstage0_3

abbrev spec0_4 : Pipeline.WinSpec sig grid0.rank :=
  Pipeline.WinSpec.ofSpec (Memref.whole main_v123) S1x1x512.size reads0_4 false false 2 stage0_4 sem0_4 nbuf0_4 hstage0_4

abbrev spec0_5 : Pipeline.WinSpec sig grid0.rank :=
  Pipeline.WinSpec.ofSpec (Memref.whole main_v124) S1x512.size reads0_5 false true 1 stage0_5 sem0_5 nbuf0_5 hstage0_5

abbrev spec0_6 : Pipeline.WinSpec sig grid0.rank :=
  Pipeline.WinSpec.ofSpec (Memref.whole main_v125) S1x512.size reads0_6 false true 1 stage0_6 sem0_6 nbuf0_6 hstage0_6

abbrev spec0_7 : Pipeline.WinSpec sig grid0.rank :=
  Pipeline.WinSpec.ofSpec (Memref.whole main_v126) S128x512.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x2048.size a ≤ S8x512x2048.size a), EltTy.bits .bf16 = 32 ∨ (Rect.block (s := S8x512x2048) S1x512x2048.size (cc0_transform_1 k0_off1_inb numel1_S1 pf i) h).WholeWords (EltTy.packing .bf16)) ∧
  (∀ i : grid0.Coords, ∃ h : (∀ a, (cc0_transform_2 k0_off1_inb numel1_S1 pf i a + 1) * S1x1x2048.size a ≤ S8x1x2048.size a), EltTy.bits .f32 = 32 ∨ (Rect.block (s := S8x1x2048) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x2048x512.size a ≤ S8x2048x512.size a), EltTy.bits .bf16 = 32 ∨ (Rect.block (s := S8x2048x512) S1x2048x512.size (cc0_transform_3 k0_off1_inb numel1_S1 pf i) h).WholeWords (EltTy.packing .bf16)) ∧
  (∀ i : grid0.Coords, ∃ h : (∀ a, (cc0_transform_4 k0_off1_inb numel1_S1 pf i a + 1) * S1x1x512.size a ≤ S8x1x512.size a), EltTy.bits .f32 = 32 ∨ (Rect.block (s := S8x1x512) S1x1x512.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S4x512x512 : Shape := ⟨3, ![4, 512, 512]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S512 : Shape := ⟨1, ![512]⟩
abbrev S4x512 : Shape := ⟨2, ![4, 512]⟩
abbrev S32000 : Shape := ⟨1, ![32000]⟩
abbrev S_ : Shape := ⟨0, ![]⟩
abbrev S4x512x1 : Shape := ⟨3, ![4, 512, 1]⟩
abbrev S1x512x2048 : Shape := ⟨3, ![1, 512, 2048]⟩
abbrev S512x2048 : Shape := ⟨2, ![512, 2048]⟩
abbrev S4x512x2048 : Shape := ⟨3, ![4, 512, 2048]⟩
abbrev S1x2048 : Shape := ⟨2, ![1, 2048]⟩
abbrev S2048 : Shape := ⟨1, ![2048]⟩
abbrev S1x1x2048 : Shape := ⟨3, ![1, 1, 2048]⟩
abbrev S1x2048x512 : Shape := ⟨3, ![1, 2048, 512]⟩
abbrev S2048x512 : Shape := ⟨2, ![2048, 512]⟩
abbrev S1x512 : Shape := ⟨2, ![1, 512]⟩
abbrev S1x1x512 : Shape := ⟨3, ![1, 1, 512]⟩

abbrev nBuf : Space → Nat
  | .hbm => 297
  | .vmem => 0
  | .smem => 0
  | _ => 0

abbrev hbmTy0_0 (i : Nat) : BufTy := match i % 128 with
  | 0 => ⟨S4x512x512, .f32⟩
  | 1 => ⟨S8x512x2048, .f32⟩
  | 2 => ⟨S8x2048, .f32⟩
  | 3 => ⟨S8x2048x512, .f32⟩
  | 4 => ⟨S8x512, .f32⟩
  | 5 => ⟨S512, .f32⟩
  | 6 => ⟨S512, .f32⟩
  | 7 => ⟨S4x512, .i32⟩
  | 8 => ⟨S32000, .i32⟩
  | 9 => ⟨S_, .i32⟩
  | 10 => ⟨S4x512, .i32⟩
  | 11 => ⟨S4x512, .i1⟩
  | 12 => ⟨S_, .i32⟩
  | 13 => ⟨S4x512, .i32⟩
  | 14 => ⟨S4x512, .i32⟩
  | 15 => ⟨S4x512, .i32⟩
  | 16 => ⟨S4x512x1, .i32⟩
  | 17 => ⟨S4x512, .i32⟩
  | 18 => ⟨S_, .f32⟩
  | 19 => ⟨S4x512x512, .f32⟩
  | 20 => ⟨S1x512x2048, .f32⟩
  | 21 => ⟨S512x2048, .f32⟩
  | 22 => ⟨S4x512x2048, .f32⟩
  | 23 => ⟨S1x2048, .f32⟩
  | 24 => ⟨S2048, .f32⟩
  | 25 => ⟨S1x1x2048, .f32⟩
  | 26 => ⟨S4x512x2048, .f32⟩
  | 27 => ⟨S4x512x2048, .f32⟩
  | 28 => ⟨S_, .f32⟩
  | 29 => ⟨S4x512x2048, .f32⟩
  | 30 => ⟨S4x512x2048, .f32⟩
  | 31 => ⟨S1x2048x512, .f32⟩
  | 32 => ⟨S2048x512, .f32⟩
  | 33 => ⟨S4x512x512, .f32⟩
  | 34 => ⟨S1x512, .f32⟩
  | 35 => ⟨S512, .f32⟩
  | 36 => ⟨S1x1x512, .f32⟩
  | 37 => ⟨S4x512x512, .f32⟩
  | 38 => ⟨S4x512x512, .f32⟩
  | 39 => ⟨S_, .i32⟩
  | 40 => ⟨S4x512, .i32⟩
  | 41 => ⟨S4x512, .i1⟩
  | 42 => ⟨S4x512x1, .i1⟩
  | 43 => ⟨S_, .f32⟩
  | 44 => ⟨S_, .f32⟩
  | 45 => ⟨S4x512x512, .i1⟩
  | 46 => ⟨S4x512x512, .f32⟩
  | 47 => ⟨S4x512x512, .f32⟩
  | 48 => ⟨S4x512x512, .f32⟩
  | 49 => ⟨S1x512x2048, .f32⟩
  | 50 => ⟨S512x2048, .f32⟩
  | 51 => ⟨S4x512x2048, .f32⟩
  | 52 => ⟨S1x2048, .f32⟩
  | 53 => ⟨S2048, .f32⟩
  | 54 => ⟨S1x1x2048, .f32⟩
  | 55 => ⟨S4x512x2048, .f32⟩
  | 56 => ⟨S4x512x2048, .f32⟩
  | 57 => ⟨S_, .f32⟩
  | 58 => ⟨S4x512x2048, .f32⟩
  | 59 => ⟨S4x512x2048, .f32⟩
  | 60 => ⟨S1x2048x512, .f32⟩
  | 61 => ⟨S2048x512, .f32⟩
  | 62 => ⟨S4x512x512, .f32⟩
  | 63 => ⟨S1x512, .f32⟩
  | 64 => ⟨S512, .f32⟩
  | 65 => ⟨S1x1x512, .f32⟩
  | 66 => ⟨S4x512x512, .f32⟩
  | 67 => ⟨S4x512x512, .f32⟩
  | 68 => ⟨S_, .i32⟩
  | 69 => ⟨S4x512, .i32⟩
  | 70 => ⟨S4x512, .i1⟩
  | 71 => ⟨S4x512x1, .i1⟩
  | 72 => ⟨S_, .f32⟩
  | 73 => ⟨S_, .f32⟩
  | 74 => ⟨S4x512x512, .i1⟩
  | 75 => ⟨S4x512x512, .f32⟩
  | 76 => ⟨S4x512x512, .f32⟩
  | 77 => ⟨S4x512x512, .f32⟩
  | 78 => ⟨S1x512x2048, .f32⟩
  | 79 => ⟨S512x2048, .f32⟩
  | 80 => ⟨S4x512x2048, .f32⟩
  | 81 => ⟨S1x2048, .f32⟩
  | 82 => ⟨S2048, .f32⟩
  | 83 => ⟨S1x1x2048, .f32⟩
  | 84 => ⟨S4x512x2048, .f32⟩
  | 85 => ⟨S4x512x2048, .f32⟩
  | 86 => ⟨S_, .f32⟩
  | 87 => ⟨S4x512x2048, .f32⟩
  | 88 => ⟨S4x512x2048, .f32⟩
  | 89 => ⟨S1x2048x512, .f32⟩
  | 90 => ⟨S2048x512, .f32⟩
  | 91 => ⟨S4x512x512, .f32⟩
  | 92 => ⟨S1x512, .f32⟩
  | 93 => ⟨S512, .f32⟩
  | 94 => ⟨S1x1x512, .f32⟩
  | 95 => ⟨S4x512x512, .f32⟩
  | 96 => ⟨S4x512x512, .f32⟩
  | 97 => ⟨S_, .i32⟩
  | 98 => ⟨S4x512, .i32⟩
  | 99 => ⟨S4x512, .i1⟩
  | 100 => ⟨S4x512x1, .i1⟩
  | 101 => ⟨S_, .f32⟩
  | 102 => ⟨S_, .f32⟩
  | 103 => ⟨S4x512x512, .i1⟩
  | 104 => ⟨S4x512x512, .f32⟩
  | 105 => ⟨S4x512x512, .f32⟩
  | 106 => ⟨S4x512x512, .f32⟩
  | 107 => ⟨S1x512x2048, .f32⟩
  | 108 => ⟨S512x2048, .f32⟩
  | 109 => ⟨S4x512x2048, .f32⟩
  | 110 => ⟨S1x2048, .f32⟩
  | 111 => ⟨S2048, .f32⟩
  | 112 => ⟨S1x1x2048, .f32⟩
  | 113 => ⟨S4x512x2048, .f32⟩
  | 114 => ⟨S4x512x2048, .f32⟩
  | 115 => ⟨S_, .f32⟩
  | 116 => ⟨S4x512x2048, .f32⟩
  | 117 => ⟨S4x512x2048, .f32⟩
  | 118 => ⟨S1x2048x512, .f32⟩
  | 119 => ⟨S2048x512, .f32⟩
  | 120 => ⟨S4x512x512, .f32⟩
  | 121 => ⟨S1x512, .f32⟩
  | 122 => ⟨S512, .f32⟩
  | 123 => ⟨S1x1x512, .f32⟩
  | 124 => ⟨S4x512x512, .f32⟩
  | 125 => ⟨S4x512x512, .f32⟩
  | 126 => ⟨S_, .i32⟩
  | 127 => ⟨S4x512, .i32⟩
  | _ => ⟨S4x512x512, .f32⟩

abbrev hbmTy0_1 (i : Nat) : BufTy := match i % 128 with
  | 0 => ⟨S4x512, .i1⟩
  | 1 => ⟨S4x512x1, .i1⟩
  | 2 => ⟨S_, .f32⟩
  | 3 => ⟨S_, .f32⟩
  | 4 => ⟨S4x512x512, .i1⟩
  | 5 => ⟨S4x512x512, .f32⟩
  | 6 => ⟨S4x512x512, .f32⟩
  | 7 => ⟨S4x512x512, .f32⟩
  | 8 => ⟨S1x512x2048, .f32⟩
  | 9 => ⟨S512x2048, .f32⟩
  | 10 => ⟨S4x512x2048, .f32⟩
  | 11 => ⟨S1x2048, .f32⟩
  | 12 => ⟨S2048, .f32⟩
  | 13 => ⟨S1x1x2048, .f32⟩
  | 14 => ⟨S4x512x2048, .f32⟩
  | 15 => ⟨S4x512x2048, .f32⟩
  | 16 => ⟨S_, .f32⟩
  | 17 => ⟨S4x512x2048, .f32⟩
  | 18 => ⟨S4x512x2048, .f32⟩
  | 19 => ⟨S1x2048x512, .f32⟩
  | 20 => ⟨S2048x512, .f32⟩
  | 21 => ⟨S4x512x512, .f32⟩
  | 22 => ⟨S1x512, .f32⟩
  | 23 => ⟨S512, .f32⟩
  | 24 => ⟨S1x1x512, .f32⟩
  | 25 => ⟨S4x512x512, .f32⟩
  | 26 => ⟨S4x512x512, .f32⟩
  | 27 => ⟨S_, .i32⟩
  | 28 => ⟨S4x512, .i32⟩
  | 29 => ⟨S4x512, .i1⟩
  | 30 => ⟨S4x512x1, .i1⟩
  | 31 => ⟨S_, .f32⟩
  | 32 => ⟨S_, .f32⟩
  | 33 => ⟨S4x512x512, .i1⟩
  | 34 => ⟨S4x512x512, .f32⟩
  | 35 => ⟨S4x512x512, .f32⟩
  | 36 => ⟨S4x512x512, .f32⟩
  | 37 => ⟨S1x512x2048, .f32⟩
  | 38 => ⟨S512x2048, .f32⟩
  | 39 => ⟨S4x512x2048, .f32⟩
  | 40 => ⟨S1x2048, .f32⟩
  | 41 => ⟨S2048, .f32⟩
  | 42 => ⟨S1x1x2048, .f32⟩
  | 43 => ⟨S4x512x2048, .f32⟩
  | 44 => ⟨S4x512x2048, .f32⟩
  | 45 => ⟨S_, .f32⟩
  | 46 => ⟨S4x512x2048, .f32⟩
  | 47 => ⟨S4x512x2048, .f32⟩
  | 48 => ⟨S1x2048x512, .f32⟩
  | 49 => ⟨S2048x512, .f32⟩
  | 50 => ⟨S4x512x512, .f32⟩
  | 51 => ⟨S1x512, .f32⟩
  | 52 => ⟨S512, .f32⟩
  | 53 => ⟨S1x1x512, .f32⟩
  | 54 => ⟨S4x512x512, .f32⟩
  | 55 => ⟨S4x512x512, .f32⟩
  | 56 => ⟨S_, .i32⟩
  | 57 => ⟨S4x512, .i32⟩
  | 58 => ⟨S4x512, .i1⟩
  | 59 => ⟨S4x512x1, .i1⟩
  | 60 => ⟨S_, .f32⟩
  | 61 => ⟨S_, .f32⟩
  | 62 => ⟨S4x512x512, .i1⟩
  | 63 => ⟨S4x512x512, .f32⟩
  | 64 => ⟨S4x512x512, .f32⟩
  | 65 => ⟨S4x512x512, .f32⟩
  | 66 => ⟨S1x512x2048, .f32⟩
  | 67 => ⟨S512x2048, .f32⟩
  | 68 => ⟨S4x512x2048, .f32⟩
  | 69 => ⟨S1x2048, .f32⟩
  | 70 => ⟨S2048, .f32⟩
  | 71 => ⟨S1x1x2048, .f32⟩
  | 72 => ⟨S4x512x2048, .f32⟩
  | 73 => ⟨S4x512x2048, .f32⟩
  | 74 => ⟨S_, .f32⟩
  | 75 => ⟨S4x512x2048, .f32⟩
  | 76 => ⟨S4x512x2048, .f32⟩
  | 77 => ⟨S1x2048x512, .f32⟩
  | 78 => ⟨S2048x512, .f32⟩
  | 79 => ⟨S4x512x512, .f32⟩
  | 80 => ⟨S1x512, .f32⟩
  | 81 => ⟨S512, .f32⟩
  | 82 => ⟨S1x1x512, .f32⟩
  | 83 => ⟨S4x512x512, .f32⟩
  | 84 => ⟨S4x512x512, .f32⟩
  | 85 => ⟨S_, .i32⟩
  | 86 => ⟨S4x512, .i32⟩
  | 87 => ⟨S4x512, .i1⟩
  | 88 => ⟨S4x512x1, .i1⟩
  | 89 => ⟨S_, .f32⟩
  | 90 => ⟨S_, .f32⟩
  | 91 => ⟨S4x512x512, .i1⟩
  | 92 => ⟨S4x512x512, .f32⟩
  | 93 => ⟨S4x512x512, .f32⟩
  | 94 => ⟨S4x512x512, .f32⟩
  | 95 => ⟨S1x512x2048, .f32⟩
  | 96 => ⟨S512x2048, .f32⟩
  | 97 => ⟨S4x512x2048, .f32⟩
  | 98 => ⟨S1x2048, .f32⟩
  | 99 => ⟨S2048, .f32⟩
  | 100 => ⟨S1x1x2048, .f32⟩
  | 101 => ⟨S4x512x2048, .f32⟩
  | 102 => ⟨S4x512x2048, .f32⟩
  | 103 => ⟨S_, .f32⟩
  | 104 => ⟨S4x512x2048, .f32⟩
  | 105 => ⟨S4x512x2048, .f32⟩
  | 106 => ⟨S1x2048x512, .f32⟩
  | 107 => ⟨S2048x512, .f32⟩
  | 108 => ⟨S4x512x512, .f32⟩
  | 109 => ⟨S1x512, .f32⟩
  | 110 => ⟨S512, .f32⟩
  | 111 => ⟨S1x1x512, .f32⟩
  | 112 => ⟨S4x512x512, .f32⟩
  | 113 => ⟨S4x512x512, .f32⟩
  | 114 => ⟨S_, .i32⟩
  | 115 => ⟨S4x512, .i32⟩
  | 116 => ⟨S4x512, .i1⟩
  | 117 => ⟨S4x512x1, .i1⟩
  | 118 => ⟨S_, .f32⟩
  | 119 => ⟨S_, .f32⟩
  | 120 => ⟨S4x512x512, .i1⟩
  | 121 => ⟨S4x512x512, .f32⟩
  | 122 => ⟨S4x512x512, .f32⟩
  | 123 => ⟨S4x512x512, .f32⟩
  | 124 => ⟨S4x512x512, .f32⟩
  | 125 => ⟨S_, .f32⟩
  | 126 => ⟨S4x512, .f32⟩
  | 127 => ⟨S4x512x1, .f32⟩
  | _ => ⟨S4x512x512, .f32⟩

abbrev hbmTy0_2 (i : Nat) : BufTy := match i % 128 with
  | 0 => ⟨S_, .f32⟩
  | 1 => ⟨S4x512x1, .f32⟩
  | 2 => ⟨S4x512x1, .f32⟩
  | 3 => ⟨S_, .i32⟩
  | 4 => ⟨S_, .f32⟩
  | 5 => ⟨S4x512, .f32⟩
  | 6 => ⟨S4x512x1, .f32⟩
  | 7 => ⟨S_, .f32⟩
  | 8 => ⟨S4x512x1, .f32⟩
  | 9 => ⟨S4x512x1, .f32⟩
  | 10 => ⟨S4x512x512, .f32⟩
  | 11 => ⟨S4x512x512, .f32⟩
  | 12 => ⟨S4x512x512, .f32⟩
  | 13 => ⟨S_, .f32⟩
  | 14 => ⟨S_, .f32⟩
  | 15 => ⟨S_, .f32⟩
  | 16 => ⟨S_, .f32⟩
  | 17 => ⟨S4x512, .f32⟩
  | 18 => ⟨S4x512x1, .f32⟩
  | 19 => ⟨S4x512x1, .f32⟩
  | 20 => ⟨S4x512x1, .f32⟩
  | 21 => ⟨S_, .f32⟩
  | 22 => ⟨S_, .i1⟩
  | 23 => ⟨S_, .f32⟩
  | 24 => ⟨S_, .f32⟩
  | 25 => ⟨S4x512x1, .f32⟩
  | 26 => ⟨S4x512x1, .f32⟩
  | 27 => ⟨S4x512x512, .f32⟩
  | 28 => ⟨S4x512x512, .f32⟩
  | 29 => ⟨S_, .f32⟩
  | 30 => ⟨S4x512x1, .f32⟩
  | 31 => ⟨S4x512x1, .f32⟩
  | 32 => ⟨S4x512x1, .f32⟩
  | 33 => ⟨S4x512x512, .f32⟩
  | 34 => ⟨S4x512x512, .f32⟩
  | 35 => ⟨S1x1x512, .f32⟩
  | 36 => ⟨S4x512x512, .f32⟩
  | 37 => ⟨S4x512x512, .f32⟩
  | 38 => ⟨S1x1x512, .f32⟩
  | 39 => ⟨S4x512x512, .f32⟩
  | 40 => ⟨S4x512x512, .f32⟩
  | _ => ⟨S4x512x512, .f32⟩

abbrev hbmTy (i : Nat) : BufTy := match i / 128 with
  | 0 => hbmTy0_0 i
  | 1 => hbmTy0_1 i
  | 2 => hbmTy0_2 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call4_cst : Ref sig .tc := ⟨.hbm, 86, rfl⟩
abbrev main_call4_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_6 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call6_cst : Ref sig .tc := ⟨.hbm, 115, rfl⟩
abbrev main_call6_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_7 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_8 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_call8_cst : Ref sig .tc := ⟨.hbm, 144, rfl⟩
abbrev main_call8_v0 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_9 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_10 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_call10_cst : Ref sig .tc := ⟨.hbm, 173, rfl⟩
abbrev main_call10_v0 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_11 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_12 : Ref sig .tc := ⟨.hbm, 188, rfl⟩
abbrev main_call11_v0 : Ref sig .tc := ⟨.hbm, 189, rfl⟩
abbrev main_call11_v1 : Ref sig .tc := ⟨.hbm, 190, rfl⟩
abbrev main_call11_v2 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_call12_cst : Ref sig .tc := ⟨.hbm, 202, rfl⟩
abbrev main_call12_v0 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_c_13 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_14 : Ref sig .tc := ⟨.hbm, 217, rfl⟩
abbrev main_call13_v0 : Ref sig .tc := ⟨.hbm, 218, rfl⟩
abbrev main_call13_v1 : Ref sig .tc := ⟨.hbm, 219, rfl⟩
abbrev main_call13_v2 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_call14_cst : Ref sig .tc := ⟨.hbm, 231, rfl⟩
abbrev main_call14_v0 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_c_15 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_16 : Ref sig .tc := ⟨.hbm, 246, rfl⟩
abbrev main_call15_v0 : Ref sig .tc := ⟨.hbm, 247, rfl⟩
abbrev main_call15_v1 : Ref sig .tc := ⟨.hbm, 248, rfl⟩
abbrev main_call15_v2 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_17 : Ref sig .tc := ⟨.hbm, 253, rfl⟩
abbrev main_v185 : Ref sig .tc := ⟨.hbm, 254, rfl⟩
abbrev main_v186 : Ref sig .tc := ⟨.hbm, 255, rfl⟩
abbrev main_cst_18 : Ref sig .tc := ⟨.hbm, 256, rfl⟩
abbrev main_v187 : Ref sig .tc := ⟨.hbm, 257, rfl⟩
abbrev main_v188 : Ref sig .tc := ⟨.hbm, 258, rfl⟩
abbrev main_c_19 : Ref sig .tc := ⟨.hbm, 259, rfl⟩
abbrev main_call16_cst : Ref sig .tc := ⟨.hbm, 260, rfl⟩
abbrev main_call16_v0 : Ref sig .tc := ⟨.hbm, 261, rfl⟩
abbrev main_call16_v1 : Ref sig .tc := ⟨.hbm, 262, rfl⟩
abbrev main_call16_cst_0 : Ref sig .tc := ⟨.hbm, 263, rfl⟩
abbrev main_call16_v2 : Ref sig .tc := ⟨.hbm, 264, rfl⟩
abbrev main_call16_v3 : Ref sig .tc := ⟨.hbm, 265, rfl⟩
abbrev main_call16_v4 : Ref sig .tc := ⟨.hbm, 266, rfl⟩
abbrev main_call16_v5 : Ref sig .tc := ⟨.hbm, 267, rfl⟩
abbrev main_call16_v6 : Ref sig .tc := ⟨.hbm, 268, rfl⟩
abbrev main_call16_v7 : Ref sig .tc := ⟨.hbm, 269, rfl⟩
abbrev main_call16_cst_1 : Ref sig .tc := ⟨.hbm, 270, rfl⟩
abbrev main_call16_v8 : Ref sig .tc := ⟨.hbm, 271, rfl⟩
abbrev main_call16_cst_2 : Ref sig .tc := ⟨.hbm, 272, rfl⟩
abbrev main_call16_v9 : Ref sig .tc := ⟨.hbm, 273, rfl⟩
abbrev main_call16_v10 : Ref sig .tc := ⟨.hbm, 274, rfl⟩
abbrev main_call16_v11 : Ref sig .tc := ⟨.hbm, 275, rfl⟩
abbrev main_call16_v12 : Ref sig .tc := ⟨.hbm, 276, rfl⟩
abbrev main_call16_cst_3 : Ref sig .tc := ⟨.hbm, 277, rfl⟩
abbrev main_call16_v13 : Ref sig .tc := ⟨.hbm, 278, rfl⟩
abbrev main_call16_cst_4 : Ref sig .tc := ⟨.hbm, 279, rfl⟩
abbrev main_call16_call0_v0 : Ref sig .tc := ⟨.hbm, 280, rfl⟩
abbrev main_call16_call0_v1 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_cst_20 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩

abbrev nD : Nat := 1
abbrev τ : Topo := Topo.v7x

variable {F : FTy → Type} [FloatOps F]

class Facts₀ : Prop where
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S_S4x512x512 : S_.BroadcastsInDim S4x512x512 (![] : Fin 0 → Fin S4x512x512.rank)
  slices_S8x512x2048_S1x512x2048_0_0_0 : S8x512x2048.Slices ![0, 0, 0] S1x512x2048
  shapeCasts_S1x512x2048_S512x2048 : S1x512x2048.ShapeCasts S512x2048
  slices_S8x2048_S1x2048_0_0 : S8x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S4x512x2048_0_1_2 : S1x1x2048.BroadcastsInDim S4x512x2048 (![0, 1, 2] : Fin 3 → Fin S4x512x2048.rank)
  bcast_S_S4x512x2048 : S_.BroadcastsInDim S4x512x2048 (![] : Fin 0 → Fin S4x512x2048.rank)
  slices_S8x2048x512_S1x2048x512_0_0_0 : S8x2048x512.Slices ![0, 0, 0] S1x2048x512
  shapeCasts_S1x2048x512_S2048x512 : S1x2048x512.ShapeCasts S2048x512
  slices_S8x512_S1x512_0_0 : S8x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S4x512x512_0_1_2 : S1x1x512.BroadcastsInDim S4x512x512 (![0, 1, 2] : Fin 3 → Fin S4x512x512.rank)
  bcast_S4x512x1_S4x512x512_0_1_2 : S4x512x1.BroadcastsInDim S4x512x512 (![0, 1, 2] : Fin 3 → Fin S4x512x512.rank)
  slices_S8x512x2048_S1x512x2048_1_0_0 : S8x512x2048.Slices ![1, 0, 0] S1x512x2048
  slices_S8x2048_S1x2048_1_0 : S8x2048.Slices ![1, 0] S1x2048
  slices_S8x2048x512_S1x2048x512_1_0_0 : S8x2048x512.Slices ![1, 0, 0] S1x2048x512
  slices_S8x512_S1x512_1_0 : S8x512.Slices ![1, 0] S1x512
  slices_S8x512x2048_S1x512x2048_2_0_0 : S8x512x2048.Slices ![2, 0, 0] S1x512x2048
  slices_S8x2048_S1x2048_2_0 : S8x2048.Slices ![2, 0] S1x2048
  slices_S8x2048x512_S1x2048x512_2_0_0 : S8x2048x512.Slices ![2, 0, 0] S1x2048x512
  slices_S8x512_S1x512_2_0 : S8x512.Slices ![2, 0] S1x512
  slices_S8x512x2048_S1x512x2048_3_0_0 : S8x512x2048.Slices ![3, 0, 0] S1x512x2048
  slices_S8x2048_S1x2048_3_0 : S8x2048.Slices ![3, 0] S1x2048
  slices_S8x2048x512_S1x2048x512_3_0_0 : S8x2048x512.Slices ![3, 0, 0] S1x2048x512
  slices_S8x512_S1x512_3_0 : S8x512.Slices ![3, 0] S1x512
  slices_S8x512x2048_S1x512x2048_4_0_0 : S8x512x2048.Slices ![4, 0, 0] S1x512x2048
  slices_S8x2048_S1x2048_4_0 : S8x2048.Slices ![4, 0] S1x2048
  slices_S8x2048x512_S1x2048x512_4_0_0 : S8x2048x512.Slices ![4, 0, 0] S1x2048x512
  slices_S8x512_S1x512_4_0 : S8x512.Slices ![4, 0] S1x512
  slices_S8x512x2048_S1x512x2048_5_0_0 : S8x512x2048.Slices ![5, 0, 0] S1x512x2048
  slices_S8x2048_S1x2048_5_0 : S8x2048.Slices ![5, 0] S1x2048
  slices_S8x2048x512_S1x2048x512_5_0_0 : S8x2048x512.Slices ![5, 0, 0] S1x2048x512
  slices_S8x512_S1x512_5_0 : S8x512.Slices ![5, 0] S1x512
  slices_S8x512x2048_S1x512x2048_6_0_0 : S8x512x2048.Slices ![6, 0, 0] S1x512x2048
  slices_S8x2048_S1x2048_6_0 : S8x2048.Slices ![6, 0] S1x2048
  slices_S8x2048x512_S1x2048x512_6_0_0 : S8x2048x512.Slices ![6, 0, 0] S1x2048x512
  slices_S8x512_S1x512_6_0 : S8x512.Slices ![6, 0] S1x512
  slices_S8x512x2048_S1x512x2048_7_0_0 : S8x512x2048.Slices ![7, 0, 0] S1x512x2048
  slices_S8x2048_S1x2048_7_0 : S8x2048.Slices ![7, 0] S1x2048
  slices_S8x2048x512_S1x2048x512_7_0_0 : S8x2048x512.Slices ![7, 0, 0] S1x2048x512
  slices_S8x512_S1x512_7_0 : S8x512.Slices ![7, 0] S1x512
  reducesTo_S4x512x512_S4x512_d2 : S4x512x512.ReducesTo [2] S4x512
  h_S_ : 0 < S_.numel
  bcast_S_S4x512x1 : S_.BroadcastsInDim S4x512x1 (![] : Fin 0 → Fin S4x512x1.rank)
  gather_S32000_S4x512x1_S4x512_n_0_n_n_0_2_1_wf : GatherDims.WF S32000 S4x512x1 S4x512 [] [0] [] [0] [] 2 ![1]
  dot_S4x512x512_S512x2048_S4x512x2048_2_0_01_1_n_n_wf : DotDims.WF S4x512x512 S512x2048 S4x512x2048 [2] [0] [0, 1] [1] [] []
  dot_S4x512x2048_S2048x512_S4x512x512_2_0_01_1_n_n_wf : DotDims.WF S4x512x2048 S2048x512 S4x512x512 [2] [0] [0, 1] [1] [] []

variable [Facts₀]

def gather_S32000_S4x512x1_S4x512_n_0_n_n_0_2_1 : GatherDims S32000 S4x512x1 S4x512 where
  offsetDims := []
  collapsedSliceDims := [0]
  operandBatchingDims := []
  startIndicesBatchingDims := []
  startIndexMap := [0]
  indexVectorDim := 2
  sliceSizes := ![1]
  wf := gather_S32000_S4x512x1_S4x512_n_0_n_n_0_2_1_wf
def dot_S4x512x512_S512x2048_S4x512x2048_2_0_01_1_n_n : DotDims S4x512x512 S512x2048 S4x512x2048 where
  lhsContracting := [2]
  rhsContracting := [0]
  lhsNonContracting := [0, 1]
  rhsNonContracting := [1]
  lhsBatch := []
  rhsBatch := []
  wf := dot_S4x512x512_S512x2048_S4x512x2048_2_0_01_1_n_n_wf
def dot_S4x512x2048_S2048x512_S4x512x512_2_0_01_1_n_n : DotDims S4x512x2048 S2048x512 S4x512x512 where
  lhsContracting := [2]
  rhsContracting := [0]
  lhsNonContracting := [0, 1]
  rhsNonContracting := [1]
  lhsBatch := []
  rhsBatch := []
  wf := dot_S4x512x2048_S2048x512_S4x512x512_2_0_01_1_n_n_wf

class Facts : Prop extends Facts₀ where

variable [Facts]
-- ==== Proof.KOk.lean ====
/- The pipeline's side condition on the prefetched table holds for every launch memory: the table is the result of a
   clip into [0, 7], so every table-indexed block (one expert's slice of an 8-expert array) lies inside its array. -/
import proofs.«414385_j85753317032356_3_alg».proof.Proof.Gen.KernelIdeal.Frame
import Idealize.ShloMosaic.Lib.ValueIdx

set_option maxRecDepth 16384

noncomputable section

namespace Cert.KernelIdeal.KOk

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Running a concatenation of stretches is running the first stretch, then the rest from where it stopped. -/
theorem after_flatten_cons {Val : EltTy → Type} (l : List (HloOp τ sig Val)) (ls : List (List (HloOp τ sig Val)))
    (W : Valuation τ sig Val) :
    StableHlo.after (List.flatten (l :: ls)) W = StableHlo.after (List.flatten ls) (StableHlo.after l W) := by
  rw [List.flatten_cons, StableHlo.after_append]

/-- A word clamped below by 0 and above by 7 (both signed) is one of 0 … 7, whatever the word was. -/
theorem clamp_lt (x : BitVec 32) : (IntOp.minsi 7#32 (IntOp.maxsi 0#32 x)).toNat < 8 := by
  have h0 : (0#32 : BitVec 32).toInt = 0 := by decide
  have h7 : (7#32 : BitVec 32).toInt = 7 := by decide
  have hx := x.isLt
  have hxi := BitVec.toInt_eq_toNat_cond x
  unfold IntOp.minsi IntOp.maxsi
  by_cases hd : x.slt 0#32 = true
  · rw [if_pos hd]; decide
  · rw [if_neg hd]
    by_cases he : (7#32 : BitVec 32).slt x = true
    · rw [if_pos he]; decide
    · rw [if_neg he]
      simp only [BitVec.slt, decide_eq_true_eq, h0, h7] at hd he
      split at hxi <;> omega

open StableHlo in
/-- The stretch before the clip ends by writing the two bounds: the lower bound is the constant 0, -/
theorem c33 (W : Valuation τ sig (Elt F)) :
    (StableHlo.after hostOps0_36 W (Proc.devRef .tc main_c_33) : IVec S_ 32) = constantI S_ 32 0#32 := by
  after_results

open StableHlo in
/-- and the upper bound the constant 7. -/
theorem c34 (W : Valuation τ sig (Elt F)) :
    (StableHlo.after hostOps0_36 W (Proc.devRef .tc main_c_34) : IVec S_ 32) = constantI S_ 32 7#32 := by
  after_results

open StableHlo in
/-- The clip's stretch, and the stretch after it (which writes other buffers), leave in the table's buffer the
    minimum of the broadcast upper bound and the maximum of the broadcast lower bound and the clipped vector. -/
theorem clip_eq (W' : Valuation τ sig (Elt F)) :
    (StableHlo.after hostOps0_38 (StableHlo.after hostOps0_37 W') (Proc.devRef .tc main_v119) : IVec S24 32)
      = minsi (broadcastInDim S24 ![] bcast_S_S24 (W' (Proc.devRef .tc main_c_34) : IVec S_ 32))
          (maxsi (broadcastInDim S24 ![] bcast_S_S24 (W' (Proc.devRef .tc main_c_33) : IVec S_ 32))
            (W' (Proc.devRef .tc main_v118) : IVec S24 32)) := by
  after_results
  rfl

/-- So whatever the buffers held three stretches before the region, the table's entries are 0 … 7. -/
theorem clip_lt (W : Valuation τ sig (Elt F)) (t : Fin 24) :
    ((StableHlo.after hostOps0_38 (StableHlo.after hostOps0_37 (StableHlo.after hostOps0_36 W))
      (Proc.devRef .tc main_v119) : IVec S24 32) (ix1 t)).toNat < 8 := by
  rw [clip_eq, c33, c34]
  exact clamp_lt _

/-- Every entry of the prefetched table is an expert number 0 … 7. -/
theorem tbl_lt (t : Fin 24) : ((tbl m 0 : IVec S24 32) (ix1 t)).toNat < 8 := by
  unfold Gen.tbl
  show ((V m 0 main_v119 : IVec S24 32) (ix1 t)).toNat < 8
  dsimp only [Gen.V, Gen.V0]
  simp only [after_flatten_cons, List.flatten_nil, StableHlo.after_nil]
  exact clip_lt _ t

/-- One block of an 8-block array, the block number a word below 8 on the leading axis and 0 on the other two
    (which the block spans whole), lies inside the array. -/
theorem blk_inb (w : BitVec 32) (hw : w.toNat < 8) (p q : Nat) (a : Fin 3) :
    ((![w.toNat, 0, 0] : Fin 3 → Nat) a + 1) * (⟨3, ![1, p, q]⟩ : Shape).size a ≤ (⟨3, ![8, p, q]⟩ : Shape).size a := by
  fin_cases a <;> simp <;> omega

/-- The side condition at ANY table contents whose entries are all below 8: each table-indexed window reads its block
    number off the table, so the block is one of the array's eight; the two 32-bit windows move whole words as is,
    and the two 16-bit windows' blocks take every row of their slab, hence whole words too. -/
theorem ok0_of_lt (pf : pre0.Contents (Elt F)) (hpf : ∀ x : S24.Idx, ((pf 0 : IVec S24 32) x).toNat < 8) : ok0 pf := by
  refine ⟨fun i => ⟨fun a => blk_inb _ (hpf _) 512 2048 a, Or.inr (Affine.block_words_rows (by decide) (by decide))⟩,
    fun i => ⟨fun a => blk_inb _ (hpf _) 1 2048 a, Or.inl rfl⟩,
    fun i => ⟨fun a => blk_inb _ (hpf _) 2048 512 a, Or.inr (Affine.block_words_rows (by decide) (by decide))⟩,
    fun i => ⟨fun a => blk_inb _ (hpf _) 1 512 a, Or.inl rfl⟩⟩

/-- The side condition of the table-indexed windows. -/
theorem ok : Ok m :=
  ok0_of_lt (tbl m) fun x => by rw [eq_ix1 x]; exact tbl_lt m _

end Cert.KernelIdeal.KOk

end
-- ==== Proof.KOkBits.lean ====
/- The pipeline's side condition on the prefetched table holds for every launch memory: the table is the result of a
   clip into [0, 7], so every table-indexed block (one expert's slice of an 8-expert array) lies inside its array. -/
import proofs.«414385_j85753317032356_3_alg».proof.Proof.Gen.Kernel.Frame
import Idealize.ShloMosaic.Lib.ValueIdx

set_option maxRecDepth 16384

noncomputable section

namespace Cert.Kernel.KOk

open Idealize.ShloMosaic Idealize.ShloMosaic.TcCoe Idealize.ShloMosaic.ValueIdx Idealize.SL.Sem
open Cert.Kernel Cert.Kernel.Gen

variable {F : FTy → Type} [FloatOps F]
variable (m : (ℓ : Loc nD τ sig) → Buf (Elt F) ℓ)

/-- Running a concatenation of stretches is running the first stretch, then the rest from where it stopped. -/
theorem after_flatten_cons {Val : EltTy → Type} (l : List (HloOp τ sig Val)) (ls : List (List (HloOp τ sig Val)))
    (W : Valuation τ sig Val) :
    StableHlo.after (List.flatten (l :: ls)) W = StableHlo.after (List.flatten ls) (StableHlo.after l W) := by
  rw [List.flatten_cons, StableHlo.after_append]

/-- A word clamped below by 0 and above by 7 (both signed) is one of 0 … 7, whatever the word was. -/
theorem clamp_lt (x : BitVec 32) : (IntOp.minsi 7#32 (IntOp.maxsi 0#32 x)).toNat < 8 := by
  have h0 : (0#32 : BitVec 32).toInt = 0 := by decide
  have h7 : (7#32 : BitVec 32).toInt = 7 := by decide
  have hx := x.isLt
  have hxi := BitVec.toInt_eq_toNat_cond x
  unfold IntOp.minsi IntOp.maxsi
  by_cases hd : x.slt 0#32 = true
  · rw [if_pos hd]; decide
  · rw [if_neg hd]
    by_cases he : (7#32 : BitVec 32).slt x = true
    · rw [if_pos he]; decide
    · rw [if_neg he]
      simp only [BitVec.slt, decide_eq_true_eq, h0, h7] at hd he
      split at hxi <;> omega

open StableHlo in
/-- The stretch before the clip ends by writing the two bounds: the lower bound is the constant 0, -/
theorem c33 (W : Valuation τ sig (Elt F)) :
    (StableHlo.after hostOps0_36 W (Proc.devRef .tc main_c_33) : IVec S_ 32) = constantI S_ 32 0#32 := by
  after_results

open StableHlo in
/-- and the upper bound the constant 7. -/
theorem c34 (W : Valuation τ sig (Elt F)) :
    (StableHlo.after hostOps0_36 W (Proc.devRef .tc main_c_34) : IVec S_ 32) = constantI S_ 32 7#32 := by
  after_results

open StableHlo in
/-- The clip's stretch, and the stretch after it (which writes other buffers), leave in the table's buffer the
    minimum of the broadcast upper bound and the maximum of the broadcast lower bound and the clipped vector. -/
theorem clip_eq (W' : Valuation τ sig (Elt F)) :
    (StableHlo.after hostOps0_38 (StableHlo.after hostOps0_37 W') (Proc.devRef .tc main_v119) : IVec S24 32)
      = minsi (broadcastInDim S24 ![] bcast_S_S24 (W' (Proc.devRef .tc main_c_34) : IVec S_ 32))
          (maxsi (broadcastInDim S24 ![] bcast_S_S24 (W' (Proc.devRef .tc main_c_33) : IVec S_ 32))
            (W' (Proc.devRef .tc main_v118) : IVec S24 32)) := by
  after_results
  rfl

/-- So whatever the buffers held three stretches before the region, the table's entries are 0 … 7. -/
theorem clip_lt (W : Valuation τ sig (Elt F)) (t : Fin 24) :
    ((StableHlo.after hostOps0_38 (StableHlo.after hostOps0_37 (StableHlo.after hostOps0_36 W))
      (Proc.devRef .tc main_v119) : IVec S24 32) (ix1 t)).toNat < 8 := by
  rw [clip_eq, c33, c34]
  exact clamp_lt _

/-- Every entry of the prefetched table is an expert number 0 … 7. -/
theorem tbl_lt (t : Fin 24) : ((tbl m 0 : IVec S24 32) (ix1 t)).toNat < 8 := by
  unfold Gen.tbl
  show ((V m 0 main_v119 : IVec S24 32) (ix1 t)).toNat < 8
  dsimp only [Gen.V, Gen.V0]
  simp only [after_flatten_cons, List.flatten_nil, StableHlo.after_nil]
  exact clip_lt _ t

/-- One block of an 8-block array, the block number a word below 8 on the leading axis and 0 on the other two
    (which the block spans whole), lies inside the array. -/
theorem blk_inb (w : BitVec 32) (hw : w.toNat < 8) (p q : Nat) (a : Fin 3) :
    ((![w.toNat, 0, 0] : Fin 3 → Nat) a + 1) * (⟨3, ![1, p, q]⟩ : Shape).size a ≤ (⟨3, ![8, p, q]⟩ : Shape).size a := by
  fin_cases a <;> simp <;> omega

/-- The side condition at ANY table contents whose entries are all below 8: each table-indexed window reads its block
    number off the table, so the block is one of the array's eight; the two 32-bit windows move whole words as is,
    and the two 16-bit windows' blocks take every row of their slab, hence whole words too. -/
theorem ok0_of_lt (pf : pre0.Contents (Elt F)) (hpf : ∀ x : S24.Idx, ((pf 0 : IVec S24 32) x).toNat < 8) : ok0 pf := by
  refine ⟨fun i => ⟨fun a => blk_inb _ (hpf _) 512 2048 a, Or.inr (Affine.block_words_rows (by decide) (by decide))⟩,
    fun i => ⟨fun a => blk_inb _ (hpf _) 1 2048 a, Or.inl rfl⟩,
    fun i => ⟨fun a => blk_inb _ (hpf _) 2048 512 a, Or.inr (Affine.block_words_rows (by decide) (by decide))⟩,
    fun i => ⟨fun a => blk_inb _ (hpf _) 1 512 a, Or.inl rfl⟩⟩

/-- The side condition of the table-indexed windows. -/
theorem ok : Ok m :=
  ok0_of_lt (tbl m) fun x => by rw [eq_ix1 x]; exact tbl_lt m _

end Cert.Kernel.KOk

end
-- ==== Proof.Route.lean ====
/-
  The token routing of the kernel's host prelude, as named functions of the integer inputs.

  Every token j (of 2048) carries a bin b_j. The prelude counts the tokens of each bin (`groupSizes`),
  gives bin e the `nTiles` = ceil(g_e / 128) whole tiles of 128 rows, lays the bins' tiles back to back
  (`tileStarts`, the exclusive prefix sum), ranks each token inside its bin (`rank`: the number of earlier tokens of
  the same bin), and sends token j to row `destPos` j = 128 * tileStarts[b_j] + rank j of a padded array of
  3072 rows. `srcIdx` is the inverse table (row -> token, 0 on padding rows), `eOfT` the bin that owns each of the
  24 tiles. Each definition is the composition of the operations @main applies, in @main's order, so that the
  buffers' contents at the region's entry are these terms by unfolding.
-/
import proofs.«414385_j85753317032356_3_alg».proof.KernelIdeal

noncomputable section

namespace Cert.KernelIdeal.Route

open Idealize.ShloMosaic Cert.KernelIdeal Cert.KernelIdeal.Facts₀

variable [Cert.KernelIdeal.Facts]

/-- The bin of every token: the hash table read at the token ids (a negative id counted from the end, an id
    past the end clamped), flattened to one axis of 2048 tokens. -/
def bins (hbm : IVec S32000 32) (orig : IVec S4x512 32) : IVec S2048 32 :=
  let v0 : IVec S4x512 32 := broadcastInDim S4x512 ![] bcast_S_S4x512 (constantI S_ 32 0#32)
  let v1 : IVec S4x512 1 := cmpi .slt orig v0
  let v2 : IVec S4x512 32 := broadcastInDim S4x512 ![] bcast_S_S4x512 (constantI S_ 32 32000#32)
  let v3 : IVec S4x512 32 := addi orig v2
  let v4 : IVec S4x512 32 := select v1 v3 orig
  let v5 : IVec S4x512x1 32 := broadcastInDim S4x512x1 ![0, 1] bcast_S4x512_S4x512x1_0_1 v4
  let v6 : IVec S4x512 32 := Host.gather gather_S32000_S4x512x1_S4x512_n_0_n_n_0_2_1 hbm v5
  shapeCast S2048 v6 shapeCasts_S4x512_S2048

/-- g_e: how many tokens carry bin e (the column sums of the 2048 x 8 table of `b_j = e`). -/
def groupSizes (b : IVec S2048 32) : IVec S8 32 :=
  let v9 : IVec S8 32 := iotaInDim S8 32 0
  let v10 : IVec S2048x1 32 := broadcastInDim S2048x1 ![0] bcast_S2048_S2048x1_0 b
  let v11 : IVec S1x8 32 := broadcastInDim S1x8 ![1] bcast_S8_S1x8_1 v9
  let v12 : IVec S2048x8 32 := broadcastInDim S2048x8 ![0, 1] bcast_S2048x1_S2048x8_0_1 v10
  let v13 : IVec S2048x8 32 := broadcastInDim S2048x8 ![0, 1] bcast_S1x8_S2048x8_0_1 v11
  let v14 : IVec S2048x8 1 := cmpi .eq v12 v13
  let v15 : IVec S2048x8 32 := extui 32 v14 natLt_1_32
  Host.reduce IntOp.addi v15 (constantI S_ 32 0#32) reducesTo_S2048x8_S8_d0 h_S_

/-- n_e = floor((g_e + 128 - 1) / 128): the tiles of 128 rows bin e needs (a floor division spelt with the
    quotient, the signs and the remainder). -/
def nTiles (g : IVec S8 32) : IVec S8 32 :=
  let v17 : IVec S8 32 := broadcastInDim S8 ![] bcast_S_S8 (constantI S_ 32 128#32)
  let v18 : IVec S8 32 := addi g v17
  let v19 : IVec S8 32 := broadcastInDim S8 ![] bcast_S_S8 (constantI S_ 32 1#32)
  let v20 : IVec S8 32 := subi v18 v19
  let d0 : IVec S_ 32 := id (constantI S_ 32 128#32)
  let d1 : IVec S8 32 := broadcastInDim S8 ![] bcast_S_S8 d0
  let d2 : IVec S8 32 := Host.divsi v20 d1
  let d3 : IVec S8 32 := signi v20
  let d4 : IVec S_ 32 := signi d0
  let d5 : IVec S8 32 := broadcastInDim S8 ![] bcast_S_S8 d4
  let d6 : IVec S8 1 := cmpi .ne d3 d5
  let d7 : IVec S8 32 := broadcastInDim S8 ![] bcast_S_S8 d0
  let d8 : IVec S8 32 := Host.remsi v20 d7
  let d9 : IVec S8 32 := broadcastInDim S8 ![] bcast_S_S8 (constantI S_ 32 0#32)
  let d10 : IVec S8 1 := cmpi .ne d8 d9
  let d11 : IVec S8 1 := andi d6 d10
  let d12 : IVec S8 32 := broadcastInDim S8 ![] bcast_S_S8 (constantI S_ 32 1#32)
  let d13 : IVec S8 32 := subi d2 d12
  select d11 d13 d2

/-- ts_e = n_0 + ... + n_(e-1): the first tile of bin e (the inclusive prefix sums shifted right by one, a zero
    in front). -/
def tileStarts (n : IVec S8 32) : IVec S8 32 :=
  let v22 : IVec S1 32 := broadcastInDim S1 ![] bcast_S_S1 (constantI S_ 32 0#32)
  let c0 : IVec S_ 32 := broadcastInDim S_ ![] bcast_S_S_ (constantI S_ 32 0#32)
  let v23 : IVec S8 32 := Host.reduceWindow IntOp.addi ![8] ![1] ![7] ![0] n c0 reduceWindows_S8_S8_w8s1p7_0 h_S_
  let v24 : IVec S7 32 := extractStridedSlice S7 ![0] v23 slices_S8_S7_0
  concatenate S8 0 [⟨S1, v22⟩, ⟨S7, v24⟩] concatenates_S1_S7_S8_d0

/-- One bin's pass of the ranking: a token of bin `e` gets (the number of tokens of bin `e` up to and
    including it) - 1, every other token keeps what it had. -/
def rankStep (b : IVec S2048 32) (e : BitVec 32) (prev : IVec S2048 32) : IVec S2048 32 :=
  let k : IVec S2048 32 := broadcastInDim S2048 ![] bcast_S_S2048 (constantI S_ 32 e)
  let mask : IVec S2048 1 := cmpi .eq b k
  let mi : IVec S2048 32 := extui 32 mask natLt_1_32
  let c0 : IVec S_ 32 := broadcastInDim S_ ![] bcast_S_S_ (constantI S_ 32 0#32)
  let cs : IVec S2048 32 := Host.reduceWindow IntOp.addi ![2048] ![1] ![2047] ![0] mi c0 reduceWindows_S2048_S2048_w2048s1p2047_0 h_S_
  let one : IVec S2048 32 := broadcastInDim S2048 ![] bcast_S_S2048 (constantI S_ 32 1#32)
  let cm : IVec S2048 32 := subi cs one
  select mask cm prev

/-- The rank of every token inside its own bin: the eight passes, bins 0 to 7 in order, over zeros. -/
def rank (b : IVec S2048 32) : IVec S2048 32 :=
  rankStep b 7#32 (rankStep b 6#32 (rankStep b 5#32 (rankStep b 4#32 (rankStep b 3#32 (rankStep b 2#32 (rankStep b 1#32
    (rankStep b 0#32 (broadcastInDim S2048 ![] bcast_S_S2048 (constantI S_ 32 0#32)))))))))

/-- The first tile of each token's bin: `ts` read at the bins (a negative bin counted from the end, a bin past
    the end clamped). -/
def startOfBin (ts : IVec S8 32) (b : IVec S2048 32) : IVec S2048 32 :=
  let v83 : IVec S2048 32 := broadcastInDim S2048 ![] bcast_S_S2048 (constantI S_ 32 0#32)
  let v84 : IVec S2048 1 := cmpi .slt b v83
  let v85 : IVec S2048 32 := broadcastInDim S2048 ![] bcast_S_S2048 (constantI S_ 32 8#32)
  let v86 : IVec S2048 32 := addi b v85
  let v87 : IVec S2048 32 := select v84 v86 b
  let v88 : IVec S2048x1 32 := broadcastInDim S2048x1 ![0] bcast_S2048_S2048x1_0 v87
  Host.gather gather_S8_S2048x1_S2048_n_0_n_n_0_1_1 ts v88

/-- The padded row of every token: 128 * (first tile of its bin) + (its rank in the bin). -/
def destPos (b : IVec S2048 32) : IVec S2048 32 :=
  let v89 : IVec S2048 32 := startOfBin (tileStarts (nTiles (groupSizes b))) b
  let v90 : IVec S2048 32 := broadcastInDim S2048 ![] bcast_S_S2048 (constantI S_ 32 128#32)
  let v91 : IVec S2048 32 := muli v89 v90
  addi v91 (rank b)

/-- The rows as a column of indices into an axis of 3072 (a negative one counted from the end): what the scatter
    and the final gather are indexed with. -/
def destIdx (d : IVec S2048 32) : IVec S2048x1 32 :=
  let v95 : IVec S2048 32 := broadcastInDim S2048 ![] bcast_S_S2048 (constantI S_ 32 0#32)
  let v96 : IVec S2048 1 := cmpi .slt d v95
  let v97 : IVec S2048 32 := broadcastInDim S2048 ![] bcast_S_S2048 (constantI S_ 32 3072#32)
  let v98 : IVec S2048 32 := addi d v97
  let v99 : IVec S2048 32 := select v96 v98 d
  broadcastInDim S2048x1 ![0] bcast_S2048_S2048x1_0 v99

/-- Row -> token: zeros with token j written at row `d` j. -/
def srcIdx (d : IVec S2048 32) : IVec S3072 32 :=
  let v93 : IVec S3072 32 := broadcastInDim S3072 ![] bcast_S_S3072 (constantI S_ 32 0#32)
  let v94 : IVec S2048 32 := iotaInDim S2048 32 0
  Host.scatter scatter_S3072_S2048x1_S2048_n_0_0_1 (fun _ b => b) v93 (destIdx d) v94

/-- The row -> token table as a column of indices into an axis of 2048 (a negative one counted from the end). -/
def srcGatherIdx (s : IVec S3072 32) : IVec S3072x1 32 :=
  let v102 : IVec S3072 32 := broadcastInDim S3072 ![] bcast_S_S3072 (constantI S_ 32 0#32)
  let v103 : IVec S3072 1 := cmpi .slt s v102
  let v104 : IVec S3072 32 := broadcastInDim S3072 ![] bcast_S_S3072 (constantI S_ 32 2048#32)
  let v105 : IVec S3072 32 := addi s v104
  let v106 : IVec S3072 32 := select v103 v105 s
  broadcastInDim S3072x1 ![0] bcast_S3072_S3072x1_0 v106

/-- The owner of each of the 24 tiles: (the number of bins whose first tile is at or before it) - 1, clipped
    into [0, 7]. -/
def eOfT (ts : IVec S8 32) : IVec S24 32 :=
  let v109 : IVec S24 32 := iotaInDim S24 32 0
  let v110 : IVec S24x1 32 := broadcastInDim S24x1 ![0] bcast_S24_S24x1_0 v109
  let v111 : IVec S1x8 32 := broadcastInDim S1x8 ![1] bcast_S8_S1x8_1 ts
  let v112 : IVec S24x8 32 := broadcastInDim S24x8 ![0, 1] bcast_S24x1_S24x8_0_1 v110
  let v113 : IVec S24x8 32 := broadcastInDim S24x8 ![0, 1] bcast_S1x8_S24x8_0_1 v111
  let v114 : IVec S24x8 1 := cmpi .sge v112 v113
  let v115 : IVec S24x8 32 := extui 32 v114 natLt_1_32
  let v116 : IVec S24 32 := Host.reduce IntOp.addi v115 (constantI S_ 32 0#32) reducesTo_S24x8_S24_d1 h_S_
  let v117 : IVec S24 32 := broadcastInDim S24 ![] bcast_S_S24 (constantI S_ 32 1#32)
  let v118 : IVec S24 32 := subi v116 v117
  let k0 : IVec S_ 32 := id (constantI S_ 32 0#32)
  let k1 : IVec S24 32 := broadcastInDim S24 ![] bcast_S_S24 k0
  let k2 : IVec S24 32 := maxsi k1 v118
  let k3 : IVec S_ 32 := id (constantI S_ 32 7#32)
  let k4 : IVec S24 32 := broadcastInDim S24 ![] bcast_S_S24 k3
  minsi k4 k2

/-- The tile-owner table of the run, from the integer inputs. -/
def table (hbm : IVec S32000 32) (orig : IVec S4x512 32) : IVec S24 32 :=
  eOfT (tileStarts (nTiles (groupSizes (bins hbm orig))))

end Cert.KernelIdeal.Route

end
-- ==== Proof.KHost.lean ====
/- What the kernel's host operations leave in the buffers the region reads, and what the operations after the region
   make of the region's output: each a named function of the argument arrays. -/
import proofs.«414385_j85753317032356_3_alg».proof.Proof.Gen.KernelIdeal.Frame
import proofs.«414385_j85753317032356_3_alg».proof.Proof.Route
import Idealize.ShloMosaic.Lib.ValueIdx

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The bins of the run's tokens. -/
abbrev binsOf (c : Dev nD) : IVec S2048 32 :=
  Route.bins (m ((c : Thread nD τ).loc main_arg8)) (m ((c : Thread nD τ).loc main_arg7))

/-- The padded rows of the run's tokens. -/
abbrev destOf (c : Dev nD) : IVec S2048 32 := Route.destPos (binsOf m c)

/-! The host prelude cut into consecutive stretches: the contents after each stretch, as a function of the contents
    before it. -/
def Sa (c : Dev nD) : Valuation τ sig (Elt F) := StableHlo.after Gen.hostOps0_1 (StableHlo.after Gen.hostOps0 ((fun b => m (c, b))))
def Sb (c : Dev nD) : Valuation τ sig (Elt F) := StableHlo.after Gen.hostOps0_7 (StableHlo.after Gen.hostOps0_6 (StableHlo.after Gen.hostOps0_5 (StableHlo.after Gen.hostOps0_4 (StableHlo.after Gen.hostOps0_3 (StableHlo.after Gen.hostOps0_2 (Sa m c))))))
def Sc0 (c : Dev nD) : Valuation τ sig (Elt F) := StableHlo.after Gen.hostOps0_11 (StableHlo.after Gen.hostOps0_10 (StableHlo.after Gen.hostOps0_9 (StableHlo.after Gen.hostOps0_8 (Sb m c))))
def Sc1 (c : Dev nD) : Valuation τ sig (Elt F) := StableHlo.after Gen.hostOps0_15 (StableHlo.after Gen.hostOps0_14 (StableHlo.after Gen.hostOps0_13 (StableHlo.after Gen.hostOps0_12 (Sc0 m c))))
def Sc2 (c : Dev nD) : Valuation τ sig (Elt F) := StableHlo.after Gen.hostOps0_19 (StableHlo.after Gen.hostOps0_18 (StableHlo.after Gen.hostOps0_17 (StableHlo.after Gen.hostOps0_16 (Sc1 m c))))
def Sc3 (c : Dev nD) : Valuation τ sig (Elt F) := StableHlo.after Gen.hostOps0_23 (StableHlo.after Gen.hostOps0_22 (StableHlo.after Gen.hostOps0_21 (StableHlo.after Gen.hostOps0_20 (Sc2 m c))))
def Sc4 (c : Dev nD) : Valuation τ sig (Elt F) := StableHlo.after Gen.hostOps0_27 (StableHlo.after Gen.hostOps0_26 (StableHlo.after Gen.hostOps0_25 (StableHlo.after Gen.hostOps0_24 (Sc3 m c))))
def Sc5 (c : Dev nD) : Valuation τ sig (Elt F) := StableHlo.after Gen.hostOps0_31 (StableHlo.after Gen.hostOps0_30 (StableHlo.after Gen.hostOps0_29 (StableHlo.after Gen.hostOps0_28 (Sc4 m c))))
def Sc6 (c : Dev nD) : Valuation τ sig (Elt F) := StableHlo.after Gen.hostOps0_35 (StableHlo.after Gen.hostOps0_34 (StableHlo.after Gen.hostOps0_33 (StableHlo.after Gen.hostOps0_32 (Sc5 m c))))
def Sd (c : Dev nD) : Valuation τ sig (Elt F) := StableHlo.after Gen.hostOps0_37 (StableHlo.after Gen.hostOps0_36 (Sc6 m c))
def Se (c : Dev nD) : Valuation τ sig (Elt F) := StableHlo.after Gen.hostOps0_38 (Sd m c)

/-- The contents at the region's entry are the contents after the last stretch. -/
theorem V0_eq (c : Dev nD) : V0 m c = Se m c := by
  unfold Se Sd Sc6 Sc5 Sc4 Sc3 Sc2 Sc1 Sc0 Sb Sa
  dsimp only [Gen.V0]
  simp only [List.flatten_cons, List.flatten_nil, List.append_nil, StableHlo.after_append]

/-- The input rows as a matrix of 2048 rows. -/
abbrev xOf (c : Dev nD) := shapeCast S2048x512 (m ((c : Thread nD τ).loc main_arg0)) Facts₀.shapeCasts_S4x512x512_S2048x512
/-- The tiles each bin needs. -/
abbrev tilesOf (c : Dev nD) : IVec S8 32 := Route.nTiles (Route.groupSizes (binsOf m c))
/-- The first tile of each bin. -/
abbrev startsOf (c : Dev nD) : IVec S8 32 := Route.tileStarts (tilesOf m c)
/-- The ranking after the passes of bins 0 … k. -/
abbrev rk0 (c : Dev nD) : IVec S2048 32 := Route.rankStep (binsOf m c) 0#32 (broadcastInDim S2048 ![] Facts₀.bcast_S_S2048 (constantI S_ 32 0#32))
abbrev rk1 (c : Dev nD) : IVec S2048 32 := Route.rankStep (binsOf m c) 1#32 (rk0 m c)
abbrev rk2 (c : Dev nD) : IVec S2048 32 := Route.rankStep (binsOf m c) 2#32 (rk1 m c)
abbrev rk3 (c : Dev nD) : IVec S2048 32 := Route.rankStep (binsOf m c) 3#32 (rk2 m c)
abbrev rk4 (c : Dev nD) : IVec S2048 32 := Route.rankStep (binsOf m c) 4#32 (rk3 m c)
abbrev rk5 (c : Dev nD) : IVec S2048 32 := Route.rankStep (binsOf m c) 5#32 (rk4 m c)
abbrev rk6 (c : Dev nD) : IVec S2048 32 := Route.rankStep (binsOf m c) 6#32 (rk5 m c)
abbrev rk7 (c : Dev nD) : IVec S2048 32 := Route.rankStep (binsOf m c) 7#32 (rk6 m c)

/-! What each stretch leaves in the buffers the later stretches (and the region) read: a buffer written in the stretch
    is the operations' term over the contents before it, any other buffer is carried over unchanged. -/
theorem sa_v7 (c : Dev nD) : Sa m c (Proc.devRef .tc main_v7) = binsOf m c := by
  unfold Sa
  simp only [Gen.hostOps0, Gen.hostOps0_1]
  after_results_simp
  try simp only [StableHlo.TRef.ofBuf, StableHlo.TRef.toBuf, cast_cast, cast_eq]
  simp only [binsOf, Route.bins]
  first | done | rfl
theorem sa_v8 (c : Dev nD) : Sa m c (Proc.devRef .tc main_v8) = xOf m c := by
  unfold Sa
  simp only [Gen.hostOps0, Gen.hostOps0_1]
  after_results_simp
  try simp only [StableHlo.TRef.ofBuf, StableHlo.TRef.toBuf, cast_cast, cast_eq]
  simp only [xOf]
  first | done | rfl
theorem sa_v21 (c : Dev nD) : Sa m c (Proc.devRef .tc main_v21) = tilesOf m c := by
  unfold Sa
  simp only [Gen.hostOps0, Gen.hostOps0_1]
  after_results_simp
  try simp only [StableHlo.TRef.ofBuf, StableHlo.TRef.toBuf, cast_cast, cast_eq]
  simp only [tilesOf, binsOf, Route.nTiles, Route.groupSizes, Route.bins]
  first | done | rfl
theorem sb_v7 (c : Dev nD) : Sb m c (Proc.devRef .tc main_v7) = binsOf m c := by
  unfold Sb
  simp only [Gen.hostOps0_2, Gen.hostOps0_3, Gen.hostOps0_4, Gen.hostOps0_5, Gen.hostOps0_6, Gen.hostOps0_7]
  after_results_simp
  rw [sa_v7]
theorem sb_v8 (c : Dev nD) : Sb m c (Proc.devRef .tc main_v8) = xOf m c := by
  unfold Sb
  simp only [Gen.hostOps0_2, Gen.hostOps0_3, Gen.hostOps0_4, Gen.hostOps0_5, Gen.hostOps0_6, Gen.hostOps0_7]
  after_results_simp
  rw [sa_v8]
theorem sb_v25 (c : Dev nD) : Sb m c (Proc.devRef .tc main_v25) = startsOf m c := by
  unfold Sb
  simp only [Gen.hostOps0_2, Gen.hostOps0_3, Gen.hostOps0_4, Gen.hostOps0_5, Gen.hostOps0_6, Gen.hostOps0_7]
  after_results
  rw [sa_v21]
  try simp only [StableHlo.TRef.ofBuf, StableHlo.TRef.toBuf, cast_cast, cast_eq]
  simp only [startsOf, Route.tileStarts]
  first | done | rfl
theorem sb_v33 (c : Dev nD) : Sb m c (Proc.devRef .tc main_v33) = rk0 m c := by
  unfold Sb
  simp only [Gen.hostOps0_2, Gen.hostOps0_3, Gen.hostOps0_4, Gen.hostOps0_5, Gen.hostOps0_6, Gen.hostOps0_7]
  after_results_simp
  rw [sa_v7]
  try simp only [StableHlo.TRef.ofBuf, StableHlo.TRef.toBuf, cast_cast, cast_eq]
  simp only [rk0, Route.rankStep]
  first | done | rfl
theorem sc0_v7 (c : Dev nD) : Sc0 m c (Proc.devRef .tc main_v7) = binsOf m c := by
  unfold Sc0
  simp only [Gen.hostOps0_8, Gen.hostOps0_9, Gen.hostOps0_10, Gen.hostOps0_11]
  after_results_simp
  rw [sb_v7]
theorem sc0_v8 (c : Dev nD) : Sc0 m c (Proc.devRef .tc main_v8) = xOf m c := by
  unfold Sc0
  simp only [Gen.hostOps0_8, Gen.hostOps0_9, Gen.hostOps0_10, Gen.hostOps0_11]
  after_results_simp
  rw [sb_v8]
theorem sc0_v25 (c : Dev nD) : Sc0 m c (Proc.devRef .tc main_v25) = startsOf m c := by
  unfold Sc0
  simp only [Gen.hostOps0_8, Gen.hostOps0_9, Gen.hostOps0_10, Gen.hostOps0_11]
  after_results_simp
  rw [sb_v25]
theorem sc0_v40 (c : Dev nD) : Sc0 m c (Proc.devRef .tc main_v40) = rk1 m c := by
  unfold Sc0
  simp only [Gen.hostOps0_8, Gen.hostOps0_9, Gen.hostOps0_10, Gen.hostOps0_11]
  after_results_simp
  rw [sb_v7, sb_v33]
  try simp only [StableHlo.TRef.ofBuf, StableHlo.TRef.toBuf, cast_cast, cast_eq]
  simp only [rk1, Route.rankStep]
  first | done | rfl
theorem sc1_v7 (c : Dev nD) : Sc1 m c (Proc.devRef .tc main_v7) = binsOf m c := by
  unfold Sc1
  simp only [Gen.hostOps0_12, Gen.hostOps0_13, Gen.hostOps0_14, Gen.hostOps0_15]
  after_results_simp
  rw [sc0_v7]
theorem sc1_v8 (c : Dev nD) : Sc1 m c (Proc.devRef .tc main_v8) = xOf m c := by
  unfold Sc1
  simp only [Gen.hostOps0_12, Gen.hostOps0_13, Gen.hostOps0_14, Gen.hostOps0_15]
  after_results_simp
  rw [sc0_v8]
theorem sc1_v25 (c : Dev nD) : Sc1 m c (Proc.devRef .tc main_v25) = startsOf m c := by
  unfold Sc1
  simp only [Gen.hostOps0_12, Gen.hostOps0_13, Gen.hostOps0_14, Gen.hostOps0_15]
  after_results_simp
  rw [sc0_v25]
theorem sc1_v47 (c : Dev nD) : Sc1 m c (Proc.devRef .tc main_v47) = rk2 m c := by
  unfold Sc1
  simp only [Gen.hostOps0_12, Gen.hostOps0_13, Gen.hostOps0_14, Gen.hostOps0_15]
  after_results_simp
  rw [sc0_v7, sc0_v40]
  try simp only [StableHlo.TRef.ofBuf, StableHlo.TRef.toBuf, cast_cast, cast_eq]
  simp only [rk2, Route.rankStep]
  first | done | rfl
theorem sc2_v7 (c : Dev nD) : Sc2 m c (Proc.devRef .tc main_v7) = binsOf m c := by
  unfold Sc2
  simp only [Gen.hostOps0_16, Gen.hostOps0_17, Gen.hostOps0_18, Gen.hostOps0_19]
  after_results_simp
  rw [sc1_v7]
theorem sc2_v8 (c : Dev nD) : Sc2 m c (Proc.devRef .tc main_v8) = xOf m c := by
  unfold Sc2
  simp only [Gen.hostOps0_16, Gen.hostOps0_17, Gen.hostOps0_18, Gen.hostOps0_19]
  after_results_simp
  rw [sc1_v8]
theorem sc2_v25 (c : Dev nD) : Sc2 m c (Proc.devRef .tc main_v25) = startsOf m c := by
  unfold Sc2
  simp only [Gen.hostOps0_16, Gen.hostOps0_17, Gen.hostOps0_18, Gen.hostOps0_19]
  after_results_simp
  rw [sc1_v25]
theorem sc2_v54 (c : Dev nD) : Sc2 m c (Proc.devRef .tc main_v54) = rk3 m c := by
  unfold Sc2
  simp only [Gen.hostOps0_16, Gen.hostOps0_17, Gen.hostOps0_18, Gen.hostOps0_19]
  after_results_simp
  rw [sc1_v7, sc1_v47]
  try simp only [StableHlo.TRef.ofBuf, StableHlo.TRef.toBuf, cast_cast, cast_eq]
  simp only [rk3, Route.rankStep]
  first | done | rfl
theorem sc3_v7 (c : Dev nD) : Sc3 m c (Proc.devRef .tc main_v7) = binsOf m c := by
  unfold Sc3
  simp only [Gen.hostOps0_20, Gen.hostOps0_21, Gen.hostOps0_22, Gen.hostOps0_23]
  after_results_simp
  rw [sc2_v7]
theorem sc3_v8 (c : Dev nD) : Sc3 m c (Proc.devRef .tc main_v8) = xOf m c := by
  unfold Sc3
  simp only [Gen.hostOps0_20, Gen.hostOps0_21, Gen.hostOps0_22, Gen.hostOps0_23]
  after_results_simp
  rw [sc2_v8]
theorem sc3_v25 (c : Dev nD) : Sc3 m c (Proc.devRef .tc main_v25) = startsOf m c := by
  unfold Sc3
  simp only [Gen.hostOps0_20, Gen.hostOps0_21, Gen.hostOps0_22, Gen.hostOps0_23]
  after_results_simp
  rw [sc2_v25]
theorem sc3_v61 (c : Dev nD) : Sc3 m c (Proc.devRef .tc main_v61) = rk4 m c := by
  unfold Sc3
  simp only [Gen.hostOps0_20, Gen.hostOps0_21, Gen.hostOps0_22, Gen.hostOps0_23]
  after_results_simp
  rw [sc2_v7, sc2_v54]
  try simp only [StableHlo.TRef.ofBuf, StableHlo.TRef.toBuf, cast_cast, cast_eq]
  simp only [rk4, Route.rankStep]
  first | done | rfl
theorem sc4_v7 (c : Dev nD) : Sc4 m c (Proc.devRef .tc main_v7) = binsOf m c := by
  unfold Sc4
  simp only [Gen.hostOps0_24, Gen.hostOps0_25, Gen.hostOps0_26, Gen.hostOps0_27]
  after_results_simp
  rw [sc3_v7]
theorem sc4_v8 (c : Dev nD) : Sc4 m c (Proc.devRef .tc main_v8) = xOf m c := by
  unfold Sc4
  simp only [Gen.hostOps0_24, Gen.hostOps0_25, Gen.hostOps0_26, Gen.hostOps0_27]
  after_results_simp
  rw [sc3_v8]
theorem sc4_v25 (c : Dev nD) : Sc4 m c (Proc.devRef .tc main_v25) = startsOf m c := by
  unfold Sc4
  simp only [Gen.hostOps0_24, Gen.hostOps0_25, Gen.hostOps0_26, Gen.hostOps0_27]
  after_results_simp
  rw [sc3_v25]
theorem sc4_v68 (c : Dev nD) : Sc4 m c (Proc.devRef .tc main_v68) = rk5 m c := by
  unfold Sc4
  simp only [Gen.hostOps0_24, Gen.hostOps0_25, Gen.hostOps0_26, Gen.hostOps0_27]
  after_results_simp
  rw [sc3_v7, sc3_v61]
  try simp only [StableHlo.TRef.ofBuf, StableHlo.TRef.toBuf, cast_cast, cast_eq]
  simp only [rk5, Route.rankStep]
  first | done | rfl
theorem sc5_v7 (c : Dev nD) : Sc5 m c (Proc.devRef .tc main_v7) = binsOf m c := by
  unfold Sc5
  simp only [Gen.hostOps0_28, Gen.hostOps0_29, Gen.hostOps0_30, Gen.hostOps0_31]
  after_results_simp
  rw [sc4_v7]
theorem sc5_v8 (c : Dev nD) : Sc5 m c (Proc.devRef .tc main_v8) = xOf m c := by
  unfold Sc5
  simp only [Gen.hostOps0_28, Gen.hostOps0_29, Gen.hostOps0_30, Gen.hostOps0_31]
  after_results_simp
  rw [sc4_v8]
theorem sc5_v25 (c : Dev nD) : Sc5 m c (Proc.devRef .tc main_v25) = startsOf m c := by
  unfold Sc5
  simp only [Gen.hostOps0_28, Gen.hostOps0_29, Gen.hostOps0_30, Gen.hostOps0_31]
  after_results_simp
  rw [sc4_v25]
theorem sc5_v75 (c : Dev nD) : Sc5 m c (Proc.devRef .tc main_v75) = rk6 m c := by
  unfold Sc5
  simp only [Gen.hostOps0_28, Gen.hostOps0_29, Gen.hostOps0_30, Gen.hostOps0_31]
  after_results_simp
  rw [sc4_v7, sc4_v68]
  try simp only [StableHlo.TRef.ofBuf, StableHlo.TRef.toBuf, cast_cast, cast_eq]
  simp only [rk6, Route.rankStep]
  first | done | rfl
theorem sc6_v7 (c : Dev nD) : Sc6 m c (Proc.devRef .tc main_v7) = binsOf m c := by
  unfold Sc6
  simp only [Gen.hostOps0_32, Gen.hostOps0_33, Gen.hostOps0_34, Gen.hostOps0_35]
  after_results_simp
  rw [sc5_v7]
theorem sc6_v8 (c : Dev nD) : Sc6 m c (Proc.devRef .tc main_v8) = xOf m c := by
  unfold Sc6
  simp only [Gen.hostOps0_32, Gen.hostOps0_33, Gen.hostOps0_34, Gen.hostOps0_35]
  after_results_simp
  rw [sc5_v8]
theorem sc6_v25 (c : Dev nD) : Sc6 m c (Proc.devRef .tc main_v25) = startsOf m c := by
  unfold Sc6
  simp only [Gen.hostOps0_32, Gen.hostOps0_33, Gen.hostOps0_34, Gen.hostOps0_35]
  after_results_simp
  rw [sc5_v25]
theorem sc6_v82 (c : Dev nD) : Sc6 m c (Proc.devRef .tc main_v82) = rk7 m c := by
  unfold Sc6
  simp only [Gen.hostOps0_32, Gen.hostOps0_33, Gen.hostOps0_34, Gen.hostOps0_35]
  after_results_simp
  rw [sc5_v7, sc5_v75]
  try simp only [StableHlo.TRef.ofBuf, StableHlo.TRef.toBuf, cast_cast, cast_eq]
  simp only [rk7, Route.rankStep]
  first | done | rfl
theorem sd_v92 (c : Dev nD) : Sd m c (Proc.devRef .tc main_v92) = destOf m c := by
  unfold Sd
  simp only [Gen.hostOps0_36, Gen.hostOps0_37]
  after_results_simp
  rw [sc6_v7, sc6_v25, sc6_v82]
  try simp only [StableHlo.TRef.ofBuf, StableHlo.TRef.toBuf, cast_cast, cast_eq]
  simp only [destOf, Route.destPos, Route.startOfBin]
  first | done | rfl
theorem sd_v108 (c : Dev nD) : Sd m c (Proc.devRef .tc main_v108) = Host.gather gather_S2048x512_S3072x1_S3072x512_1_0_n_n_0_1_1512 (xOf m c) (Route.srcGatherIdx (Route.srcIdx (destOf m c))) := by
  unfold Sd
  simp only [Gen.hostOps0_36, Gen.hostOps0_37]
  after_results_simp
  rw [sc6_v7, sc6_v8, sc6_v25, sc6_v82]
  try simp only [StableHlo.TRef.ofBuf, StableHlo.TRef.toBuf, cast_cast, cast_eq]
  simp only [destOf, Route.srcGatherIdx, Route.srcIdx, Route.destIdx, Route.destPos, Route.startOfBin]
  first | done | rfl
theorem sd_v119 (c : Dev nD) : Sd m c (Proc.devRef .tc main_v119) = Route.eOfT (startsOf m c) := by
  unfold Sd
  simp only [Gen.hostOps0_36, Gen.hostOps0_37]
  after_results_simp
  rw [sc6_v25]
  try simp only [StableHlo.TRef.ofBuf, StableHlo.TRef.toBuf, cast_cast, cast_eq]
  simp only [Route.eOfT]
  first | done | rfl
theorem se_v92 (c : Dev nD) : Se m c (Proc.devRef .tc main_v92) = destOf m c := by
  unfold Se
  simp only [Gen.hostOps0_38]
  after_results_simp
  rw [sd_v92]
theorem se_v108 (c : Dev nD) : Se m c (Proc.devRef .tc main_v108) = Host.gather gather_S2048x512_S3072x1_S3072x512_1_0_n_n_0_1_1512 (xOf m c) (Route.srcGatherIdx (Route.srcIdx (destOf m c))) := by
  unfold Se
  simp only [Gen.hostOps0_38]
  after_results_simp
  rw [sd_v108]
theorem se_v119 (c : Dev nD) : Se m c (Proc.devRef .tc main_v119) = Route.eOfT (startsOf m c) := by
  unfold Se
  simp only [Gen.hostOps0_38]
  after_results_simp
  rw [sd_v119]

/-- The padded rows, as the buffer the operations after the region read them from. -/
theorem V0_dest (c : Dev nD) : V0 m c (Proc.devRef .tc main_v92) = destOf m c := by
  rw [V0_eq]
  exact se_v92 m c

/-- The prefetched table is the tile-owner table of the integer inputs. -/
theorem tbl_eq : tbl m 0 = Route.table (m (((0 : Dev nD) : Thread nD τ).loc main_arg8)) (m (((0 : Dev nD) : Thread nD τ).loc main_arg7)) := by
  unfold Gen.tbl
  show V0 m 0 (Proc.devRef .tc main_v119) = _
  rw [V0_eq, se_v119]
  unfold Route.table
  rfl

/-- Window 0's array: the input rows gathered into padded order. -/
theorem V_xpad (c : Dev nD) : V m c main_v108 =
    Host.gather gather_S2048x512_S3072x1_S3072x512_1_0_n_n_0_1_1512
      (shapeCast S2048x512 (m ((c : Thread nD τ).loc main_arg0)) Facts₀.shapeCasts_S4x512x512_S2048x512)
      (Route.srcGatherIdx (Route.srcIdx (destOf m c))) := by
  show V0 m c (Proc.devRef .tc main_v108) = _
  rw [V0_eq]
  exact se_v108 m c

/-- Windows 1 and 3: the weights, their float format changed. -/
theorem V_w1 (c : Dev nD) : V m c main_v120 = truncf .bf16 (m ((c : Thread nD τ).loc main_arg1)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl
theorem V_w2 (c : Dev nD) : V m c main_v121 = truncf .bf16 (m ((c : Thread nD τ).loc main_arg3)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl
/-- Windows 2, 4, 5, 6: the biases and the norm's scale and shift, reshaped. -/
theorem V_b1 (c : Dev nD) : V m c main_v122 = shapeCast S8x1x2048 (m ((c : Thread nD τ).loc main_arg2)) Facts₀.shapeCasts_S8x2048_S8x1x2048 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl
theorem V_b2 (c : Dev nD) : V m c main_v123 = shapeCast S8x1x512 (m ((c : Thread nD τ).loc main_arg4)) Facts₀.shapeCasts_S8x512_S8x1x512 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl
theorem V_gamma (c : Dev nD) : V m c main_v124 = shapeCast S1x512 (m ((c : Thread nD τ).loc main_arg5)) Facts₀.shapeCasts_S512_S1x512 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl
theorem V_beta (c : Dev nD) : V m c main_v125 = shapeCast S1x512 (m ((c : Thread nD τ).loc main_arg6)) Facts₀.shapeCasts_S512_S1x512 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, List.flatten_cons, List.flatten_nil, List.append_nil, List.cons_append, List.nil_append]
  after_results_simp
  first | done | rfl

/-- After the region the result buffer holds the padded output's rows gathered back at the tokens' rows, in the
    input's shape. -/
theorem tail_eq (hO : Ok m) (c : Dev nD) :
    Pipeline.afterTail pcfgs (fun _ => adm m hO) (dats m hO) 0 (V0 m) [hostOps1] c main_v134 =
      shapeCast S4x512x512
        (Host.gather gather_S3072x512_S2048x1_S2048x512_1_0_n_n_0_1_1512
          ((dats m hO 0 c).arrAt 7 (cfgM m hO).N) (Route.destIdx (destOf m c)))
        Facts₀.shapeCasts_S2048x512_S4x512x512 := by
  unfold Pipeline.afterTail
  simp only [Gen.hostOps1, List.flatten_cons, List.flatten_nil, List.append_nil]
  after_results_simp
  have hD : Pipeline.withArrays (Pipeline.pin pcfgs (fun _ => adm m hO) 0).spec c (V0 m c)
      (fun w => (dats m hO 0 c).arrAt w (Pipeline.pin pcfgs (fun _ => adm m hO) 0).N) (Proc.devRef .tc main_v92) = destOf m c :=
    (Pipeline.withArrays_of_ne _ c (V0 m c) _ main_v92 (by exact (by decide : ∀ w, Pipeline.arrRef spec0 w ≠ main_v92))).trans (V0_dest m c)
  have hA : Pipeline.withArrays (Pipeline.pin pcfgs (fun _ => adm m hO) 0).spec c (V0 m c)
      (fun w => (dats m hO 0 c).arrAt w (Pipeline.pin pcfgs (fun _ => adm m hO) 0).N) (Proc.devRef .tc main_v126) = (dats m hO 0 c).arrAt 7 (cfgM m hO).N :=
    Pipeline.withArrays_arr spec0 (launch0 (F := F)).win.arr_inj c _ _ 7
  rw [hD, hA]
  rfl

end Cert.KernelIdeal.KHost

end
-- ==== Proof.Spec.lean ====
/-
  What both programs compute, as one function of the argument arrays over the extended reals.

  Token (b, s) has bin e = hash_bin_map[orig_input[b, s]] (a negative id counted from the end, an id past the end
  clamped). Its output row is the layer norm of the residual
      z = x + (relu(x W1[e] + b1[e]) W2[e] + b2[e]),
      out = (z - mean z) * rsqrt(var z + eps) * gamma + beta,
  with mean z = (sum z) / 512 and var z = (sum (z - mean z)^2) / 512: every token goes through exactly the expert
  of its bin, and the normalisation is local to the token's row.
-/
import Idealize.ShloMosaic.PureOps.Ideal
import Idealize.ShloMosaic.Lib.ValueIdx

noncomputable section

namespace Cert.Spec

open Idealize.ShloMosaic Idealize.ShloMosaic.ValueIdx

/-- The width 512 as the programs spell it (the f32 word of 512.0). -/
abbrev c512 : EReal := Ideal.ofBits .f32 0x44000000#32
/-- The layer norm's epsilon as the programs spell it (the f32 word nearest 1e-5). -/
abbrev eps : EReal := Ideal.ofBits .f32 0x3727C5AC#32

/-- relu(x W1 + b1) at hidden unit h. -/
def hid (x : Fin 512 → EReal) (W1 : Fin 512 → Fin 2048 → EReal) (b1 : Fin 2048 → EReal) (h : Fin 2048) : EReal :=
  max ((∑ k : Fin 512, x k * W1 k h) + b1 h) 0

/-- The expert's output relu(x W1 + b1) W2 + b2 at feature d. -/
def ffn (x : Fin 512 → EReal) (W1 : Fin 512 → Fin 2048 → EReal) (b1 : Fin 2048 → EReal)
    (W2 : Fin 2048 → Fin 512 → EReal) (b2 : Fin 512 → EReal) (d : Fin 512) : EReal :=
  (∑ h : Fin 2048, hid x W1 b1 h * W2 h d) + b2 d

/-- The mean of a row. -/
def mean (z : Fin 512 → EReal) : EReal := Ideal.div (∑ d : Fin 512, z d) c512

/-- The (biased) variance of a row. -/
def var (z : Fin 512 → EReal) : EReal := Ideal.div (∑ d : Fin 512, (z d - mean z) * (z d - mean z)) c512

/-- The layer norm of a row. -/
def ln (z g be : Fin 512 → EReal) (d : Fin 512) : EReal :=
  (z d - mean z) * Ideal.rsqrt (var z + eps) * g d + be d

/-- One token's output row from its input row and its expert's weights. -/
def row (x : Fin 512 → EReal) (W1 : Fin 512 → Fin 2048 → EReal) (b1 : Fin 2048 → EReal)
    (W2 : Fin 2048 → Fin 512 → EReal) (b2 : Fin 512 → EReal) (g be : Fin 512 → EReal) (d : Fin 512) : EReal :=
  ln (fun d' => x d' + ffn x W1 b1 W2 b2 d') g be d

/-- A token id as an index into the hash table: a negative id counted from the end. -/
def wrapId (o : BitVec 32) : BitVec 32 := if o.slt 0#32 then o + 32000#32 else o

/-- The bin word of token (b, s): the hash table at its (wrapped, clamped) id. -/
def binWord (hbm : Fin 32000 → BitVec 32) (orig : Fin 4 → Fin 512 → BitVec 32) (b : Fin 4) (s : Fin 512) : BitVec 32 :=
  hbm ⟨min (wrapId (orig b s)).toInt.toNat 31999, by omega⟩

/-- The bin of token (b, s) as an expert number (the word itself when it is one of 0 … 7). -/
def binOf (hbm : Fin 32000 → BitVec 32) (orig : Fin 4 → Fin 512 → BitVec 32) (b : Fin 4) (s : Fin 512) : Fin 8 :=
  ⟨(binWord hbm orig b s).toNat % 8, Nat.mod_lt _ (by norm_num)⟩

/-- The result at (b, s, d), of the argument arrays. -/
def outAt (x : Fin 4 → Fin 512 → Fin 512 → EReal) (W1 : Fin 8 → Fin 512 → Fin 2048 → EReal) (b1 : Fin 8 → Fin 2048 → EReal)
    (W2 : Fin 8 → Fin 2048 → Fin 512 → EReal) (b2 : Fin 8 → Fin 512 → EReal) (g be : Fin 512 → EReal)
    (orig : Fin 4 → Fin 512 → BitVec 32) (hbm : Fin 32000 → BitVec 32) (b : Fin 4) (s : Fin 512) (d : Fin 512) : EReal :=
  row (x b s) (W1 (binOf hbm orig b s)) (b1 (binOf hbm orig b s)) (W2 (binOf hbm orig b s)) (b2 (binOf hbm orig b s)) g be d

/-- The result array of the argument arrays (arrays as functions of their index vectors). -/
def out (x : (⟨3, ![4, 512, 512]⟩ : Shape).Idx → EReal) (W1 : (⟨3, ![8, 512, 2048]⟩ : Shape).Idx → EReal)
    (b1 : (⟨2, ![8, 2048]⟩ : Shape).Idx → EReal) (W2 : (⟨3, ![8, 2048, 512]⟩ : Shape).Idx → EReal)
    (b2 : (⟨2, ![8, 512]⟩ : Shape).Idx → EReal) (g be : (⟨1, ![512]⟩ : Shape).Idx → EReal)
    (orig : (⟨2, ![4, 512]⟩ : Shape).Idx → BitVec 32) (hbm : (⟨1, ![32000]⟩ : Shape).Idx → BitVec 32) :
    (⟨3, ![4, 512, 512]⟩ : Shape).Idx → EReal := fun i =>
  outAt (fun b s d => x (ix3 b s d)) (fun e k h => W1 (ix3 e k h)) (fun e h => b1 (ix2 e h)) (fun e h d => W2 (ix3 e h d))
    (fun e d => b2 (ix2 e d)) (fun d => g (ix1 d)) (fun d => be (ix1 d)) (fun b s => orig (ix2 b s)) (fun v => hbm (ix1 v))
    (i 0) (i 1) (i 2)

end Cert.Spec

end
-- ==== Proof.KBody.lean ====
/- One grid point of the kernel at the extended reals: the block it writes is, row by row, the layer norm of the
   residual of the expert applied to that row of its input block. -/
import proofs.«414385_j85753317032356_3_alg».proof.Proof.Gen.KernelIdeal.Frame
import proofs.«414385_j85753317032356_3_alg».proof.Proof.Spec
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

namespace Cert.KernelIdeal.KBody

open Idealize.ShloMosaic Idealize.ShloMosaic.TcCoe Idealize.ShloMosaic.ValueIdx Idealize.SL.Sem
open Cert.KernelIdeal Cert.KernelIdeal.Gen Cert.KernelIdeal.Facts₀

/-! ### Index facts -/

theorem hz2 : (![0, 0] : Fin 2 → Nat) = fun _ => 0 := funext fun a => by fin_cases a <;> rfl
theorem hz3 : (![0, 0, 0] : Fin 3 → Nat) = fun _ => 0 := funext fun a => by fin_cases a <;> rfl

section Layout
variable {α : Type}

/-- A vector of length a seen as a column [a, 1] reads, at (i, u), the vector at i. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (i, j), the column at i. -/
theorem bcast_col {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ### A row's sum -/

/-- The sum along the lanes of a [128, 512] block, at row r, is the sum of the row's 512 entries. -/
theorem lane_sum (z : FVec Ideal S128x512 .f32) (hacc : (0x00000000#32 : BitVec 32) = 0x00000000#32) (r : Fin 128) :
    multiReduction (F := Ideal) .add [1] S128 z 0x00000000#32 Gen.reduces_S128x512_S128 (.inl rfl) hacc (ix1 r)
      = ∑ d : Fin 512, z (ix2 r d) := by
  refine (Ideal.multiReduction_add_single z 0x00000000#32 Gen.reduces_S128x512_S128 (.inl rfl) hacc (ix1 r)).trans ?_
  show ∑ k : Fin 512, z (Gen.reduces_S128x512_S128.lift (ix1 r) k) = _
  refine Finset.sum_congr rfl fun k _ => congrArg z ?_
  funext c; apply Fin.ext
  match c with
  | ⟨0, _⟩ => rfl
  | ⟨1, _⟩ => rfl

/-! ### The 128×512 by 512×2048 product -/

theorem lhs1_0 (j : S128x2048.Idx) (k : dot_S128x512_S512x2048_S128x2048_1_0_0_1_n_n.contr.Idx) : (dot_S128x512_S512x2048_S128x2048_1_0_0_1_n_n.lhsIdx j k 0).val = (j 0).val := by
  unfold DotDims.lhsIdx
  rw [dif_neg (show ¬(0 : Fin S128x512.rank) ∈ dot_S128x512_S512x2048_S128x2048_1_0_0_1_n_n.lhsBatch by decide),
    dif_pos (show (0 : Fin S128x512.rank) ∈ dot_S128x512_S512x2048_S128x2048_1_0_0_1_n_n.lhsNonContracting by decide)]
  rfl

theorem lhs1_1 (j : S128x2048.Idx) (k : dot_S128x512_S512x2048_S128x2048_1_0_0_1_n_n.contr.Idx) : (dot_S128x512_S512x2048_S128x2048_1_0_0_1_n_n.lhsIdx j k 1).val = (k ⟨0, Nat.one_pos⟩).val :=
  dot_S128x512_S512x2048_S128x2048_1_0_0_1_n_n.lhsIdx_val_of_single rfl j k

theorem rhs1_0 (j : S128x2048.Idx) (k : dot_S128x512_S512x2048_S128x2048_1_0_0_1_n_n.contr.Idx) : (dot_S128x512_S512x2048_S128x2048_1_0_0_1_n_n.rhsIdx j k 0).val = (k ⟨0, Nat.one_pos⟩).val :=
  dot_S128x512_S512x2048_S128x2048_1_0_0_1_n_n.rhsIdx_val_of_single rfl j k

theorem rhs1_1 (j : S128x2048.Idx) (k : dot_S128x512_S512x2048_S128x2048_1_0_0_1_n_n.contr.Idx) : (dot_S128x512_S512x2048_S128x2048_1_0_0_1_n_n.rhsIdx j k 1).val = (j 1).val := by
  unfold DotDims.rhsIdx
  rw [dif_neg (show ¬(1 : Fin S512x2048.rank) ∈ dot_S128x512_S512x2048_S128x2048_1_0_0_1_n_n.rhsBatch by decide),
    dif_pos (show (1 : Fin S512x2048.rank) ∈ dot_S128x512_S512x2048_S128x2048_1_0_0_1_n_n.rhsNonContracting by decide)]
  rfl

/-- The product into a zero accumulator, at (r, c): the sum over the contracted coordinate of the entries' products. -/
theorem mm1 (A : FVec Ideal S128x512 .bf16) (B : FVec Ideal S512x2048 .bf16) (r : Fin 128) (c : Fin 2048) :
    matmul dot_S128x512_S512x2048_S128x2048_1_0_0_1_n_n none A B (constant (F := Ideal) S128x2048 .f32 0x00000000#32) (ix2 r c)
      = ∑ k : Fin 512, A (ix2 r k) * B (ix2 k c) := by
  show FloatOps.matmul dot_S128x512_S512x2048_S128x2048_1_0_0_1_n_n none A B (constant (F := Ideal) S128x2048 .f32 0x00000000#32) (ix2 r c) = _
  rw [Ideal.matmul_constant_zero_apply, ← Equiv.sum_comp (contrEquiv1 dot_S128x512_S512x2048_S128x2048_1_0_0_1_n_n 512 rfl rfl).symm]
  refine Finset.sum_congr rfl fun k _ => ?_
  have ck := contrEquiv1_symm_val dot_S128x512_S512x2048_S128x2048_1_0_0_1_n_n 512 rfl rfl k
  have el : dot_S128x512_S512x2048_S128x2048_1_0_0_1_n_n.lhsIdx (ix2 r c) ((contrEquiv1 dot_S128x512_S512x2048_S128x2048_1_0_0_1_n_n 512 rfl rfl).symm k) = ix2 r k := by
    funext ax; apply Fin.ext
    match ax with
    | ⟨0, _⟩ => exact lhs1_0 _ _
    | ⟨1, _⟩ => exact (lhs1_1 _ _).trans ck
  have er : dot_S128x512_S512x2048_S128x2048_1_0_0_1_n_n.rhsIdx (ix2 r c) ((contrEquiv1 dot_S128x512_S512x2048_S128x2048_1_0_0_1_n_n 512 rfl rfl).symm k) = ix2 k c := by
    funext ax; apply Fin.ext
    match ax with
    | ⟨0, _⟩ => exact (rhs1_0 _ _).trans ck
    | ⟨1, _⟩ => exact rhs1_1 _ _
  rw [el, er]

/-! ### The 128×2048 by 2048×512 product -/

theorem lhs2_0 (j : S128x512.Idx) (k : dot_S128x2048_S2048x512_S128x512_1_0_0_1_n_n.contr.Idx) : (dot_S128x2048_S2048x512_S128x512_1_0_0_1_n_n.lhsIdx j k 0).val = (j 0).val := by
  unfold DotDims.lhsIdx
  rw [dif_neg (show ¬(0 : Fin S128x2048.rank) ∈ dot_S128x2048_S2048x512_S128x512_1_0_0_1_n_n.lhsBatch by decide),
    dif_pos (show (0 : Fin S128x2048.rank) ∈ dot_S128x2048_S2048x512_S128x512_1_0_0_1_n_n.lhsNonContracting by decide)]
  rfl

theorem lhs2_1 (j : S128x512.Idx) (k : dot_S128x2048_S2048x512_S128x512_1_0_0_1_n_n.contr.Idx) : (dot_S128x2048_S2048x512_S128x512_1_0_0_1_n_n.lhsIdx j k 1).val = (k ⟨0, Nat.one_pos⟩).val :=
  dot_S128x2048_S2048x512_S128x512_1_0_0_1_n_n.lhsIdx_val_of_single rfl j k

theorem rhs2_0 (j : S128x512.Idx) (k : dot_S128x2048_S2048x512_S128x512_1_0_0_1_n_n.contr.Idx) : (dot_S128x2048_S2048x512_S128x512_1_0_0_1_n_n.rhsIdx j k 0).val = (k ⟨0, Nat.one_pos⟩).val :=
  dot_S128x2048_S2048x512_S128x512_1_0_0_1_n_n.rhsIdx_val_of_single rfl j k

theorem rhs2_1 (j : S128x512.Idx) (k : dot_S128x2048_S2048x512_S128x512_1_0_0_1_n_n.contr.Idx) : (dot_S128x2048_S2048x512_S128x512_1_0_0_1_n_n.rhsIdx j k 1).val = (j 1).val := by
  unfold DotDims.rhsIdx
  rw [dif_neg (show ¬(1 : Fin S2048x512.rank) ∈ dot_S128x2048_S2048x512_S128x512_1_0_0_1_n_n.rhsBatch by decide),
    dif_pos (show (1 : Fin S2048x512.rank) ∈ dot_S128x2048_S2048x512_S128x512_1_0_0_1_n_n.rhsNonContracting by decide)]
  rfl

/-- The product into a zero accumulator, at (r, c): the sum over the contracted coordinate of the entries' products. -/
theorem mm2 (A : FVec Ideal S128x2048 .bf16) (B : FVec Ideal S2048x512 .bf16) (r : Fin 128) (c : Fin 512) :
    matmul dot_S128x2048_S2048x512_S128x512_1_0_0_1_n_n none A B (constant (F := Ideal) S128x512 .f32 0x00000000#32) (ix2 r c)
      = ∑ k : Fin 2048, A (ix2 r k) * B (ix2 k c) := by
  show FloatOps.matmul dot_S128x2048_S2048x512_S128x512_1_0_0_1_n_n none A B (constant (F := Ideal) S128x512 .f32 0x00000000#32) (ix2 r c) = _
  rw [Ideal.matmul_constant_zero_apply, ← Equiv.sum_comp (contrEquiv1 dot_S128x2048_S2048x512_S128x512_1_0_0_1_n_n 2048 rfl rfl).symm]
  refine Finset.sum_congr rfl fun k _ => ?_
  have ck := contrEquiv1_symm_val dot_S128x2048_S2048x512_S128x512_1_0_0_1_n_n 2048 rfl rfl k
  have el : dot_S128x2048_S2048x512_S128x512_1_0_0_1_n_n.lhsIdx (ix2 r c) ((contrEquiv1 dot_S128x2048_S2048x512_S128x512_1_0_0_1_n_n 2048 rfl rfl).symm k) = ix2 r k := by
    funext ax; apply Fin.ext
    match ax with
    | ⟨0, _⟩ => exact lhs2_0 _ _
    | ⟨1, _⟩ => exact (lhs2_1 _ _).trans ck
  have er : dot_S128x2048_S2048x512_S128x512_1_0_0_1_n_n.rhsIdx (ix2 r c) ((contrEquiv1 dot_S128x2048_S2048x512_S128x512_1_0_0_1_n_n 2048 rfl rfl).symm k) = ix2 k c := by
    funext ax; apply Fin.ext
    match ax with
    | ⟨0, _⟩ => exact (rhs2_0 _ _).trans ck
    | ⟨1, _⟩ => exact rhs2_1 _ _
  rw [el, er]

/-! ### The residual -/

/-- The residual z = x + (relu(x W1 + b1) W2 + b2) of the block's rows, at (r, d). -/
theorem pay2_apply (x0 : Vec Ideal S128x512 .f32) (x1 : Vec Ideal S1x512x2048 .bf16) (x2 : Vec Ideal S1x1x2048 .f32)
    (x3 : Vec Ideal S1x2048x512 .bf16) (x4 : Vec Ideal S1x1x512 .f32) (r : Fin 128) (d : Fin 512) :
    k0_pay2 (F := Ideal) x0 x1 x2 x3 x4 (ix2 r d)
      = x0 (ix2 r d) + Cert.Spec.ffn (fun k => x0 (ix2 r k)) (fun k h => x1 (ix3 0 k h)) (fun h => x2 (ix3 0 0 h))
          (fun h d' => x3 (ix3 0 h d')) (fun d' => x4 (ix3 0 0 d')) d := by
  unfold k0_pay2
  simp only [addf_apply, maximumf_apply, truncf_apply, broadcast_apply, shapeCast_self, mm2, mm1,
    broadcastTo_1b_ab_apply, shapeCast_1ab_ab_apply, Ideal.ofBits_def, Ideal.ofBits_zero_f32]
  rfl

/-! ### The row statistics and the normalised row -/

/-- The reciprocal square root of a vector, entry by entry. -/
theorem rsqrt_apply {s : Shape} {φ : FTy} (a : FVec Ideal s φ) (i : s.Idx) : rsqrt a i = Ideal.rsqrt (a i) := rfl

/-- The mean column: at row r, the mean of the residual's row r. -/
theorem pay3_apply (x0 : Vec Ideal S128x512 .f32) (x1 : Vec Ideal S1x512x2048 .bf16) (x2 : Vec Ideal S1x1x2048 .f32)
    (x3 : Vec Ideal S1x2048x512 .bf16) (x4 : Vec Ideal S1x1x512 .f32) (r : Fin 128) (u : Fin 1) :
    k0_pay3 (F := Ideal) x0 x1 x2 x3 x4 (ix2 r u)
      = Cert.Spec.mean (fun d => k0_pay2 (F := Ideal) x0 x1 x2 x3 x4 (ix2 r d)) := by
  unfold k0_pay3
  simp only [divf_apply, broadcast_apply, cast_col, Ideal.ofBits_def]
  exact congrArg (fun s => Ideal.div s Cert.Spec.c512) (lane_sum (k0_pay2 (F := Ideal) x0 x1 x2 x3 x4) _ r)

/-- The scale column: at row r, the reciprocal square root of the (biased) variance of the residual's row r plus
    epsilon; the deviations are taken from the mean column. -/
theorem pay4_apply (x0 : Vec Ideal S128x512 .f32) (x1 : Vec Ideal S1x512x2048 .bf16) (x2 : Vec Ideal S1x1x2048 .f32)
    (x3 : Vec Ideal S1x2048x512 .bf16) (x4 : Vec Ideal S1x1x512 .f32) (r : Fin 128) (u : Fin 1) :
    k0_pay4 (F := Ideal) x0 x1 x2 x3 x4 (ix2 r u)
      = Ideal.rsqrt (Cert.Spec.var (fun d => k0_pay2 (F := Ideal) x0 x1 x2 x3 x4 (ix2 r d)) + Cert.Spec.eps) := by
  unfold k0_pay4
  simp only [rsqrt_apply, addf_apply, divf_apply, broadcast_apply, cast_col, Ideal.ofBits_def]
  refine congrArg (fun s => Ideal.rsqrt (Ideal.div s Cert.Spec.c512 + Cert.Spec.eps)) ((lane_sum _ _ r).trans ?_)
  refine Finset.sum_congr rfl fun d _ => ?_
  simp only [mulf_apply, subf_apply, bcast_col, pay3_apply]

/-- The stored block from a residual block z, a mean column, a scale column and the two parameter rows:
    (z - mean) * scale * gamma + beta, each column read at its row, each parameter row at its feature. -/
theorem pay1_apply (z : FVec Ideal S128x512 .f32) (mu sc : FVec Ideal S128x1 .f32) (g be : Vec Ideal S1x512 .f32)
    (r : Fin 128) (d : Fin 512) :
    k0_pay1 (F := Ideal) z mu sc g be (ix2 r d)
      = (z (ix2 r d) - mu (ix2 r 0)) * sc (ix2 r 0) * g (ix2 0 d) + be (ix2 0 d) := by
  unfold k0_pay1
  simp only [addf_apply, mulf_apply, subf_apply, bcast_col, broadcastTo_1b_ab_apply, shapeCast_self]

/-! ### What the body stores

The body loads its seven input blocks whole, computes, and stores one whole block: the stored block is the last
payload of the loaded blocks, whatever the buffer held before. -/

section Stored
variable {F : FTy → Type} [FloatOps F]

theorem stored (c : Dev nD) (i : grid0.Coords)
    (arg2 : Memref sig .tc .vmem S128x512 .f32) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S128x512 .f32) (harg9 : arg9.IsWhole)
    (x0 : Vec F S128x512 .f32) (x1 : Vec F S1x512x2048 .bf16) (x2 : Vec F S1x1x2048 .f32) (x3 : Vec F S1x2048x512 .bf16)
    (x4 : Vec F S1x1x512 .f32) (x5 : Vec F S1x512 .f32) (x6 : Vec F S1x512 .f32) (xt0 : TbBuf0 (F := F) c tbM0_0) :
    out0_A_7 (F := F) c i arg2 harg2 arg3 harg3 arg4 harg4 arg5 harg5 arg6 harg6 arg7 harg7 arg8 harg8 arg9 harg9 x0 x1 x2 x3 x4 x5 x6 xt0
      = k0_pay1 (k0_pay2 x0 x1 x2 x3 x4) (k0_pay3 x0 x1 x2 x3 x4) (k0_pay4 x0 x1 x2 x3 x4) x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, View.ld_unit_zero (S := S128x512) hz2, View.ld_unit_zero (S := S1x512) hz2,
    View.ld_unit_zero (S := S1x512x2048) hz3, View.ld_unit_zero (S := S1x1x2048) hz3, View.ld_unit_zero (S := S1x2048x512) hz3,
    View.ld_unit_zero (S := S1x1x512) hz3]

end Stored

/-- Row r, feature d of the output block the body leaves, from the blocks it loads: the token's row through the
    block's expert weights, then the layer norm. -/
theorem out_row (c : Dev nD) (i : grid0.Coords)
    (arg2 : Memref sig .tc .vmem S128x512 .f32) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S128x512 .f32) (harg9 : arg9.IsWhole)
    (x0 : Vec Ideal S128x512 .f32) (x1 : Vec Ideal S1x512x2048 .bf16) (x2 : Vec Ideal S1x1x2048 .f32) (x3 : Vec Ideal S1x2048x512 .bf16)
    (x4 : Vec Ideal S1x1x512 .f32) (x5 : Vec Ideal S1x512 .f32) (x6 : Vec Ideal S1x512 .f32) (xt0 : TbBuf0 (F := Ideal) c tbM0_0)
    (r : Fin 128) (d : Fin 512) :
    out0_A_7 (F := Ideal) c i arg2 harg2 arg3 harg3 arg4 harg4 arg5 harg5 arg6 harg6 arg7 harg7 arg8 harg8 arg9 harg9 x0 x1 x2 x3 x4 x5 x6 xt0 (ix2 r d)
      = Cert.Spec.row (fun k => x0 (ix2 r k)) (fun k h => x1 (ix3 0 k h)) (fun h => x2 (ix3 0 0 h)) (fun h d' => x3 (ix3 0 h d'))
          (fun d' => x4 (ix3 0 0 d')) (fun d' => x5 (ix2 0 d')) (fun d' => x6 (ix2 0 d')) d := by
  refine (congrFun (stored (F := Ideal) c i arg2 harg2 arg3 harg3 arg4 harg4 arg5 harg5 arg6 harg6 arg7 harg7 arg8 harg8 arg9 harg9
    x0 x1 x2 x3 x4 x5 x6 xt0) (ix2 r d)).trans ?_
  have hrow : (fun d' => k0_pay2 (F := Ideal) x0 x1 x2 x3 x4 (ix2 r d'))
      = fun d' => x0 (ix2 r d') + Cert.Spec.ffn (fun k => x0 (ix2 r k)) (fun k h => x1 (ix3 0 k h)) (fun h => x2 (ix3 0 0 h))
          (fun h d'' => x3 (ix3 0 h d'')) (fun d'' => x4 (ix3 0 0 d'')) d' :=
    funext fun d' => pay2_apply x0 x1 x2 x3 x4 r d'
  rw [pay1_apply, pay3_apply, pay4_apply, hrow, pay2_apply]
  rfl

end Cert.KernelIdeal.KBody

end
-- ==== Proof.KArray.lean ====
/- The kernel's output array after the whole grid: row p of the padded output is the layer norm of the residual of
   row p of the padded input through the expert that owns p's tile. -/
import proofs.«414385_j85753317032356_3_alg».proof.Proof.KBody

set_option maxRecDepth 16384

noncomputable section

namespace Cert.KernelIdeal.KArray

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The tile of a padded row. -/
def tileOf (p : Fin 3072) : Fin 24 := ⟨p.val / 128, by omega⟩

/-- The owner the prefetched table gives a tile, as an expert number. -/
def owner (t : Fin 24) : Fin 8 := ⟨((tbl m 0 : IVec S24 32) (ix1 t)).toNat % 8, Nat.mod_lt _ (by norm_num)⟩

/-- The padded output at row p, feature d. -/
def outpadAt (c : Dev nD) (p : Fin 3072) (d : Fin 512) : EReal :=
  Cert.Spec.row (fun k => (V m c main_v108 : FVec Ideal S3072x512 .f32) (ix2 p k))
    (fun k h => (V m c main_v120 : FVec Ideal S8x512x2048 .bf16) (ix3 (owner m (tileOf p)) k h))
    (fun h => (V m c main_v122 : FVec Ideal S8x1x2048 .f32) (ix3 (owner m (tileOf p)) 0 h))
    (fun h d' => (V m c main_v121 : FVec Ideal S8x2048x512 .bf16) (ix3 (owner m (tileOf p)) h d'))
    (fun d' => (V m c main_v123 : FVec Ideal S8x1x512 .f32) (ix3 (owner m (tileOf p)) 0 d'))
    (fun d' => (V m c main_v124 : FVec Ideal S1x512 .f32) (ix2 0 d'))
    (fun d' => (V m c main_v125 : FVec Ideal S1x512 .f32) (ix2 0 d')) d

/-! ## Grid points and the index maps -/

/-- The windows that move with the grid point sit at block (t, 0); the two parameter rows at block (0, 0). -/
theorem tr7 : ∀ t : Fin grid0.N, cc0_transform_7 (grid0.coords t) = ![t.val, 0] := by decide +kernel
theorem tr0 : ∀ t : Fin grid0.N, cc0_transform_0 (grid0.coords t) = ![t.val, 0] := by decide +kernel
theorem tr5 : ∀ t : Fin grid0.N, cc0_transform_5 (grid0.coords t) = ![0, 0] := by decide +kernel
theorem tr6 : ∀ t : Fin grid0.N, cc0_transform_6 (grid0.coords t) = ![0, 0] := by decide +kernel

/-- The word of the table an index map reads at grid point t is the table's entry t. -/
theorem tix : ∀ t : Fin grid0.N, (Rect.unit (s := S24) ![(Scalar.indexCast (BitVec.ofNat 32 ((grid0.coords t) 0).val)).toNat] S1.size (k0_off1_inb (grid0.coords t))).emb (Shape.Idx.first (numel1_S1.symm ▸ Nat.one_pos)) = (ix1 t : S24.Idx) := by decide +kernel

/-- The four weight windows sit at block (table[t], 0, 0), whatever the table holds. -/
theorem tr1 (pf : pre0.Contents (Elt Ideal)) (t : Fin grid0.N) : cc0_transform_1 k0_off1_inb numel1_S1 pf (grid0.coords t) = ![((pf 0 : IVec S24 32) (ix1 t)).toNat, 0, 0] :=
  congrArg (fun y : S24.Idx => (![((pf 0 : IVec S24 32) y).toNat, 0, 0] : Fin 3 → Nat)) (tix t)
theorem tr2 (pf : pre0.Contents (Elt Ideal)) (t : Fin grid0.N) : cc0_transform_2 k0_off1_inb numel1_S1 pf (grid0.coords t) = ![((pf 0 : IVec S24 32) (ix1 t)).toNat, 0, 0] :=
  congrArg (fun y : S24.Idx => (![((pf 0 : IVec S24 32) y).toNat, 0, 0] : Fin 3 → Nat)) (tix t)
theorem tr3 (pf : pre0.Contents (Elt Ideal)) (t : Fin grid0.N) : cc0_transform_3 k0_off1_inb numel1_S1 pf (grid0.coords t) = ![((pf 0 : IVec S24 32) (ix1 t)).toNat, 0, 0] :=
  congrArg (fun y : S24.Idx => (![((pf 0 : IVec S24 32) y).toNat, 0, 0] : Fin 3 → Nat)) (tix t)
theorem tr4 (pf : pre0.Contents (Elt Ideal)) (t : Fin grid0.N) : cc0_transform_4 k0_off1_inb numel1_S1 pf (grid0.coords t) = ![((pf 0 : IVec S24 32) (ix1 t)).toNat, 0, 0] :=
  congrArg (fun y : S24.Idx => (![((pf 0 : IVec S24 32) y).toNat, 0, 0] : Fin 3 → Nat)) (tix t)

/-- A table under which every weight block lies inside its array names one of the eight experts at every point. -/
theorem tbl_lt (pf : pre0.Contents (Elt Ideal)) (hok : ok0 pf) (t : Fin grid0.N) : ((pf 0 : IVec S24 32) (ix1 t)).toNat < 8 := by
  have h := (hok.1 (grid0.coords t)).elim fun h _ => h 0
  rw [tr1 pf t] at h
  have h' : (((pf 0 : IVec S24 32) (ix1 t)).toNat + 1) * 1 ≤ 8 := h
  omega

/-! ## Where a block's entries sit in its array -/

theorem blk0_emb (a : (pcfg0 (F := Ideal)).Adm) (t : Fin (cfg0 a).N) (r : Fin 128) (k : Fin 512) (p : Fin 3072) (hp : p.val = t.val * 128 + r.val) :
    (((cfg0 a).win 0).blk t).view.emb (ix2 r k) = (ix2 p k : S3072x512.Idx) := by
  funext x; apply Fin.ext
  have e := tr0 t
  match x with
  | ⟨0, _⟩ =>
    show cc0_transform_0 (grid0.coords t) 0 * 128 + 1 * r.val = p.val
    rw [e]; show t.val * 128 + 1 * r.val = p.val; omega
  | ⟨1, _⟩ =>
    show cc0_transform_0 (grid0.coords t) 1 * 512 + 1 * k.val = k.val
    rw [e]; show 0 * 512 + 1 * k.val = k.val; omega

theorem blk7_emb (a : (pcfg0 (F := Ideal)).Adm) (t : Fin (cfg0 a).N) (r : Fin 128) (k : Fin 512) (p : Fin 3072) (hp : p.val = t.val * 128 + r.val) :
    (((cfg0 a).win 7).blk t).view.emb (ix2 r k) = (ix2 p k : S3072x512.Idx) := by
  funext x; apply Fin.ext
  have e := tr7 t
  match x with
  | ⟨0, _⟩ =>
    show cc0_transform_7 (grid0.coords t) 0 * 128 + 1 * r.val = p.val
    rw [e]; show t.val * 128 + 1 * r.val = p.val; omega
  | ⟨1, _⟩ =>
    show cc0_transform_7 (grid0.coords t) 1 * 512 + 1 * k.val = k.val
    rw [e]; show 0 * 512 + 1 * k.val = k.val; omega

theorem blk1_emb (a : (pcfg0 (F := Ideal)).Adm) (t : Fin (cfg0 a).N) (k : Fin 512) (h : Fin 2048) (e : Fin 8) (he : e.val = ((a.1 0 : IVec S24 32) (ix1 (t : Fin 24))).toNat) :
    (((cfg0 a).win 1).blk t).view.emb (ix3 0 k h) = (ix3 e k h : S8x512x2048.Idx) := by
  funext x; apply Fin.ext
  have q := tr1 a.1 t
  match x with
  | ⟨0, _⟩ =>
    show cc0_transform_1 k0_off1_inb numel1_S1 a.1 (grid0.coords t) 0 * 1 + 1 * 0 = e.val
    rw [q]; show ((a.1 0 : IVec S24 32) (ix1 (t : Fin 24))).toNat * 1 + 1 * 0 = e.val; omega
  | ⟨1, _⟩ =>
    show cc0_transform_1 k0_off1_inb numel1_S1 a.1 (grid0.coords t) 1 * 512 + 1 * k.val = k.val
    rw [q]; show 0 * 512 + 1 * k.val = k.val; omega
  | ⟨2, _⟩ =>
    show cc0_transform_1 k0_off1_inb numel1_S1 a.1 (grid0.coords t) 2 * 2048 + 1 * h.val = h.val
    rw [q]; show 0 * 2048 + 1 * h.val = h.val; omega

theorem blk2_emb (a : (pcfg0 (F := Ideal)).Adm) (t : Fin (cfg0 a).N) (h : Fin 2048) (e : Fin 8) (he : e.val = ((a.1 0 : IVec S24 32) (ix1 (t : Fin 24))).toNat) :
    (((cfg0 a).win 2).blk t).view.emb (ix3 0 0 h) = (ix3 e 0 h : S8x1x2048.Idx) := by
  funext x; apply Fin.ext
  have q := tr2 a.1 t
  match x with
  | ⟨0, _⟩ =>
    show cc0_transform_2 k0_off1_inb numel1_S1 a.1 (grid0.coords t) 0 * 1 + 1 * 0 = e.val
    rw [q]; show ((a.1 0 : IVec S24 32) (ix1 (t : Fin 24))).toNat * 1 + 1 * 0 = e.val; omega
  | ⟨1, _⟩ =>
    show cc0_transform_2 k0_off1_inb numel1_S1 a.1 (grid0.coords t) 1 * 1 + 1 * 0 = 0
    rw [q]; rfl
  | ⟨2, _⟩ =>
    show cc0_transform_2 k0_off1_inb numel1_S1 a.1 (grid0.coords t) 2 * 2048 + 1 * h.val = h.val
    rw [q]; show 0 * 2048 + 1 * h.val = h.val; omega

theorem blk3_emb (a : (pcfg0 (F := Ideal)).Adm) (t : Fin (cfg0 a).N) (h : Fin 2048) (k : Fin 512) (e : Fin 8) (he : e.val = ((a.1 0 : IVec S24 32) (ix1 (t : Fin 24))).toNat) :
    (((cfg0 a).win 3).blk t).view.emb (ix3 0 h k) = (ix3 e h k : S8x2048x512.Idx) := by
  funext x; apply Fin.ext
  have q := tr3 a.1 t
  match x with
  | ⟨0, _⟩ =>
    show cc0_transform_3 k0_off1_inb numel1_S1 a.1 (grid0.coords t) 0 * 1 + 1 * 0 = e.val
    rw [q]; show ((a.1 0 : IVec S24 32) (ix1 (t : Fin 24))).toNat * 1 + 1 * 0 = e.val; omega
  | ⟨1, _⟩ =>
    show cc0_transform_3 k0_off1_inb numel1_S1 a.1 (grid0.coords t) 1 * 2048 + 1 * h.val = h.val
    rw [q]; show 0 * 2048 + 1 * h.val = h.val; omega
  | ⟨2, _⟩ =>
    show cc0_transform_3 k0_off1_inb numel1_S1 a.1 (grid0.coords t) 2 * 512 + 1 * k.val = k.val
    rw [q]; show 0 * 512 + 1 * k.val = k.val; omega

theorem blk4_emb (a : (pcfg0 (F := Ideal)).Adm) (t : Fin (cfg0 a).N) (k : Fin 512) (e : Fin 8) (he : e.val = ((a.1 0 : IVec S24 32) (ix1 (t : Fin 24))).toNat) :
    (((cfg0 a).win 4).blk t).view.emb (ix3 0 0 k) = (ix3 e 0 k : S8x1x512.Idx) := by
  funext x; apply Fin.ext
  have q := tr4 a.1 t
  match x with
  | ⟨0, _⟩ =>
    show cc0_transform_4 k0_off1_inb numel1_S1 a.1 (grid0.coords t) 0 * 1 + 1 * 0 = e.val
    rw [q]; show ((a.1 0 : IVec S24 32) (ix1 (t : Fin 24))).toNat * 1 + 1 * 0 = e.val; omega
  | ⟨1, _⟩ =>
    show cc0_transform_4 k0_off1_inb numel1_S1 a.1 (grid0.coords t) 1 * 1 + 1 * 0 = 0
    rw [q]; rfl
  | ⟨2, _⟩ =>
    show cc0_transform_4 k0_off1_inb numel1_S1 a.1 (grid0.coords t) 2 * 512 + 1 * k.val = k.val
    rw [q]; show 0 * 512 + 1 * k.val = k.val; omega

theorem blk5_emb (a : (pcfg0 (F := Ideal)).Adm) (t : Fin (cfg0 a).N) (k : Fin 512) :
    (((cfg0 a).win 5).blk t).view.emb (ix2 0 k) = (ix2 0 k : S1x512.Idx) := by
  funext x; apply Fin.ext
  have q := tr5 t
  match x with
  | ⟨0, _⟩ =>
    show cc0_transform_5 (grid0.coords t) 0 * 1 + 1 * 0 = 0
    rw [q]; rfl
  | ⟨1, _⟩ =>
    show cc0_transform_5 (grid0.coords t) 1 * 512 + 1 * k.val = k.val
    rw [q]; show 0 * 512 + 1 * k.val = k.val; omega

theorem blk6_emb (a : (pcfg0 (F := Ideal)).Adm) (t : Fin (cfg0 a).N) (k : Fin 512) :
    (((cfg0 a).win 6).blk t).view.emb (ix2 0 k) = (ix2 0 k : S1x512.Idx) := by
  funext x; apply Fin.ext
  have q := tr6 t
  match x with
  | ⟨0, _⟩ =>
    show cc0_transform_6 (grid0.coords t) 0 * 1 + 1 * 0 = 0
    rw [q]; rfl
  | ⟨1, _⟩ =>
    show cc0_transform_6 (grid0.coords t) 1 * 512 + 1 * k.val = k.val
    rw [q]; show 0 * 512 + 1 * k.val = k.val; omega

/-! ## A block read off its array -/

theorem read0 (a : (pcfg0 (F := Ideal)).Adm) (t : Fin (cfg0 a).N) (f : FVec Ideal S3072x512 .f32) (r : Fin 128) (k : Fin 512) (p : Fin 3072) (hp : p.val = t.val * 128 + r.val) :
    (((cfg0 a).win 0).blk t).view.read (Elt Ideal) f (ix2 r k) = f (ix2 p k) := by
  exact congrArg f (blk0_emb a t r k p hp)

theorem read7 (a : (pcfg0 (F := Ideal)).Adm) (t : Fin (cfg0 a).N) (f : FVec Ideal S3072x512 .f32) (r : Fin 128) (k : Fin 512) (p : Fin 3072) (hp : p.val = t.val * 128 + r.val) :
    (((cfg0 a).win 7).blk t).view.read (Elt Ideal) f (ix2 r k) = f (ix2 p k) := by
  exact congrArg f (blk7_emb a t r k p hp)

theorem read1 (a : (pcfg0 (F := Ideal)).Adm) (t : Fin (cfg0 a).N) (f : FVec Ideal S8x512x2048 .bf16) (k : Fin 512) (h : Fin 2048) (e : Fin 8) (he : e.val = ((a.1 0 : IVec S24 32) (ix1 (t : Fin 24))).toNat) :
    (((cfg0 a).win 1).blk t).view.read (Elt Ideal) f (ix3 0 k h) = f (ix3 e k h) := by
  exact congrArg f (blk1_emb a t k h e he)

theorem read2 (a : (pcfg0 (F := Ideal)).Adm) (t : Fin (cfg0 a).N) (f : FVec Ideal S8x1x2048 .f32) (h : Fin 2048) (e : Fin 8) (he : e.val = ((a.1 0 : IVec S24 32) (ix1 (t : Fin 24))).toNat) :
    (((cfg0 a).win 2).blk t).view.read (Elt Ideal) f (ix3 0 0 h) = f (ix3 e 0 h) := by
  exact congrArg f (blk2_emb a t h e he)

theorem read3 (a : (pcfg0 (F := Ideal)).Adm) (t : Fin (cfg0 a).N) (f : FVec Ideal S8x2048x512 .bf16) (h : Fin 2048) (k : Fin 512) (e : Fin 8) (he : e.val = ((a.1 0 : IVec S24 32) (ix1 (t : Fin 24))).toNat) :
    (((cfg0 a).win 3).blk t).view.read (Elt Ideal) f (ix3 0 h k) = f (ix3 e h k) := by
  exact congrArg f (blk3_emb a t h k e he)

theorem read4 (a : (pcfg0 (F := Ideal)).Adm) (t : Fin (cfg0 a).N) (f : FVec Ideal S8x1x512 .f32) (k : Fin 512) (e : Fin 8) (he : e.val = ((a.1 0 : IVec S24 32) (ix1 (t : Fin 24))).toNat) :
    (((cfg0 a).win 4).blk t).view.read (Elt Ideal) f (ix3 0 0 k) = f (ix3 e 0 k) := by
  exact congrArg f (blk4_emb a t k e he)

theorem read5 (a : (pcfg0 (F := Ideal)).Adm) (t : Fin (cfg0 a).N) (f : FVec Ideal S1x512 .f32) (k : Fin 512) :
    (((cfg0 a).win 5).blk t).view.read (Elt Ideal) f (ix2 0 k) = f (ix2 0 k) := by
  exact congrArg f (blk5_emb a t k)

theorem read6 (a : (pcfg0 (F := Ideal)).Adm) (t : Fin (cfg0 a).N) (f : FVec Ideal S1x512 .f32) (k : Fin 512) :
    (((cfg0 a).win 6).blk t).view.read (Elt Ideal) f (ix2 0 k) = f (ix2 0 k) := by
  exact congrArg f (blk6_emb a t k)

/-! ## The input blocks of a point, read off the arrays the run finds -/

/-- Under the side condition the owner of a tile is the table's word itself. -/
theorem owner_val (hO : Ok m) (t : Fin 24) : (owner m t).val = ((tbl m 0 : IVec S24 32) (ix1 t)).toNat :=
  Nat.mod_eq_of_lt (tbl_lt (tbl m) hO t)

theorem iread0 (hO : Ok m) (c : Dev nD) (t : Fin (cfgM m hO).N) (r : Fin 128) (k : Fin 512) (p : Fin 3072) (hp : p.val = t.val * 128 + r.val) :
    (iblk m hO c 0 t : Vec Ideal S128x512 .f32) (ix2 r k) = (V m c main_v108 : FVec Ideal S3072x512 .f32) (ix2 p k) := by
  unfold iblk
  exact read0 (adm m hO) t (V m c main_v108) r k p hp

theorem iread1 (hO : Ok m) (c : Dev nD) (t : Fin (cfgM m hO).N) (k : Fin 512) (h : Fin 2048) (e : Fin 8) (he : e.val = ((tbl m 0 : IVec S24 32) (ix1 (t : Fin 24))).toNat) :
    (iblk m hO c 1 t : Vec Ideal S1x512x2048 .bf16) (ix3 0 k h) = (V m c main_v120 : FVec Ideal S8x512x2048 .bf16) (ix3 e k h) := by
  unfold iblk
  exact read1 (adm m hO) t (V m c main_v120) k h e he

theorem iread2 (hO : Ok m) (c : Dev nD) (t : Fin (cfgM m hO).N) (h : Fin 2048) (e : Fin 8) (he : e.val = ((tbl m 0 : IVec S24 32) (ix1 (t : Fin 24))).toNat) :
    (iblk m hO c 2 t : Vec Ideal S1x1x2048 .f32) (ix3 0 0 h) = (V m c main_v122 : FVec Ideal S8x1x2048 .f32) (ix3 e 0 h) := by
  unfold iblk
  exact read2 (adm m hO) t (V m c main_v122) h e he

theorem iread3 (hO : Ok m) (c : Dev nD) (t : Fin (cfgM m hO).N) (h : Fin 2048) (k : Fin 512) (e : Fin 8) (he : e.val = ((tbl m 0 : IVec S24 32) (ix1 (t : Fin 24))).toNat) :
    (iblk m hO c 3 t : Vec Ideal S1x2048x512 .bf16) (ix3 0 h k) = (V m c main_v121 : FVec Ideal S8x2048x512 .bf16) (ix3 e h k) := by
  unfold iblk
  exact read3 (adm m hO) t (V m c main_v121) h k e he

theorem iread4 (hO : Ok m) (c : Dev nD) (t : Fin (cfgM m hO).N) (k : Fin 512) (e : Fin 8) (he : e.val = ((tbl m 0 : IVec S24 32) (ix1 (t : Fin 24))).toNat) :
    (iblk m hO c 4 t : Vec Ideal S1x1x512 .f32) (ix3 0 0 k) = (V m c main_v123 : FVec Ideal S8x1x512 .f32) (ix3 e 0 k) := by
  unfold iblk
  exact read4 (adm m hO) t (V m c main_v123) k e he

theorem iread5 (hO : Ok m) (c : Dev nD) (t : Fin (cfgM m hO).N) (k : Fin 512) :
    (iblk m hO c 5 t : Vec Ideal S1x512 .f32) (ix2 0 k) = (V m c main_v124 : FVec Ideal S1x512 .f32) (ix2 0 k) := by
  unfold iblk
  exact read5 (adm m hO) t (V m c main_v124) k

theorem iread6 (hO : Ok m) (c : Dev nD) (t : Fin (cfgM m hO).N) (k : Fin 512) :
    (iblk m hO c 6 t : Vec Ideal S1x512 .f32) (ix2 0 k) = (V m c main_v125 : FVec Ideal S1x512 .f32) (ix2 0 k) := by
  unfold iblk
  exact read6 (adm m hO) t (V m c main_v125) k

/-- The row function takes equal arguments to equal values. -/
theorem row_congr {x x' : Fin 512 → EReal} {W1 W1' : Fin 512 → Fin 2048 → EReal} {b1 b1' : Fin 2048 → EReal}
    {W2 W2' : Fin 2048 → Fin 512 → EReal} {b2 b2' g g' be be' : Fin 512 → EReal} (d : Fin 512)
    (h0 : ∀ k, x k = x' k) (h1 : ∀ k h, W1 k h = W1' k h) (h2 : ∀ h, b1 h = b1' h) (h3 : ∀ h k, W2 h k = W2' h k)
    (h4 : ∀ k, b2 k = b2' k) (h5 : ∀ k, g k = g' k) (h6 : ∀ k, be k = be' k) :
    Cert.Spec.row x W1 b1 W2 b2 g be d = Cert.Spec.row x' W1' b1' W2' b2' g' be' d := by
  obtain rfl : x = x' := funext h0
  obtain rfl : W1 = W1' := funext fun k => funext (h1 k)
  obtain rfl : b1 = b1' := funext h2
  obtain rfl : W2 = W2' := funext fun h => funext (h3 h)
  obtain rfl : b2 = b2' := funext h4
  obtain rfl : g = g' := funext h5
  obtain rfl : be = be' := funext h6
  rfl

/-! ## What a point writes back, and the whole array -/

/-- The padded output as one function of the array's index. -/
def Gout (c : Dev nD) : FVec Ideal S3072x512 .f32 := fun y => outpadAt m c (y 0) (y 1)

/-- Entry (r, d) of the block point t writes back is the padded output at row t·128 + r. -/
theorem flushed_pt (hO : Ok m) (c : Dev nD) (t : Fin (cfgM m hO).N) (r : Fin 128) (d : Fin 512) :
    out0_A_7 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (ix2 r d)
      = (((cfgM m hO).win 7).blk t).view.read (Elt Ideal) (Gout m c) (ix2 r d) := by
  have ht : t.val < 24 := t.isLt
  have hr : r.val < 128 := r.isLt
  let p : Fin 3072 := ⟨t.val * 128 + r.val, by omega⟩
  have hp : p.val = t.val * 128 + r.val := rfl
  have hT : tileOf p = (⟨t.val, ht⟩ : Fin 24) := Fin.ext (by show (t.val * 128 + r.val) / 128 = t.val; omega)
  have he : (owner m (tileOf p)).val = ((tbl m 0 : IVec S24 32) (ix1 (t : Fin 24))).toNat := by
    rw [hT]; exact owner_val m hO ⟨t.val, ht⟩
  refine (KBody.out_row c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) r d).trans ?_
  refine Eq.trans ?_ (read7 (adm m hO) t (Gout m c) r d p hp).symm
  show _ = outpadAt m c p d
  unfold outpadAt
  exact row_congr d (fun k => iread0 m hO c t r k p hp) (fun k h => iread1 m hO c t k h _ he) (fun h => iread2 m hO c t h _ he)
    (fun h k => iread3 m hO c t h k _ he) (fun k => iread4 m hO c t k _ he) (fun k => iread5 m hO c t k) (fun k => iread6 m hO c t k)

/-- The same at any index of the block. -/
theorem flushed_idx (hO : Ok m) (c : Dev nD) (t : Fin (cfgM m hO).N) (j : S128x512.Idx) :
    out0_A_7 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) j
      = (((cfgM m hO).win 7).blk t).view.read (Elt Ideal) (Gout m c) j := by
  obtain ⟨r, d, rfl⟩ : ∃ (r : Fin 128) (d : Fin 512), j = ix2 r d := ⟨j 0, j 1, eq_ix2 j⟩
  exact flushed_pt m hO c t r d

/-- What point t writes back is its block of the padded output. -/
theorem flushed_eq (hO : Ok m) (c : Dev nD) (t : Fin (cfgM m hO).N) :
    (dats m hO 0 c).flushed 7 t = (((cfgM m hO).win 7).blk t).view.read (Elt Ideal) (Gout m c) := by
  show ((cfgM m hO).win 7).cut ((cfgM m hO).grid.coords t) ((dats m hO 0 c).after 7 t) = _
  rw [after0_7]
  unfold outsAt0
  funext j
  exact flushed_idx m hO c t j

/-- Row p of the array is entry (p mod 128, ·) of the block of point p / 128. -/
theorem cover (a : (pcfg0 (F := Ideal)).Adm) (i : S3072x512.Idx) :
    ∃ t : Fin (cfg0 a).N, ((cfg0 a).win 7).flush t = true ∧ i ∈ (((cfg0 a).win 7).blk t).view.set := by
  have hi0 : (i 0).val < 3072 := (i 0).isLt
  have hlt : (i 0).val / 128 < (cfg0 a).N := by show _ < 24; omega
  have hr : (i 0).val % 128 < 128 := Nat.mod_lt _ (by norm_num)
  refine ⟨⟨(i 0).val / 128, hlt⟩, flush0_7 a _, ?_⟩
  have key : (((cfg0 a).win 7).blk ⟨(i 0).val / 128, hlt⟩).view.emb (ix2 ⟨(i 0).val % 128, hr⟩ (i 1)) = i :=
    (blk7_emb a ⟨(i 0).val / 128, hlt⟩ ⟨(i 0).val % 128, hr⟩ (i 1) (i 0)
      (by show (i 0).val = (i 0).val / 128 * 128 + (i 0).val % 128; omega)).trans (eq_ix2 i).symm
  exact Finset.mem_map.mpr ⟨_, Finset.mem_univ _, key⟩

/-- After the run window 7's array is the padded output everywhere. -/
theorem final (hO : Ok m) (c : Dev nD) : (dats m hO 0 c).arrAt 7 (cfgM m hO).N = Gout m c :=
  (dats m hO 0 c).arrAt_eq_of_cover 7 (Gout m c) (fun t _ => flushed_eq m hO c t) (cover (adm m hO))

/-- After the run window 7's array holds the padded output. -/
theorem outpad_eq (hO : Ok m) (c : Dev nD) (p : Fin 3072) (d : Fin 512) :
    ((dats m hO 0 c).arrAt 7 (cfgM m hO).N : FVec Ideal S3072x512 .f32) (ix2 p d) = outpadAt m c p d :=
  congrFun (final m hO c) (ix2 p d)

end Cert.KernelIdeal.KArray

end
-- ==== Proof.RouteNat.lean ====
/-
  The routing of tokens into padded tiles, over the natural numbers.

  Tokens j < 2048 carry bins b j < 8. With g e the number of tokens of bin e, bin e gets nT e = ceil(g e / 128)
  tiles of 128 rows, starting at tile ts e = nT 0 + … + nT (e-1). Token j goes to row
  dest j = 128 * ts (b j) + rank j, rank j being the number of earlier tokens of its bin. The rows are distinct,
  below 3072 = 128 * (2048 / 128 + 8), and the tile of row dest j belongs to bin b j: the owner of tile t is
  (the number of bins that start at or before t) - 1.
-/
import Mathlib.Data.Fintype.Card
import Mathlib.Algebra.BigOperators.Fin
import Mathlib.Tactic

namespace Cert.RouteNat

variable (b : Fin 2048 → Fin 8)

/-- The number of tokens of bin e. -/
def g (e : Fin 8) : ℕ := (Finset.univ.filter fun j : Fin 2048 => b j = e).card
/-- The tiles of bin e. -/
def nT (e : Fin 8) : ℕ := (g b e + 127) / 128
/-- The first tile of bin e: the tiles of the bins before it. -/
def ts (e : Fin 8) : ℕ := ∑ e' ∈ Finset.univ.filter (fun e' : Fin 8 => e' < e), nT b e'
/-- The number of tokens of j's bin up to and including j. -/
def cnt (j : Fin 2048) : ℕ := (Finset.univ.filter fun j' : Fin 2048 => j' ≤ j ∧ b j' = b j).card
/-- The rank of token j inside its bin. -/
def rank (j : Fin 2048) : ℕ := cnt b j - 1
/-- The padded row of token j. -/
def dest (j : Fin 2048) : ℕ := ts b (b j) * 128 + rank b j
/-- The owner of tile t: (the number of bins starting at or before t) - 1, clipped into [0, 7] (the subtraction
    over the integers, as the program computes it). -/
def eOf (t : ℕ) : ℕ := (min 7 (max 0 (((Finset.univ.filter fun e : Fin 8 => ts b e ≤ t).card : ℤ) - 1))).toNat

/-- A bin holds at most all the tokens. -/
theorem g_le (e : Fin 8) : g b e ≤ 2048 := by
  unfold g
  calc (Finset.univ.filter fun j : Fin 2048 => b j = e).card
      ≤ (Finset.univ : Finset (Fin 2048)).card := Finset.card_filter_le _ _
    _ = 2048 := by simp

/-- The bins partition the tokens. -/
theorem sum_g : ∑ e, g b e = 2048 := by
  have h := Finset.card_eq_sum_card_fiberwise (f := b) (s := Finset.univ) (t := Finset.univ)
    (fun x _ => Finset.mem_univ _)
  simp only [Finset.card_univ, Fintype.card_fin] at h
  exact h.symm

theorem mul_nT_le (e : Fin 8) : 128 * nT b e ≤ g b e + 127 := by
  unfold nT; omega

/-- The tiles of a bin hold all its tokens. -/
theorem le_mul_nT (e : Fin 8) : g b e ≤ 128 * nT b e := by
  unfold nT; omega

/-- All the tiles together: 128 * (sum of tiles) ≤ 2048 + 8 * 127, so at most 24 tiles (in fact 23). -/
theorem sum_nT_le : ∑ e, nT b e ≤ 24 := by
  have h2 : ∑ e, 128 * nT b e ≤ ∑ e, (g b e + 127) :=
    Finset.sum_le_sum (fun e _ => mul_nT_le b e)
  rw [← Finset.mul_sum, Finset.sum_add_distrib, sum_g] at h2
  simp at h2
  omega

/-- The tiles of the bins up to and including e. -/
theorem ts_add_nT_eq (e : Fin 8) :
    ts b e + nT b e = ∑ e' ∈ Finset.univ.filter (fun e' : Fin 8 => e' ≤ e), nT b e' := by
  have hs : (Finset.univ.filter fun e' : Fin 8 => e' ≤ e)
      = insert e (Finset.univ.filter fun e' : Fin 8 => e' < e) := by
    ext x
    simp only [Finset.mem_filter, Finset.mem_univ, true_and, Finset.mem_insert]
    exact le_iff_eq_or_lt
  have hn : e ∉ Finset.univ.filter fun e' : Fin 8 => e' < e := by simp
  rw [hs, Finset.sum_insert hn, add_comm]
  rfl

theorem ts_add_nT_le (e : Fin 8) : ts b e + nT b e ≤ 24 := by
  rw [ts_add_nT_eq]
  exact le_trans (Finset.sum_le_sum_of_subset (Finset.filter_subset _ _)) (sum_nT_le b)

/-- A later bin starts after all the tiles of an earlier one. -/
theorem ts_add_nT_le_ts {e e' : Fin 8} (h : e < e') : ts b e + nT b e ≤ ts b e' := by
  rw [ts_add_nT_eq]
  unfold ts
  apply Finset.sum_le_sum_of_subset
  intro x
  simp only [Finset.mem_filter, Finset.mem_univ, true_and]
  intro hx
  exact lt_of_le_of_lt hx h

theorem ts_mono {e e' : Fin 8} (h : e ≤ e') : ts b e ≤ ts b e' := by
  unfold ts
  apply Finset.sum_le_sum_of_subset
  intro x
  simp only [Finset.mem_filter, Finset.mem_univ, true_and]
  intro hx
  exact lt_of_lt_of_le hx h

theorem ts_le (e : Fin 8) : ts b e ≤ 24 := by
  have := ts_add_nT_le b e
  omega

theorem cnt_pos (j : Fin 2048) : 1 ≤ cnt b j := by
  unfold cnt
  apply Finset.card_pos.mpr
  exact ⟨j, by simp⟩

theorem cnt_le (j : Fin 2048) : cnt b j ≤ g b (b j) := by
  unfold cnt g
  apply Finset.card_le_card
  intro x
  simp only [Finset.mem_filter, Finset.mem_univ, true_and]
  exact fun h => h.2

/-- Inside one bin the running count strictly grows with the token. -/
theorem cnt_lt_of_lt {j j' : Fin 2048} (hb : b j = b j') (h : j < j') : cnt b j < cnt b j' := by
  unfold cnt
  apply Finset.card_lt_card
  rw [Finset.ssubset_iff_of_subset]
  · refine ⟨j', by simp, ?_⟩
    simp only [Finset.mem_filter, Finset.mem_univ, true_and, not_and]
    intro hle
    exact absurd hle (not_le.mpr h)
  · intro x
    simp only [Finset.mem_filter, Finset.mem_univ, true_and]
    rintro ⟨h1, h2⟩
    exact ⟨le_trans h1 h.le, by rw [h2, hb]⟩

theorem rank_lt (j : Fin 2048) : rank b j < g b (b j) := by
  have h1 := cnt_pos b j
  have h2 := cnt_le b j
  unfold rank
  omega

/-- A token's row is inside the tiles of its bin. -/
theorem dest_lt_end (j : Fin 2048) : dest b j < 128 * (ts b (b j) + nT b (b j)) := by
  have h1 := rank_lt b j
  have h2 := le_mul_nT b (b j)
  unfold dest
  omega

theorem ts_mul_le_dest (j : Fin 2048) : 128 * ts b (b j) ≤ dest b j := by
  unfold dest
  omega

/-- Every token's row is inside the padded array. -/
theorem dest_lt (j : Fin 2048) : dest b j < 3072 := by
  have h1 := dest_lt_end b j
  have h2 := ts_add_nT_le b (b j)
  omega

theorem dest_lt_of_bin_lt {j j' : Fin 2048} (h : b j < b j') : dest b j < dest b j' := by
  have h1 := dest_lt_end b j
  have h2 := ts_add_nT_le_ts b h
  have h3 := ts_mul_le_dest b j'
  omega

theorem dest_lt_of_same_bin {j j' : Fin 2048} (hb : b j = b j') (h : j < j') :
    dest b j < dest b j' := by
  have h1 := cnt_lt_of_lt b hb h
  have h2 := cnt_pos b j
  unfold dest rank
  rw [hb]
  omega

/-- Distinct tokens go to distinct rows. -/
theorem dest_inj : Function.Injective (dest b) := by
  intro j j' h
  by_contra hne
  rcases lt_trichotomy (b j) (b j') with hb | hb | hb
  · exact absurd h (dest_lt_of_bin_lt b hb).ne
  · rcases lt_or_gt_of_ne hne with hj | hj
    · exact absurd h (dest_lt_of_same_bin b hb hj).ne
    · exact absurd h.symm (dest_lt_of_same_bin b hb.symm hj).ne
  · exact absurd h.symm (dest_lt_of_bin_lt b hb).ne

/-- The bins starting at or before the tile of token j's row are exactly the bins up to j's. -/
theorem filter_ts_le_dest (j : Fin 2048) :
    (Finset.univ.filter fun e : Fin 8 => ts b e ≤ dest b j / 128)
      = Finset.univ.filter fun e : Fin 8 => e ≤ b j := by
  ext e
  simp only [Finset.mem_filter, Finset.mem_univ, true_and]
  have h1 := dest_lt_end b j
  have h3 := ts_mul_le_dest b j
  constructor
  · intro h
    by_contra hlt
    have h4 := ts_add_nT_le_ts b (not_le.mp hlt)
    omega
  · intro h
    have h4 := ts_mono b h
    omega

theorem card_filter_le_fin8 : ∀ a : Fin 8, (Finset.univ.filter fun e : Fin 8 => e ≤ a).card = a.val + 1 := by
  decide

/-- The tile of token j's row belongs to j's bin. -/
theorem eOf_dest (j : Fin 2048) : eOf b (dest b j / 128) = (b j).val := by
  unfold eOf
  rw [filter_ts_le_dest, card_filter_le_fin8]
  have := (b j).isLt
  push_cast
  omega

theorem eOf_lt (t : ℕ) : eOf b t < 8 := by
  unfold eOf
  omega

end Cert.RouteNat
-- ==== Proof.RouteWordA.lean ====
/- The per-bin quantities of the routing, read as natural numbers: the 32-bit words the host prelude computes for
   the group sizes, the tile counts, the tiles' starts and the tiles' owners are the numbers of the routing over ℕ
   (no word overflows: every count is at most 2048). -/
import proofs.«414385_j85753317032356_3_alg».proof.Proof.Gen.KernelIdeal
import proofs.«414385_j85753317032356_3_alg».proof.Proof.Route
import proofs.«414385_j85753317032356_3_alg».proof.Proof.RouteNat
import Idealize.ShloMosaic.Lib.ValueIdx
import Idealize.ShloMosaic.Lib.ValueIdxRank1
import Idealize.ShloMosaic.Lib.StableHlo.Predicate
import Idealize.ShloMosaic.Lib.Pipeline.Value
import Idealize.ShloMosaic.Lib.WordSum
import Idealize.ShloMosaic.Lib.FinSumWindow

set_option maxRecDepth 16384

noncomputable section

namespace Cert.KernelIdeal.RouteWord

open Idealize.ShloMosaic Idealize.ShloMosaic.ValueIdx
open Cert.KernelIdeal

/-! ## Reading lemmas over generic vectors -/

namespace PerBin

/-- The rank-1 index at a coordinate, in its two spellings. -/
theorem ofFin_eq_ix1 {n : Nat} (k : Fin n) : Shape.Idx.ofFin k = ix1 k := by
  funext a
  match a with
  | ⟨0, _⟩ => exact Fin.ext rfl

open StableHlo.Predicate in
/-- The entry (j, e) of the table of "bin of j is e". -/
theorem eqMask_iff (b : IVec S2048 32) (j : Fin 2048) (e : Fin 8) :
    cmpi .eq (broadcastInDim S2048x8 ![0, 1] Facts₀.bcast_S2048x1_S2048x8_0_1 (broadcastInDim S2048x1 ![0] Facts₀.bcast_S2048_S2048x1_0 b))
      (broadcastInDim S2048x8 ![0, 1] Facts₀.bcast_S1x8_S2048x8_0_1 (broadcastInDim S1x8 ![1] Facts₀.bcast_S8_S1x8_1 (iotaInDim S8 32 0))) (ij j e) = 1#1
    ↔ (b (ix1 j)).toNat = e.val := by
  show IntOp.cmpi .eq _ _ = 1#1 ↔ _
  rw [bcast_rows, bcast_cols, iota_apply, cmpi_eq_iff, ofFin_eq_ix1]
  constructor
  · intro h
    rw [h, BitVec.toNat_ofNat]
    have := e.isLt
    omega
  · intro h
    apply BitVec.eq_of_toNat_eq
    rw [h, BitVec.toNat_ofNat]
    have := e.isLt
    omega

/-- A clip into 0 … 7: the larger of 0 and w, then the smaller of 7 and that, is a word below 8. -/
theorem clip_lt (w : BitVec 32) : (IntOp.minsi 7#32 (IntOp.maxsi 0#32 w)).toNat < 8 := by
  have key : ∀ m : BitVec 32, 0 ≤ m.toInt → m.toInt ≤ 7 → m.toNat < 8 := by
    intro m h0 h7
    rw [BitVec.toInt_eq_toNat_cond] at h0 h7
    split at h0 <;> omega
  have h0 : (0#32 : BitVec 32).toInt = 0 := by decide
  have h7 : (7#32 : BitVec 32).toInt = 7 := by decide
  apply key
  · unfold IntOp.minsi IntOp.maxsi
    simp only [BitVec.slt, h0, h7, decide_eq_true_eq]
    split_ifs <;> omega
  · unfold IntOp.minsi IntOp.maxsi
    simp only [BitVec.slt, h0, h7, decide_eq_true_eq]
    split_ifs <;> omega

/-- The floor division by 128 as the program spells it (quotient, signs, remainder, correction), on a positive word
    below 2^31: the dividend's sign is the divisor's, so no correction applies and the result is the quotient of the values. -/
theorem floorDiv128_word (v : BitVec 32) (hpos : 0 < v.toNat) (hlt : v.toNat < 2 ^ 31) :
    (Scalar.select
        (IntOp.andi
          (IntOp.cmpi CmpIPredicate.ne (if v = 0 then (0 : BitVec 32) else if v.msb = true then -1 else 1)
            (if 128#32 = 0 then (0 : BitVec 32) else if (128#32 : BitVec 32).msb = true then -1 else 1))
          (IntOp.cmpi CmpIPredicate.ne (IntOp.remsi ArithUnit.host v 128#32) 0#32))
        (IntOp.subi (IntOp.divsi ArithUnit.host v 128#32) 1#32) (IntOp.divsi ArithUnit.host v 128#32)).toNat
      = v.toNat / 128 := by
  have hm : v.msb = false := BitVec.msb_eq_false_iff_two_mul_lt.mpr (by omega)
  have hne : ¬ v = 0 := by
    intro h; rw [h] at hpos; simp at hpos
  have hs : (if 128#32 = 0 then (0 : BitVec 32) else if (128#32 : BitVec 32).msb = true then -1 else 1) = 1#32 := by decide
  have hc : IntOp.cmpi .ne (1 : BitVec 32) (1#32) = 0#1 := by decide
  have ha : ∀ x : BitVec 1, IntOp.andi 0#1 x = 0#1 := by decide
  rw [if_neg hne, hm, hs]
  simp only [Bool.false_eq_true, if_false]
  rw [hc, ha, select_zero]
  have hcorner : ¬ IntOp.SDivCorner v 128#32 := by
    intro hc; rcases hc with hc | ⟨_, hc⟩ <;> exact absurd hc (by decide)
  simp only [IntOp.divsi, if_neg hcorner, BitVec.sdiv_eq, hm, show (128#32 : BitVec 32).msb = false from by decide, BitVec.udiv_eq,
    BitVec.toNat_udiv, BitVec.toNat_ofNat]

/-- The tiles of a count: for a word g of value at most 2048 the program's tile count is the number (g + 127) / 128. -/
theorem nTiles_word (g : IVec S8 32) (i : S8.Idx) (hg : (g i).toNat ≤ 2048) :
    (Route.nTiles g i).toNat = ((g i).toNat + 127) / 128 := by
  have hvn : (IntOp.subi (IntOp.addi (g i) 128#32) 1#32).toNat = (g i).toNat + 127 := by
    simp only [IntOp.subi, IntOp.addi, BitVec.toNat_sub, BitVec.toNat_add, BitVec.toNat_ofNat]
    omega
  simp only [Route.nTiles, select, andi, cmpi, subi, addi, signi, Host.divsi, Host.remsi, broadcastInDim, constantI, id]
  refine (floorDiv128_word (IntOp.subi (IntOp.addi (g i) 128#32) 1#32) (by omega) (by omega)).trans ?_
  rw [hvn]

/-- A left fold of word additions from zero over a whole range is the sum of the words. -/
theorem foldl_addi_finRange {M : Nat} (G : Fin M → BitVec 32) :
    (List.finRange M).foldl (fun r n => IntOp.addi r (G n)) 0#32 = ∑ n, G n := by
  have gen : ∀ (L : List (Fin M)) (a : BitVec 32), L.foldl (fun r n => IntOp.addi r (G n)) a = a + (L.map G).sum := by
    intro L
    induction L with
    | nil => intro a; simp
    | cons y L ih =>
      intro a
      rw [List.foldl_cons, ih, List.map_cons, List.sum_cons]
      show (a + G y) + _ = _
      rw [add_assoc]
  rw [gen, Fin.sum_univ_def]
  show (0 : BitVec 32) + _ = _
  rw [zero_add]

/-- A window sum over N positions, padded N - 1 below: position m of the window at k reads entry k + m - (N - 1) when
    that is not negative, and the padding otherwise; so the window at k sums the entries up to and including k. -/
theorem reduceWindow_prefix {N P : Nat} (hNP : P + 1 = N) (x : IVec ⟨1, ![N]⟩ 32) {u : Shape} (init : IVec u 32)
    (hu : 0 < u.numel) (hinit : init (Shape.Idx.first hu) = 0#32)
    (h : (⟨1, ![N]⟩ : Shape).ReduceWindows ![N] ![1] ![P] ![0] ⟨1, ![N]⟩) (k : Fin N) :
    Host.reduceWindow IntOp.addi ![N] ![1] ![P] ![0] x init h hu (ix1 k)
      = ∑ i ∈ Finset.univ.filter (fun i : Fin N => i ≤ k), x (ix1 i) := by
  have hk := k.isLt
  unfold Host.reduceWindow
  simp only [hinit]
  rw [foldl_addi_finRange]
  rw [← Equiv.sum_comp ((idxEquiv1 (n := N)).symm.trans (⟨1, ![N]⟩ : Shape).rowMajor)]
  simp only [Equiv.trans_apply, Equiv.symm_apply_apply]
  have hG : ∀ m : Fin N, (if h_1 :
          ∀ (a : Fin 1),
            ![P] a ≤ ↑(ix1 k (Fin.cast h.1.symm a)) * ![1] a + ↑((idxEquiv1 (n := N)).symm m a) ∧
              ↑(ix1 k (Fin.cast h.1.symm a)) * ![1] a + ↑((idxEquiv1 (n := N)).symm m a) - ![P] a < ![N] a then
        x fun a => ⟨↑(ix1 k (Fin.cast h.1.symm a)) * ![1] a + ↑((idxEquiv1 (n := N)).symm m a) - ![P] a, (h_1 a).2⟩
      else 0#32) = if hc : P ≤ k.val + m.val then x (ix1 ⟨k.val + m.val - P, by have := m.isLt; omega⟩) else 0#32 := by
    intro m
    have hm := m.isLt
    by_cases hc : P ≤ k.val + m.val
    · rw [dif_pos hc, dif_pos ?_]
      · congr 1
        funext a
        match a with
        | ⟨0, _⟩ => exact Fin.ext (by show k.val * 1 + m.val - P = k.val + m.val - P; omega)
      · intro a
        match a with
        | ⟨0, _⟩ =>
          show P ≤ k.val * 1 + m.val ∧ k.val * 1 + m.val - P < N
          omega
    · rw [dif_neg hc, dif_neg ?_]
      intro hin
      have h0 := (hin 0).1
      have : P ≤ k.val * 1 + m.val := h0
      omega
  rw [Finset.sum_congr rfl (fun m _ => hG m)]
  have hL := FinSumWindow.sum_window (N := N) (W := k.val + 1) (P - k.val) (by omega)
    (fun m : Fin N => if hc : P ≤ k.val + m.val then x (ix1 ⟨k.val + m.val - P, by have := m.isLt; omega⟩) else 0#32)
    (by
      intro m hm
      have := m.isLt
      refine (dif_neg ?_).trans rfl
      intro hc
      apply hm
      omega)
  have hR := FinSumWindow.sum_window (N := N) (W := k.val + 1) 0 (by omega) (fun i : Fin N => if i ≤ k then x (ix1 i) else (0 : BitVec 32))
    (by
      intro i hi
      refine (if_neg ?_).trans rfl
      intro hle
      apply hi
      have : i.val ≤ k.val := hle
      omega)
  rw [Finset.sum_filter, hR, hL]
  apply Finset.sum_congr rfl
  intro p _
  have hp := p.isLt
  rw [dif_pos (by show P ≤ k.val + (P - k.val + p.val); omega), if_pos (by show (0 + p.val) ≤ k.val; omega)]
  congr 2
  exact Fin.ext (by show k.val + (P - k.val + p.val) - P = 0 + p.val; omega)

/-- The first tile of a bin as a number: the window sums are the inclusive prefix sums, the slice and the zero in front
    shift them by one place, so entry e is the sum of the entries before e (nothing wraps while the whole sum stays
    inside the word). -/
theorem tileStarts_word (n : IVec S8 32) (e : Fin 8) (hsum : ∑ i : Fin 8, (n (ix1 i)).toNat < 2 ^ 32) :
    (Route.tileStarts n (ix1 e)).toNat = ∑ e' ∈ Finset.univ.filter (fun e' : Fin 8 => e' < e), (n (ix1 e')).toNat := by
  have he := e.isLt
  unfold Route.tileStarts
  by_cases h0 : e.val = 0
  · rw [concatenate_pair_apply_left (t := S8) (s₁ := S1) (s₂ := S7) (0 : Fin 1) _ _ Facts₀.concatenates_S1_S7_S8_d0 (ix1 e : S8.Idx) rfl (ix1 (0 : Fin 1) : S1.Idx)
      (by intro b; match b with | ⟨0, _⟩ => exact h0.symm)]
    have hemp : Finset.univ.filter (fun e' : Fin 8 => e' < e) = ∅ := by
      apply Finset.filter_eq_empty_iff.mpr
      intro x _ hx
      have : x.val < e.val := hx
      omega
    rw [hemp, Finset.sum_empty]
    rfl
  · rw [concatenate_pair_apply_right (t := S8) (s₁ := S1) (s₂ := S7) (0 : Fin 1) _ _ Facts₀.concatenates_S1_S7_S8_d0 (ix1 e : S8.Idx) rfl rfl (ix1 (⟨e.val - 1, by omega⟩ : Fin 7) : S7.Idx)
      (by intro b hb; match b with | ⟨0, _⟩ => exact absurd rfl hb)
      (by show e.val - 1 + 1 = e.val; omega)]
    have hsl : extractStridedSlice S7 ![0]
        (Host.reduceWindow IntOp.addi ![8] ![1] ![7] ![0] n (broadcastInDim S_ ![] Facts₀.bcast_S_S_ (constantI S_ 32 0#32))
          Facts₀.reduceWindows_S8_S8_w8s1p7_0 Facts₀.h_S_) Facts₀.slices_S8_S7_0 (ix1 (⟨e.val - 1, by omega⟩ : Fin 7))
        = Host.reduceWindow IntOp.addi ![8] ![1] ![7] ![0] n (broadcastInDim S_ ![] Facts₀.bcast_S_S_ (constantI S_ 32 0#32))
          Facts₀.reduceWindows_S8_S8_w8s1p7_0 Facts₀.h_S_ (ix1 (⟨e.val - 1, by omega⟩ : Fin 8)) := by
      unfold extractStridedSlice
      congr 1
      funext a
      match a with
      | ⟨0, _⟩ => exact Fin.ext (by show 0 + (e.val - 1) = e.val - 1; omega)
    rw [hsl, reduceWindow_prefix (N := 8) (P := 7) rfl n _ Facts₀.h_S_ rfl]
    have hset : Finset.univ.filter (fun i : Fin 8 => i ≤ (⟨e.val - 1, by omega⟩ : Fin 8)) = Finset.univ.filter (fun e' : Fin 8 => e' < e) := by
      apply Finset.filter_congr
      intro x _
      show x.val ≤ e.val - 1 ↔ x.val < e.val
      omega
    rw [hset, WordSum.toNat_sum]
    exact lt_of_le_of_lt (Finset.sum_le_sum_of_subset (Finset.filter_subset _ _)) hsum

open StableHlo.Predicate in
/-- The entry (t, q) of the table of "tile t is at or after the start of bin q", for starts below 2^31. -/
theorem geMask_iff (ts : IVec S8 32) (t : Fin 24) (q : Fin 8) (hts : (ts (ix1 q)).toNat < 2 ^ 31) :
    cmpi .sge (broadcastInDim S24x8 ![0, 1] Facts₀.bcast_S24x1_S24x8_0_1 (broadcastInDim S24x1 ![0] Facts₀.bcast_S24_S24x1_0 (iotaInDim S24 32 0)))
      (broadcastInDim S24x8 ![0, 1] Facts₀.bcast_S1x8_S24x8_0_1 (broadcastInDim S1x8 ![1] Facts₀.bcast_S8_S1x8_1 ts)) (ij t q) = 1#1
    ↔ (ts (ix1 q)).toNat ≤ t.val := by
  have ht := t.isLt
  have htn : (BitVec.ofNat 32 t.val).toNat = t.val := by rw [BitVec.toNat_ofNat]; omega
  show IntOp.cmpi .sge _ _ = 1#1 ↔ _
  rw [bcast_rows, bcast_cols, iota_apply, ofFin_eq_ix1, sge_iff_toNat (by omega) hts, htn]

/-- One less than a count of at most 8, clipped into 0 … 7, computed on words and on integers. -/
theorem clip_word (w : BitVec 32) (hw : w.toNat ≤ 8) :
    (IntOp.minsi 7#32 (IntOp.maxsi 0#32 (IntOp.subi w 1#32))).toNat = (min 7 (max 0 ((w.toNat : ℤ) - 1))).toNat := by
  have key : ∀ n : Fin 9, (IntOp.minsi 7#32 (IntOp.maxsi 0#32 (IntOp.subi (BitVec.ofNat 32 n.val) 1#32))).toNat
      = (min 7 (max 0 ((n.val : ℤ) - 1))).toNat := by decide
  have h := key ⟨w.toNat, by omega⟩
  have hw' : BitVec.ofNat 32 w.toNat = w := by simp
  dsimp only at h
  rw [hw'] at h
  exact h

open StableHlo.Predicate in
/-- The owner of tile t from starts below 2^31: (the number of bins whose start is at or before t) - 1, clipped. -/
theorem eOfT_word (ts : IVec S8 32) (t : Fin 24) (hts : ∀ q : Fin 8, (ts (ix1 q)).toNat < 2 ^ 31) :
    (Route.eOfT ts (ix1 t)).toNat
      = (min 7 (max 0 (((Finset.univ.filter fun q : Fin 8 => (ts (ix1 q)).toNat ≤ t.val).card : ℤ) - 1))).toNat := by
  have hcount : (Host.reduce IntOp.addi (extui 32 (cmpi .sge
      (broadcastInDim S24x8 ![0, 1] Facts₀.bcast_S24x1_S24x8_0_1 (broadcastInDim S24x1 ![0] Facts₀.bcast_S24_S24x1_0 (iotaInDim S24 32 0)))
      (broadcastInDim S24x8 ![0, 1] Facts₀.bcast_S1x8_S24x8_0_1 (broadcastInDim S1x8 ![1] Facts₀.bcast_S8_S1x8_1 ts))) Facts₀.natLt_1_32)
      (constantI S_ 32 0#32) Facts₀.reducesTo_S24x8_S24_d1 Facts₀.h_S_ (ix1 t)).toNat
      = (Finset.univ.filter fun q : Fin 8 => (ts (ix1 q)).toNat ≤ t.val).card := by
    rw [toNat_reduce_count_cols (by norm_num)]
    congr 1
    apply Finset.filter_congr
    intro q _
    rw [show (ix1 t : S24.Idx) 0 = t from rfl]
    exact geMask_iff ts t q (hts q)
  have hle : (Finset.univ.filter fun q : Fin 8 => (ts (ix1 q)).toNat ≤ t.val).card ≤ 8 :=
    le_trans (Finset.card_filter_le _ _) (by simp)
  rw [← hcount]
  exact clip_word _ (by rw [hcount]; exact hle)

end PerBin

open PerBin

/-! ## The routing's words are the routing's numbers -/

variable (bw : IVec S2048 32) (hb : ∀ j : Fin 2048, (bw (ix1 j)).toNat < 8)

/-- The bins as numbers below 8. -/
def binFin (j : Fin 2048) : Fin 8 := ⟨(bw (ix1 j)).toNat, hb j⟩

open StableHlo.Predicate in
theorem groupSizes_toNat (e : Fin 8) : (Route.groupSizes bw (ix1 e)).toNat = RouteNat.g (binFin bw hb) e := by
  unfold Route.groupSizes RouteNat.g
  rw [toNat_reduce_count_rows (by norm_num)]
  congr 1
  apply Finset.filter_congr
  intro j _
  rw [show (ix1 e : S8.Idx) 0 = e from rfl, eqMask_iff]
  unfold binFin
  exact ⟨fun h => Fin.ext h, fun h => congrArg Fin.val h⟩

theorem nTiles_toNat (e : Fin 8) : (Route.nTiles (Route.groupSizes bw) (ix1 e)).toNat = RouteNat.nT (binFin bw hb) e := by
  have hg := groupSizes_toNat bw hb e
  rw [nTiles_word _ _ (by rw [hg]; exact RouteNat.g_le _ e), hg]
  rfl

theorem tileStarts_toNat (e : Fin 8) :
    (Route.tileStarts (Route.nTiles (Route.groupSizes bw)) (ix1 e)).toNat = RouteNat.ts (binFin bw hb) e := by
  have hn : ∀ i : Fin 8, (Route.nTiles (Route.groupSizes bw) (ix1 i)).toNat = RouteNat.nT (binFin bw hb) i :=
    nTiles_toNat bw hb
  rw [tileStarts_word _ e (by
    rw [Finset.sum_congr rfl (fun i _ => hn i)]
    exact lt_of_le_of_lt (RouteNat.sum_nT_le _) (by norm_num))]
  unfold RouteNat.ts
  exact Finset.sum_congr rfl (fun i _ => hn i)

/-- The owner the table gives tile t is the routing's owner of tile t. -/
theorem eOfT_toNat (t : Fin 24) :
    (Route.eOfT (Route.tileStarts (Route.nTiles (Route.groupSizes bw))) (ix1 t)).toNat = RouteNat.eOf (binFin bw hb) t.val := by
  have hts : ∀ q : Fin 8, (Route.tileStarts (Route.nTiles (Route.groupSizes bw)) (ix1 q)).toNat
      = RouteNat.ts (binFin bw hb) q := tileStarts_toNat bw hb
  rw [eOfT_word _ t (fun q => by rw [hts q]; exact lt_of_le_of_lt (RouteNat.ts_le _ q) (by norm_num))]
  unfold RouteNat.eOf
  simp only [hts]

/-- Whatever the starts are, the clip leaves every owner in 0 … 7. -/
theorem eOfT_lt (ts : IVec S8 32) (t : Fin 24) : (Route.eOfT ts (ix1 t)).toNat < 8 := by
  exact clip_lt _

end Cert.KernelIdeal.RouteWord

end
-- ==== Proof.RouteWordLib.lean ====
/- Word sums that do not wrap, read as numbers: a left fold of word addition over a list, and the padded window that
   ends at each position of a vector (its sum is the inclusive prefix sum; over a widened one-bit mask, the inclusive
   prefix count). Stated for any length, for the routing's prefix sums to instantiate. -/
import proofs.«414385_j85753317032356_3_alg».proof.Proof.Gen.KernelIdeal
import proofs.«414385_j85753317032356_3_alg».proof.Proof.Route
import Idealize.ShloMosaic.Lib.ValueIdx
import Idealize.ShloMosaic.Lib.StableHlo.Predicate

set_option maxRecDepth 16384

noncomputable section

namespace Cert.KernelIdeal.RouteWord

open Idealize.ShloMosaic Idealize.ShloMosaic.ValueIdx
open Cert.KernelIdeal

/-! ## A running sum of words that does not wrap, and the window that ends at each position -/

/-- A left fold of word addition over a list, from any start, is the sum of the values as long as that sum stays
    below 2³². -/
theorem toNat_foldl_addi_list {ι : Type} (g : ι → BitVec 32) :
    ∀ (l : List ι) (acc : BitVec 32), acc.toNat + (l.map fun i => (g i).toNat).sum < 2 ^ 32 →
      (l.foldl (fun r n => IntOp.addi r (g n)) acc).toNat = acc.toNat + (l.map fun i => (g i).toNat).sum := by
  intro l
  induction l with
  | nil => intro acc _; simp
  | cons a l ih =>
    intro acc hlt
    simp only [List.map_cons, List.sum_cons] at hlt
    simp only [List.foldl_cons, List.map_cons, List.sum_cons]
    have h1 : (IntOp.addi acc (g a)).toNat = acc.toNat + (g a).toNat := by
      show (acc + g a).toNat = _
      rw [BitVec.toNat_add]; exact Nat.mod_eq_of_lt (by omega)
    rw [ih _ (by rw [h1]; omega), h1]; omega

/-- A window of N positions, padded with N − 1 zeros in front and moved by one, holds at position j the terms
    0 … j of the vector and zeros elsewhere: summed, it is the inclusive prefix sum (stated on the values, for a
    vector whose total stays below 2³²). The window position m reads term j + m − (N − 1). -/
theorem toNat_reduceWindow_prefix {N P : Nat} (hP : P + 1 = N) (x : IVec ⟨1, ![N]⟩ 32)
    (h : (⟨1, ![N]⟩ : Shape).ReduceWindows ![N] ![1] ![P] ![0] ⟨1, ![N]⟩) {u : Shape} (hu : 0 < u.numel)
    (init : IVec u 32) (hinit : init (Shape.Idx.first hu) = 0#32)
    (hx : ∑ k : Fin N, (x (ix1 k)).toNat < 2 ^ 32) (j : Fin N) :
    (Host.reduceWindow IntOp.addi ![N] ![1] ![P] ![0] x init h hu (ix1 j)).toNat
      = ∑ k ∈ Finset.univ.filter (fun k : Fin N => k ≤ j), (x (ix1 k)).toNat := by
  classical
  let X : ℕ → ℕ := fun k => if hk : k < N then (x (ix1 ⟨k, hk⟩)).toNat else 0
  let G : ℕ → BitVec 32 := fun m =>
    if hm : P ≤ j.val + m ∧ j.val + m - P < N then x (ix1 ⟨j.val + m - P, hm.2⟩) else 0#32
  have hGX : ∀ m, (G m).toNat = if P ≤ j.val + m then X (j.val + m - P) else 0 := by
    intro m
    simp only [G, X]
    by_cases h1 : P ≤ j.val + m
    · by_cases h2 : j.val + m - P < N
      · rw [dif_pos ⟨h1, h2⟩, if_pos h1, dif_pos h2]
      · rw [dif_neg (fun hh => h2 hh.2), if_pos h1, dif_neg h2]; rfl
    · rw [dif_neg (fun hh => h1 hh.1), if_neg h1]; rfl
  have hXk : ∀ k : Fin N, X k.val = (x (ix1 k)).toNat := by
    intro k; simp only [X]; rw [dif_pos k.isLt]
  unfold Host.reduceWindow
  simp only [hinit]
  refine Eq.trans (congrArg BitVec.toNat (?_ : _ = List.foldl (fun r (n : Fin (Shape.numel ⟨1, ![N]⟩)) => IntOp.addi r (G n.val)) 0#32 (List.finRange _))) ?_
  · congr 1; funext r n; congr 1
    have hnv : ((⟨1, ![N]⟩ : Shape).rowMajor.symm n 0).val = n.val := by
      have := Shape.rowMajor_val_one ((⟨1, ![N]⟩ : Shape).rowMajor.symm n)
      simp at this; exact this.symm
    by_cases hc : P ≤ j.val + n.val ∧ j.val + n.val - P < N
    · have hall : ∀ (a : Fin 1),
          (![P] : Fin 1 → ℕ) a ≤ ↑(ix1 j (Fin.cast (h.1.symm) a)) * (![1] : Fin 1 → ℕ) a + ↑((⟨1, ![N]⟩ : Shape).rowMajor.symm n a) ∧
            ↑(ix1 j (Fin.cast (h.1.symm) a)) * (![1] : Fin 1 → ℕ) a + ↑((⟨1, ![N]⟩ : Shape).rowMajor.symm n a) - (![P] : Fin 1 → ℕ) a < (![N] : Fin 1 → ℕ) a := by
        intro a
        obtain rfl : a = 0 := Subsingleton.elim _ _
        show P ≤ j.val * 1 + ((⟨1, ![N]⟩ : Shape).rowMajor.symm n 0).val ∧ j.val * 1 + ((⟨1, ![N]⟩ : Shape).rowMajor.symm n 0).val - P < N
        rw [hnv]; omega
      rw [dif_pos hall]
      simp only [G]
      rw [dif_pos hc]
      congr 1
      funext a
      obtain rfl : a = 0 := Subsingleton.elim _ _
      apply Fin.ext
      show j.val * 1 + ((⟨1, ![N]⟩ : Shape).rowMajor.symm n 0).val - P = j.val + n.val - P
      rw [hnv]; omega
    · rw [dif_neg]
      · simp only [G]; rw [dif_neg hc]
      · intro hall
        apply hc
        have h0 := hall 0
        have h0' : P ≤ j.val * 1 + ((⟨1, ![N]⟩ : Shape).rowMajor.symm n 0).val ∧ j.val * 1 + ((⟨1, ![N]⟩ : Shape).rowMajor.symm n 0).val - P < N := h0
        rw [hnv] at h0'; omega
  · have hM : Shape.numel ⟨1, ![N]⟩ = N := by simp [Shape.numel]
    have hsum : ((List.finRange (Shape.numel ⟨1, ![N]⟩)).map fun n => (G n.val).toNat).sum
        = ∑ k ∈ Finset.univ.filter (fun k : Fin N => k ≤ j), (x (ix1 k)).toNat := by
      rw [← Fin.sum_univ_def, Fin.sum_univ_eq_sum_range (fun m => (G m).toNat), hM]
      simp only [hGX]
      rw [← Finset.sum_filter]
      symm
      refine Finset.sum_bij' (fun k _ => k.val + P - j.val)
        (fun m hm => ⟨j.val + m - P, by
          simp only [Finset.mem_filter, Finset.mem_range] at hm; have := j.isLt; omega⟩) ?_ ?_ ?_ ?_ ?_
      · intro k hk
        simp only [Finset.mem_filter, Finset.mem_univ, true_and, Fin.le_def] at hk
        simp only [Finset.mem_filter, Finset.mem_range]
        have := k.isLt; omega
      · intro m hm
        simp only [Finset.mem_filter, Finset.mem_range] at hm
        simp only [Finset.mem_filter, Finset.mem_univ, true_and, Fin.le_def]
        omega
      · intro k hk
        simp only [Finset.mem_filter, Finset.mem_univ, true_and, Fin.le_def] at hk
        apply Fin.ext
        show j.val + (k.val + P - j.val) - P = k.val
        omega
      · intro m hm
        simp only [Finset.mem_filter, Finset.mem_range] at hm
        show j.val + m - P + P - j.val = m
        omega
      · intro k hk
        simp only [Finset.mem_filter, Finset.mem_univ, true_and, Fin.le_def] at hk
        show (x (ix1 k)).toNat = X (j.val + (k.val + P - j.val) - P)
        rw [show j.val + (k.val + P - j.val) - P = k.val by omega, hXk]
    rw [toNat_foldl_addi_list (fun n : Fin (Shape.numel ⟨1, ![N]⟩) => G n.val) _ 0#32]
    · rw [hsum]; simp
    · rw [hsum]
      simp only [BitVec.toNat_ofNat, Nat.zero_mod, Nat.zero_add]
      exact lt_of_le_of_lt (Finset.sum_le_sum_of_subset (Finset.filter_subset _ _)) hx

/-- The inclusive prefix count of a one-bit mask: the window of N positions ending at j, summed over the widened bits,
    counts the set positions up to and including j. -/
theorem toNat_reduceWindow_count {N P : Nat} (hP : P + 1 = N) (hN : N < 2 ^ 32) (mask : IVec ⟨1, ![N]⟩ 1) (hw : 1 < 32)
    (h : (⟨1, ![N]⟩ : Shape).ReduceWindows ![N] ![1] ![P] ![0] ⟨1, ![N]⟩) {u : Shape} (hu : 0 < u.numel)
    (init : IVec u 32) (hinit : init (Shape.Idx.first hu) = 0#32) (j : Fin N) :
    (Host.reduceWindow IntOp.addi ![N] ![1] ![P] ![0] (extui 32 mask hw) init h hu (ix1 j)).toNat
      = (Finset.univ.filter fun k : Fin N => k ≤ j ∧ mask (ix1 k) = 1#1).card := by
  classical
  have hval : ∀ i, (extui 32 mask hw i).toNat = if mask i = 1#1 then 1 else 0 :=
    fun i => StableHlo.Predicate.toNat_setWidth_bit (mask i)
  rw [toNat_reduceWindow_prefix hP _ h hu init hinit ?_ j]
  · simp only [hval]
    rw [Finset.sum_boole, Finset.filter_filter]
    simp
  · simp only [hval]
    rw [Finset.sum_boole]
    refine lt_of_le_of_lt (Finset.card_le_univ _) ?_
    simpa using hN

/-! ## A rank-1 index -/

/-- A rank-1 index written either way. -/
theorem ix1_eq_ofFin {n : Nat} (k : Fin n) : (ix1 k : (⟨1, ![n]⟩ : Shape).Idx) = Shape.Idx.ofFin k := by
  funext a
  match a with
  | ⟨0, _⟩ => exact Fin.ext rfl

end Cert.KernelIdeal.RouteWord

end
-- ==== Proof.RouteWordB.lean ====
/- The per-token quantities of the routing, read as natural numbers: the rank of a token inside its bin (eight
   passes of a prefix count) and its padded row. -/
import proofs.«414385_j85753317032356_3_alg».proof.Proof.RouteWordA
import proofs.«414385_j85753317032356_3_alg».proof.Proof.RouteWordLib
import Idealize.ShloMosaic.Lib.StableHlo.Predicate

set_option maxRecDepth 16384

noncomputable section

namespace Cert.KernelIdeal.RouteWord

open Idealize.ShloMosaic Idealize.ShloMosaic.ValueIdx
open Cert.KernelIdeal

/-! ## One pass of the ranking, and the eight passes -/

variable (bw : IVec S2048 32) (hb : ∀ j : Fin 2048, (bw (ix1 j)).toNat < 8)

/-- A pass for bin word e leaves a token of another bin as it was. -/
theorem rankStep_of_ne (e : BitVec 32) (prev : IVec S2048 32) (j : Fin 2048) (hne : bw (ix1 j) ≠ e) :
    Route.rankStep bw e prev (ix1 j) = prev (ix1 j) := by
  show Scalar.select (IntOp.cmpi .eq (bw (ix1 j)) e) _ (prev (ix1 j)) = prev (ix1 j)
  have h0 : IntOp.cmpi .eq (bw (ix1 j)) e = 0#1 :=
    eq_zero_of_ne_one (fun h1 => hne (StableHlo.Predicate.cmpi_eq_iff.mp h1))
  rw [h0, select_zero]

/-- A pass for bin word e gives a token of that bin the number of tokens of the bin up to and including it, minus
    one: the count is at least 1 (the token itself) and at most 2048, so the word subtraction is the subtraction
    of the numbers. -/
theorem rankStep_of_eq (e : BitVec 32) (prev : IVec S2048 32) (j : Fin 2048) (he : bw (ix1 j) = e) :
    (Route.rankStep bw e prev (ix1 j)).toNat
      = (Finset.univ.filter fun k : Fin 2048 => k ≤ j ∧ bw (ix1 k) = e).card - 1 := by
  classical
  have h1 : IntOp.cmpi .eq (bw (ix1 j)) e = 1#1 := StableHlo.Predicate.cmpi_eq_iff.mpr he
  have hcs := toNat_reduceWindow_count (N := 2048) (P := 2047) rfl (by norm_num)
    (cmpi .eq bw (broadcastInDim S2048 ![] Facts₀.bcast_S_S2048 (constantI S_ 32 e))) Facts₀.natLt_1_32
    Facts₀.reduceWindows_S2048_S2048_w2048s1p2047_0 Facts₀.h_S_
    (broadcastInDim S_ ![] Facts₀.bcast_S_S_ (constantI S_ 32 0#32)) rfl j
  have hset : (Finset.univ.filter fun k : Fin 2048 => k ≤ j ∧
        cmpi .eq bw (broadcastInDim S2048 ![] Facts₀.bcast_S_S2048 (constantI S_ 32 e)) (ix1 k) = 1#1)
      = Finset.univ.filter fun k : Fin 2048 => k ≤ j ∧ bw (ix1 k) = e := by
    apply Finset.filter_congr
    intro k _
    exact and_congr_right fun _ => StableHlo.Predicate.cmpi_eq_iff
  rw [hset] at hcs
  have hpos : 1 ≤ (Finset.univ.filter fun k : Fin 2048 => k ≤ j ∧ bw (ix1 k) = e).card :=
    Finset.card_pos.mpr ⟨j, by simp [he]⟩
  have hle : (Finset.univ.filter fun k : Fin 2048 => k ≤ j ∧ bw (ix1 k) = e).card ≤ 2048 := by
    refine le_trans (Finset.card_le_univ _) ?_
    simp
  show (Scalar.select (IntOp.cmpi .eq (bw (ix1 j)) e) (IntOp.subi _ 1#32) (prev (ix1 j))).toNat = _
  rw [h1, select_one]
  show (_ - 1#32 : BitVec 32).toNat = _
  rw [BitVec.toNat_sub, hcs]
  simp only [BitVec.toNat_ofNat]
  omega

/-- After the eight passes a token whose bin word is e (one of 0 … 7) holds pass e's value: the later passes leave it
    alone. -/
theorem rank_toNat_aux (j : Fin 2048) (e : BitVec 32) (he : bw (ix1 j) = e)
    (he8 : e = 0#32 ∨ e = 1#32 ∨ e = 2#32 ∨ e = 3#32 ∨ e = 4#32 ∨ e = 5#32 ∨ e = 6#32 ∨ e = 7#32) :
    (Route.rank bw (ix1 j)).toNat = (Finset.univ.filter fun k : Fin 2048 => k ≤ j ∧ bw (ix1 k) = e).card - 1 := by
  unfold Route.rank
  rcases he8 with rfl | rfl | rfl | rfl | rfl | rfl | rfl | rfl
  · rw [rankStep_of_ne bw 7#32 _ j (by rw [he]; decide), rankStep_of_ne bw 6#32 _ j (by rw [he]; decide),
      rankStep_of_ne bw 5#32 _ j (by rw [he]; decide), rankStep_of_ne bw 4#32 _ j (by rw [he]; decide),
      rankStep_of_ne bw 3#32 _ j (by rw [he]; decide), rankStep_of_ne bw 2#32 _ j (by rw [he]; decide),
      rankStep_of_ne bw 1#32 _ j (by rw [he]; decide), rankStep_of_eq bw 0#32 _ j he]
  · rw [rankStep_of_ne bw 7#32 _ j (by rw [he]; decide), rankStep_of_ne bw 6#32 _ j (by rw [he]; decide),
      rankStep_of_ne bw 5#32 _ j (by rw [he]; decide), rankStep_of_ne bw 4#32 _ j (by rw [he]; decide),
      rankStep_of_ne bw 3#32 _ j (by rw [he]; decide), rankStep_of_ne bw 2#32 _ j (by rw [he]; decide),
      rankStep_of_eq bw 1#32 _ j he]
  · rw [rankStep_of_ne bw 7#32 _ j (by rw [he]; decide), rankStep_of_ne bw 6#32 _ j (by rw [he]; decide),
      rankStep_of_ne bw 5#32 _ j (by rw [he]; decide), rankStep_of_ne bw 4#32 _ j (by rw [he]; decide),
      rankStep_of_ne bw 3#32 _ j (by rw [he]; decide), rankStep_of_eq bw 2#32 _ j he]
  · rw [rankStep_of_ne bw 7#32 _ j (by rw [he]; decide), rankStep_of_ne bw 6#32 _ j (by rw [he]; decide),
      rankStep_of_ne bw 5#32 _ j (by rw [he]; decide), rankStep_of_ne bw 4#32 _ j (by rw [he]; decide),
      rankStep_of_eq bw 3#32 _ j he]
  · rw [rankStep_of_ne bw 7#32 _ j (by rw [he]; decide), rankStep_of_ne bw 6#32 _ j (by rw [he]; decide),
      rankStep_of_ne bw 5#32 _ j (by rw [he]; decide), rankStep_of_eq bw 4#32 _ j he]
  · rw [rankStep_of_ne bw 7#32 _ j (by rw [he]; decide), rankStep_of_ne bw 6#32 _ j (by rw [he]; decide),
      rankStep_of_eq bw 5#32 _ j he]
  · rw [rankStep_of_ne bw 7#32 _ j (by rw [he]; decide), rankStep_of_eq bw 6#32 _ j he]
  · rw [rankStep_of_eq bw 7#32 _ j he]

/-- A word below 8 is one of the eight literals. -/
theorem word_lt_eight (w : BitVec 32) (hw : w.toNat < 8) :
    w = 0#32 ∨ w = 1#32 ∨ w = 2#32 ∨ w = 3#32 ∨ w = 4#32 ∨ w = 5#32 ∨ w = 6#32 ∨ w = 7#32 := by
  have h : w = BitVec.ofNat 32 w.toNat := by simp
  generalize w.toNat = n at h hw
  subst h
  interval_cases n <;> simp

/-- The rank word of a token is its rank over ℕ: two bin words below 8 are equal exactly when the bins are. -/
theorem rank_toNat (j : Fin 2048) : (Route.rank bw (ix1 j)).toNat = RouteNat.rank (binFin bw hb) j := by
  classical
  rw [rank_toNat_aux bw j _ rfl (word_lt_eight _ (hb j))]
  unfold RouteNat.rank RouteNat.cnt
  congr 2
  apply Finset.filter_congr
  intro k _
  refine and_congr_right fun _ => ?_
  constructor
  · intro h; exact Fin.ext (by show (bw (ix1 k)).toNat = (bw (ix1 j)).toNat; rw [h])
  · intro h
    have h' : (binFin bw hb k).val = (binFin bw hb j).val := congrArg Fin.val h
    exact BitVec.eq_of_toNat_eq h'

/-! ## The first tile of a token's bin, and the token's row -/

/-- The first tile of a token's bin, read at the token: a bin word in [0, 8) is not negative, so it is not wrapped,
    and it is inside the table, so the read is not clamped. -/
theorem startOfBin_toNat (ts : IVec S8 32) (j : Fin 2048) :
    Route.startOfBin ts bw (ix1 j) = ts (ix1 (binFin bw hb j)) := by
  have hlt := hb j
  have hslt : IntOp.cmpi .slt (bw (ix1 j)) 0#32 = 0#1 := by
    apply eq_zero_of_ne_one
    intro h1
    have := (StableHlo.Predicate.slt_iff_toNat (a := bw (ix1 j)) (b := 0#32) (by omega) (by decide)).mp h1
    simp at this
  have hti : (bw (ix1 j)).toInt = ((bw (ix1 j)).toNat : ℤ) :=
    StableHlo.Predicate.toInt_eq_toNat_of_lt (by omega)
  unfold Route.startOfBin
  simp only []
  rw [ix1_eq_ofFin j, StableHlo.Predicate.gather_take _ rfl rfl rfl rfl ts _ j (by norm_num),
    ix1_eq_ofFin (binFin bw hb j)]
  have hsel : select (cmpi .slt bw (broadcastInDim S2048 ![] Facts₀.bcast_S_S2048 (constantI S_ 32 0#32)))
      (addi bw (broadcastInDim S2048 ![] Facts₀.bcast_S_S2048 (constantI S_ 32 8#32))) bw (ix1 j) = bw (ix1 j) := by
    show Scalar.select (IntOp.cmpi .slt (bw (ix1 j)) 0#32) _ (bw (ix1 j)) = bw (ix1 j)
    rw [hslt, select_zero]
  congr 2
  apply Fin.ext
  show min (_ : BitVec 32).toInt.toNat (8 - 1) = (bw (ix1 j)).toNat
  rw [StableHlo.Predicate.bcast_col1, ← ix1_eq_ofFin j, hsel, hti]
  simp only [Int.toNat_natCast]
  omega

/-- The row word of a token is its row over ℕ: at most 24 tiles of 128 rows plus a rank below 2048, far below 2³². -/
theorem destPos_toNat (j : Fin 2048) : (Route.destPos bw (ix1 j)).toNat = RouteNat.dest (binFin bw hb) j := by
  have h1 := startOfBin_toNat bw hb (Route.tileStarts (Route.nTiles (Route.groupSizes bw))) j
  have h2 := tileStarts_toNat bw hb (binFin bw hb j)
  have h3 := rank_toNat bw hb j
  have h4 := RouteNat.ts_le (binFin bw hb) (binFin bw hb j)
  have h5 := RouteNat.rank_lt (binFin bw hb) j
  have h6 := RouteNat.g_le (binFin bw hb) (binFin bw hb j)
  show (IntOp.addi (IntOp.muli (Route.startOfBin _ bw (ix1 j)) 128#32) (Route.rank bw (ix1 j))).toNat = _
  rw [h1]
  show (_ * 128#32 + _ : BitVec 32).toNat = _
  rw [BitVec.toNat_add, BitVec.toNat_mul, h2, h3]
  unfold RouteNat.dest
  simp only [BitVec.toNat_ofNat]
  omega

end Cert.KernelIdeal.RouteWord

end
-- ==== Proof.RouteWordC.lean ====
/- Reading the routing's tables: the row -> token table at a token's row is that token; the gathers indexed by
   the tables read the rows the tables name; the bins are the hash table at the token ids. -/
import proofs.«414385_j85753317032356_3_alg».proof.Proof.RouteWordB
import proofs.«414385_j85753317032356_3_alg».proof.Proof.Spec
import Idealize.ShloMosaic.Lib.StableHlo.Predicate
import Idealize.ShloMosaic.Lib.Pipeline.Value

set_option maxRecDepth 16384

noncomputable section

namespace Cert.KernelIdeal.RouteWord

open Idealize.ShloMosaic Idealize.ShloMosaic.ValueIdx
open Cert.KernelIdeal

/-! ## Reading a column of row numbers -/

/-- A vector kept as a column reads, at row j, the vector at j. -/
theorem col_read {α : Type} {n : Nat} (h : (⟨1, ![n]⟩ : Shape).BroadcastsInDim ⟨2, ![n, 1]⟩ ![0])
    (v : (⟨1, ![n]⟩ : Shape).Idx → α) (j : Fin n) :
    broadcastInDim ⟨2, ![n, 1]⟩ ![0] h v (ix2 j (0 : Fin 1)) = v (ix1 j) := by
  simp only [broadcastInDim]
  congr 1
  funext a
  match a with
  | ⟨0, _⟩ =>
    apply Fin.ext
    have hj := j.isLt
    split
    · next h1 => change n = 1 at h1; show (0 : Nat) = j.val; omega
    · rfl

/-- Counting from the end only touches negative words: a word below 2^31 is kept. -/
theorem wrap_word (o M : BitVec 32) (ho : o.toNat < 2 ^ 31) :
    Scalar.select (IntOp.cmpi .slt o 0#32) (IntOp.addi o M) o = o := by
  have hne : ¬ IntOp.cmpi .slt o 0#32 = 1#1 := by
    intro h
    have h' := (StableHlo.Predicate.slt_iff_toNat ho (by decide)).mp h
    simp at h'
  unfold Scalar.select
  exact if_neg hne

/-! ## A row gather read at an element -/

/-- Row j of a row gather is the operand's row at the column's word read signed and clamped. -/
theorem gather_rows {α : Type} {N n C w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  have hsl : d.sliceSizes 0 = 1 := d.slice_collapsed 0 (by rw [hcoll]; exact List.mem_singleton.mpr rfl)
  obtain ⟨od, cd, ob, sb, sm, iv, ss, wf⟩ := d
  simp only at hoff hcoll hob hsim hivd hsl
  subst hoff hcoll hob hsim hivd
  unfold Host.gather
  congr 1
  funext a
  apply Fin.ext
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    match b with
    | ⟨0, _⟩ => rfl
    | ⟨1, _⟩ => rfl
  | ⟨1, _⟩ =>
    show GatherDims.start _ _ _ 1 + GatherDims.batchCoord _ _ 1 + GatherDims.offCoord _ _ 1 = k.val
    rw [GatherDims.batchCoord_eq_zero _ _ _ List.not_mem_nil]
    have h10 : ¬ ((1 : Fin 2) = 0) := by decide
    have hs : ∀ D : GatherDims ⟨2, ![N, C]⟩ ⟨2, ![n, 1]⟩ ⟨2, ![n, C]⟩, D.startIndexMap = [0] → D.start (ix2 j k) idx 1 = 0 := by
      intro D hD
      unfold GatherDims.start
      rw [dif_neg (by rw [hD]; exact fun h => h10 (List.mem_singleton.mp h))]
    rw [hs _ rfl]
    unfold GatherDims.offCoord
    rw [dif_pos (by rw [GatherDims.mem_sKept]; exact ⟨fun h => h10 (List.mem_singleton.mp h), List.not_mem_nil⟩)]
    simp only [Nat.zero_add]
    rfl

/-! ## An overwriting scatter read at a position -/

section ScatterFold
variable {α : Type} {s si u : Shape} {w : Nat}

/-- Writes that all land elsewhere leave a position as it was. -/
theorem scatter_fold_miss (d : ScatterDims s si u) (idx : IVec si w) (upd : u.Idx → α) (i : s.Idx) :
    ∀ (l : List (Fin u.numel)) (x : s.Idx → α),
      (∀ n ∈ l, d.resultIdx? (u.rowMajor.symm n) idx ≠ some i) →
      (l.foldl (fun r n =>
        match d.resultIdx? (u.rowMajor.symm n) idx with
        | some i0 => fun i' => if i' = i0 then (fun _ b => b) (r i0) (upd (u.rowMajor.symm n)) else r i'
        | none => r) x) i = x i := by
  intro l
  induction l with
  | nil => intro x _; rfl
  | cons a l ih =>
    intro x hmiss
    rw [List.foldl_cons, ih _ (fun n hn => hmiss n (List.mem_cons_of_mem _ hn))]
    have ha := hmiss a List.mem_cons_self
    generalize d.resultIdx? (u.rowMajor.symm a) idx = o at ha
    cases o with
    | none => rfl
    | some i0 =>
      show (if i = i0 then _ else x i) = x i
      rw [if_neg (fun h => ha (by rw [h]))]

/-- When every write landing at a position carries the same value, and one does land there, the position holds
    that value. -/
theorem scatter_fold_hit (d : ScatterDims s si u) (idx : IVec si w) (upd : u.Idx → α) (i : s.Idx) (v : α) :
    ∀ (l : List (Fin u.numel)) (x : s.Idx → α),
      (∃ n ∈ l, d.resultIdx? (u.rowMajor.symm n) idx = some i) →
      (∀ n ∈ l, d.resultIdx? (u.rowMajor.symm n) idx = some i → upd (u.rowMajor.symm n) = v) →
      (l.foldl (fun r n =>
        match d.resultIdx? (u.rowMajor.symm n) idx with
        | some i0 => fun i' => if i' = i0 then (fun _ b => b) (r i0) (upd (u.rowMajor.symm n)) else r i'
        | none => r) x) i = v := by
  intro l
  induction l with
  | nil => intro x hex _; obtain ⟨n, hn, _⟩ := hex; exact absurd hn List.not_mem_nil
  | cons a l ih =>
    intro x hex hall
    rw [List.foldl_cons]
    by_cases hl : ∃ n ∈ l, d.resultIdx? (u.rowMajor.symm n) idx = some i
    · exact ih _ hl (fun n hn => hall n (List.mem_cons_of_mem _ hn))
    · rw [scatter_fold_miss d idx upd i l _ (fun n hn h => hl ⟨n, hn, h⟩)]
      obtain ⟨n, hn, hni⟩ := hex
      rcases List.mem_cons.mp hn with rfl | hn'
      · have hv := hall n List.mem_cons_self hni
        rw [hni]
        show (if i = i then upd (u.rowMajor.symm n) else x i) = v
        rw [if_pos rfl, hv]
      · exact absurd ⟨n, hn', hni⟩ hl

/-- A scatter that overwrites: a position some update lands at, all the updates landing there carrying one value,
    holds that value. -/
theorem scatter_set_read (d : ScatterDims s si u) (x : s.Idx → α) (idx : IVec si w) (upd : u.Idx → α) (i : s.Idx) (v : α)
    (hex : ∃ k : u.Idx, d.resultIdx? k idx = some i)
    (hall : ∀ k : u.Idx, d.resultIdx? k idx = some i → upd k = v) :
    Host.scatter d (fun _ b => b) x idx upd i = v := by
  unfold Host.scatter
  obtain ⟨k, hk⟩ := hex
  exact scatter_fold_hit d idx upd i v _ x ⟨u.rowMajor k, List.mem_finRange _, by rw [Equiv.symm_apply_apply]; exact hk⟩
    (fun n _ h => hall _ h)

end ScatterFold

/-- A scalar update of a row scatter lands at the row its index word names, when that row exists. -/
theorem scatter_row_idx {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (idx : IVec ⟨2, ![n, 1]⟩ w) (j : Fin n) (p : Fin N) (hp : (idx (ix2 j (0 : Fin 1))).toInt = (p.val : ℤ)) :
    d.resultIdx? (ix1 j) idx = some (ix1 p) := by
  have hst : ∀ a, d.start (ix1 j) idx a + d.window (ix1 j) a = (p.val : ℤ) := by
    intro a
    obtain rfl : a = 0 := Subsingleton.elim _ _
    have hw : d.window (ix1 j) 0 = 0 := by
      unfold ScatterDims.window
      rw [dif_neg (by show (0 : Fin 1) ∉ Shape.kept _ d.insertedWindowDims; rw [hiw]; simp [Shape.kept, List.mem_filter, List.mem_finRange])]
    rw [hw]
    obtain ⟨uw, iw, sd, iv, wf⟩ := d
    simp only at huw hiw hsd hivd
    subst huw hiw hsd hivd
    unfold ScatterDims.start
    rw [dif_pos (List.mem_singleton.mpr rfl)]
    simp only [Nat.cast_zero, add_zero]
    rw [← hp]
    congr 2
    funext b
    match b with
    | ⟨0, _⟩ => rfl
    | ⟨1, _⟩ => rfl
  unfold ScatterDims.resultIdx?
  have hN := p.isLt
  rw [dif_pos (fun a => by
    rw [hst a]
    obtain rfl : a = 0 := Subsingleton.elim _ _
    exact ⟨by omega, by show (p.val : ℤ) < (N : ℤ); omega⟩)]
  congr 1
  funext a
  obtain rfl : a = 0 := Subsingleton.elim _ _
  apply Fin.ext
  show (d.start (ix1 j) idx 0 + d.window (ix1 j) 0).toNat = p.val
  rw [hst 0]
  simp

/-! ## The routing's tables -/

variable (bw : IVec S2048 32) (hb : ∀ j : Fin 2048, (bw (ix1 j)).toNat < 8)

/-- The column of rows the scatter and the last gather are indexed with is the rows themselves, wherever the row
    is a non-negative word. -/
theorem destIdx_col (d : IVec S2048 32) (j : Fin 2048) (hlt : (d (ix1 j)).toNat < 2 ^ 31) :
    Route.destIdx d (ix2 j (0 : Fin 1)) = d (ix1 j) := by
  unfold Route.destIdx
  simp only []
  rw [col_read]
  exact wrap_word _ _ hlt

/-- Likewise the column of tokens the first gather is indexed with. -/
theorem srcGatherIdx_col (s : IVec S3072 32) (p : Fin 3072) (hlt : (s (ix1 p)).toNat < 2 ^ 31) :
    Route.srcGatherIdx s (ix2 p (0 : Fin 1)) = s (ix1 p) := by
  unfold Route.srcGatherIdx
  simp only []
  rw [col_read]
  exact wrap_word _ _ hlt

/-- The row -> token table holds token j at j's row (the rows are distinct, so no later write lands there). -/
theorem srcIdx_dest (j : Fin 2048) :
    Route.srcIdx (Route.destPos bw) (ix1 ⟨RouteNat.dest (binFin bw hb) j, RouteNat.dest_lt _ j⟩) = BitVec.ofNat 32 j.val := by
  have hidx : ∀ j' : Fin 2048,
      scatter_S3072_S2048x1_S2048_n_0_0_1.resultIdx? (ix1 j') (Route.destIdx (Route.destPos bw))
        = some (ix1 ⟨RouteNat.dest (binFin bw hb) j', RouteNat.dest_lt _ j'⟩) := by
    intro j'
    have h1 := destPos_toNat bw hb j'
    have h2 := RouteNat.dest_lt (binFin bw hb) j'
    have hlt : (Route.destPos bw (ix1 j')).toNat < 2 ^ 31 := by rw [h1]; omega
    refine scatter_row_idx _ rfl rfl rfl rfl _ j' _ ?_
    rw [destIdx_col _ _ hlt, StableHlo.Predicate.toInt_eq_toNat_of_lt hlt, h1]
  unfold Route.srcIdx
  refine scatter_set_read _ _ _ _ _ _ ⟨ix1 j, hidx j⟩ ?_
  intro k hk
  obtain ⟨k0, rfl⟩ : ∃ k0 : Fin 2048, k = ix1 k0 := ⟨k 0, eq_ix1 k⟩
  have he := congrFun (Option.some.inj ((hidx k0).symm.trans hk)) 0
  have hd : RouteNat.dest (binFin bw hb) k0 = RouteNat.dest (binFin bw hb) j := congrArg Fin.val he
  have hj : k0 = j := RouteNat.dest_inj _ hd
  rw [hj]
  rfl

/-- Rows gathered by a column of in-range, non-negative row numbers: row j of the result is row d j of the
    operand (3072 rows to 2048). -/
theorem gather_dest {α : Type} (A : S3072x512.Idx → α) (d : IVec S2048 32) (j : Fin 2048) (k : Fin 512) (p : Fin 3072)
    (hp : (d (ix1 j)).toNat = p.val) :
    Host.gather gather_S3072x512_S2048x1_S2048x512_1_0_n_n_0_1_1512 A (Route.destIdx d) (ix2 j k) = A (ix2 p k) := by
  have hpl := p.isLt
  have hlt : (d (ix1 j)).toNat < 2 ^ 31 := by rw [hp]; omega
  rw [gather_rows (by norm_num) _ rfl rfl rfl rfl rfl A (Route.destIdx d) j k]
  congr 1
  have hm : min (Route.destIdx d (ix2 j (0 : Fin 1))).toInt.toNat (3072 - 1) = p.val := by
    rw [destIdx_col _ _ hlt, StableHlo.Predicate.toInt_eq_toNat_of_lt hlt, Int.toNat_natCast, hp]; omega
  funext a
  match a with
  | ⟨0, _⟩ => exact Fin.ext hm
  | ⟨1, _⟩ => rfl

/-- Rows gathered by a column of in-range, non-negative row numbers (2048 rows to 3072). -/
theorem gather_src {α : Type} (A : S2048x512.Idx → α) (s : IVec S3072 32) (p : Fin 3072) (k : Fin 512) (j : Fin 2048)
    (hj : (s (ix1 p)).toNat = j.val) :
    Host.gather gather_S2048x512_S3072x1_S3072x512_1_0_n_n_0_1_1512 A (Route.srcGatherIdx s) (ix2 p k) = A (ix2 j k) := by
  have hjl := j.isLt
  have hlt : (s (ix1 p)).toNat < 2 ^ 31 := by rw [hj]; omega
  rw [gather_rows (by norm_num) _ rfl rfl rfl rfl rfl A (Route.srcGatherIdx s) p k]
  congr 1
  have hm : min (Route.srcGatherIdx s (ix2 p (0 : Fin 1))).toInt.toNat (2048 - 1) = j.val := by
    rw [srcGatherIdx_col _ _ hlt, StableHlo.Predicate.toInt_eq_toNat_of_lt hlt, Int.toNat_natCast, hj]; omega
  funext a
  match a with
  | ⟨0, _⟩ => exact Fin.ext hm
  | ⟨1, _⟩ => rfl

/-- A rectangle kept as a stack of one-element rows reads, at (b, s, 0), the rectangle at (b, s). -/
theorem stack_read {α : Type} {R C : Nat} (h : (⟨2, ![R, C]⟩ : Shape).BroadcastsInDim ⟨3, ![R, C, 1]⟩ ![0, 1])
    (v : (⟨2, ![R, C]⟩ : Shape).Idx → α) (y : (⟨2, ![R, C]⟩ : Shape).Idx) :
    broadcastInDim ⟨3, ![R, C, 1]⟩ ![0, 1] h v (takeIdx y) = v y := by
  simp only [broadcastInDim]
  congr 1
  funext a
  match a with
  | ⟨0, _⟩ =>
    apply Fin.ext
    have hy := idx2_lt0 y
    split
    · next h1 => change R = 1 at h1; show (0 : Nat) = (y 0).val; omega
    · rfl
  | ⟨1, _⟩ =>
    apply Fin.ext
    have hy := idx2_lt1 y
    split
    · next h1 => change C = 1 at h1; show (0 : Nat) = (y 1).val; omega
    · rfl

/-- The wrap of a token id, as the two programs spell it. -/
theorem wrapId_eq (o : BitVec 32) :
    Scalar.select (IntOp.cmpi .slt o 0#32) (IntOp.addi o 32000#32) o = Cert.Spec.wrapId o := by
  unfold Scalar.select Cert.Spec.wrapId IntOp.cmpi IntOp.addi
  cases h : o.slt 0#32 <;> simp

/-- The bin of token (b, s), flattened to b * 512 + s, is the hash table at its wrapped, clamped id. -/
theorem bins_eq (hbm : IVec S32000 32) (orig : IVec S4x512 32) (b : Fin 4) (s : Fin 512) :
    Route.bins hbm orig (ix1 ⟨b.val * 512 + s.val, by omega⟩)
      = Cert.Spec.binWord (fun v => hbm (ix1 v)) (fun b s => orig (ix2 b s)) b s := by
  unfold Route.bins Cert.Spec.binWord
  simp only []
  rw [shapeCast_apply _ _ _ (ix2 b s) (by rw [Shape.rowMajor_val_two, Shape.rowMajor_val_one]; rfl)]
  refine (gather_take_apply (N := 32000) (R := 4) (C := 512) (by norm_num)
    gather_S32000_S4x512x1_S4x512_n_0_n_n_0_2_1.wf hbm _ (ix2 b s)).trans ?_
  refine congrArg hbm (congrArg ix1 (Fin.ext ?_))
  show min (BitVec.toInt _).toNat (32000 - 1) = min (BitVec.toInt _).toNat 31999
  rw [stack_read]
  exact congrArg (fun o : BitVec 32 => min o.toInt.toNat 31999) (wrapId_eq _)

end Cert.KernelIdeal.RouteWord

end
-- ==== Proof.KValue.lean ====
/- The idealized kernel's run, with its result named: token (b, s)'s output row is the layer norm of the residual of
   its input row through the expert of its bin. The token's padded row holds its own input row (the row -> token
   table is the inverse of the token -> row map), the tile of that row belongs to the token's bin, and the final
   gather reads the padded output back at the token's row. -/
import proofs.«414385_j85753317032356_3_alg».proof.Proof.KHost
import proofs.«414385_j85753317032356_3_alg».proof.Proof.KArray
import proofs.«414385_j85753317032356_3_alg».proof.Proof.KOk
import proofs.«414385_j85753317032356_3_alg».proof.Proof.RouteWordC
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

/-- The flat number of token (b, s). -/
abbrev tok (b : Fin 4) (s : Fin 512) : Fin 2048 := ⟨b.val * 512 + s.val, by omega⟩

/-! ## Reshapes read at an index -/

/-- Flattening the two leading axes: row b * 512 + s of the flat array is row (b, s). -/
theorem flat_at {α : Type} (A : S4x512x512.Idx → α) (b : Fin 4) (s : Fin 512) (k : Fin 512) :
    shapeCast S2048x512 A Facts₀.shapeCasts_S4x512x512_S2048x512 (ix2 (tok b s) k)
      = A (ix3 b s k) :=
  shapeCast_apply A _ _ _ (by
    rw [Shape.rowMajor_val_three, Shape.rowMajor_val_two]
    rfl)

/-- Splitting the leading axis back: entry (b, s, d) of the split array is entry (b * 512 + s, d). -/
theorem unflat_at {α : Type} (A : S2048x512.Idx → α) (b : Fin 4) (s : Fin 512) (d : Fin 512) :
    shapeCast S4x512x512 A Facts₀.shapeCasts_S2048x512_S4x512x512 (ix3 b s d)
      = A (ix2 (tok b s) d) :=
  shapeCast_apply A _ _ _ (by
    rw [Shape.rowMajor_val_three, Shape.rowMajor_val_two]
    rfl)

/-- A unit axis put in the middle (8 x 2048). -/
theorem mid1_at {α : Type} (A : S8x2048.Idx → α) (e : Fin 8) (h : Fin 2048) :
    shapeCast S8x1x2048 A Facts₀.shapeCasts_S8x2048_S8x1x2048 (ix3 e 0 h) = A (ix2 e h) :=
  shapeCast_apply A _ _ _ (by
    rw [Shape.rowMajor_val_three, Shape.rowMajor_val_two]
    show e.val * 2048 + h.val = (e.val * 1 + 0) * 2048 + h.val
    omega)

/-- A unit axis put in the middle (8 x 512). -/
theorem mid2_at {α : Type} (A : S8x512.Idx → α) (e : Fin 8) (d : Fin 512) :
    shapeCast S8x1x512 A Facts₀.shapeCasts_S8x512_S8x1x512 (ix3 e 0 d) = A (ix2 e d) :=
  shapeCast_apply A _ _ _ (by
    rw [Shape.rowMajor_val_three, Shape.rowMajor_val_two]
    show e.val * 512 + d.val = (e.val * 1 + 0) * 512 + d.val
    omega)

/-- A leading unit axis on a vector of 512. -/
theorem lead1_at {α : Type} (A : S512.Idx → α) (d : Fin 512) :
    shapeCast S1x512 A Facts₀.shapeCasts_S512_S1x512 (ix2 0 d) = A (ix1 d) :=
  shapeCast_a_1a_apply A _ 0 d

variable (m : (ℓ : Loc nD τ sig) → Buf (Elt Ideal) ℓ)

/-! ## The routing of the run -/

/-- Every bin is an expert number: a bin is an entry of the hash table. -/
theorem bins_lt (hr : ∀ (c : Dev nD) (v : Fin 32000), ((m ((c.tc : Thread nD τ).loc main_arg8) : IVec S32000 32) (ix1 v)).toNat < 8)
    (c : Dev nD) (j : Fin 2048) : ((KHost.binsOf m c : IVec S2048 32) (ix1 j)).toNat < 8 := by
  have hj : j = (⟨(⟨j.val / 512, by omega⟩ : Fin 4).val * 512 + (⟨j.val % 512, Nat.mod_lt _ (by norm_num)⟩ : Fin 512).val, by omega⟩ : Fin 2048) :=
    Fin.ext (by show j.val = j.val / 512 * 512 + j.val % 512; omega)
  rw [hj]
  show (Route.bins _ _ (ix1 _)).toNat < 8
  rw [RouteWord.bins_eq]
  exact hr c _

/-- The token -> bin map of the run. -/
abbrev bf (hr : ∀ (c : Dev nD) (v : Fin 32000), ((m ((c.tc : Thread nD τ).loc main_arg8) : IVec S32000 32) (ix1 v)).toNat < 8)
    (c : Dev nD) : Fin 2048 → Fin 8 := RouteWord.binFin (KHost.binsOf m c) (bins_lt m hr c)

/-- The padded row of token j. -/
def rowOf (hr : ∀ (c : Dev nD) (v : Fin 32000), ((m ((c.tc : Thread nD τ).loc main_arg8) : IVec S32000 32) (ix1 v)).toNat < 8)
    (c : Dev nD) (j : Fin 2048) : Fin 3072 := ⟨RouteNat.dest (bf m hr c) j, RouteNat.dest_lt _ j⟩

/-- The padded input at a token's row is the token's input row. -/
theorem xpad_at (hr : ∀ (c : Dev nD) (v : Fin 32000), ((m ((c.tc : Thread nD τ).loc main_arg8) : IVec S32000 32) (ix1 v)).toNat < 8)
    (c : Dev nD) (b : Fin 4) (s : Fin 512) (k : Fin 512) :
    (V m c main_v108 : FVec Ideal S3072x512 .f32) (ix2 (rowOf m hr c (tok b s)) k)
      = (m ((c.tc : Thread nD τ).loc main_arg0) : FVec Ideal S4x512x512 .f32) (ix3 b s k) := by
  have hj : ((Route.srcIdx (KHost.destOf m c) : IVec S3072 32) (ix1 (rowOf m hr c (tok b s)))).toNat = (tok b s).val := by
    show ((Route.srcIdx (Route.destPos (KHost.binsOf m c)) : IVec S3072 32)
      (ix1 ⟨RouteNat.dest (RouteWord.binFin (KHost.binsOf m c) (bins_lt m hr c)) (tok b s), RouteNat.dest_lt _ _⟩)).toNat = _
    rw [RouteWord.srcIdx_dest (KHost.binsOf m c) (bins_lt m hr c) (tok b s), BitVec.toNat_ofNat]
    exact Nat.mod_eq_of_lt (by have := (tok b s).isLt; omega)
  rw [KHost.V_xpad, RouteWord.gather_src _ _ (rowOf m hr c (tok b s)) k (tok b s) hj]
  exact flat_at _ b s k

/-- The tile of a token's row belongs to the token's bin. -/
theorem owner_eq (hr : ∀ (c : Dev nD) (v : Fin 32000), ((m ((c.tc : Thread nD τ).loc main_arg8) : IVec S32000 32) (ix1 v)).toNat < 8)
    (c : Dev nD) (b : Fin 4) (s : Fin 512) :
    KArray.owner m (KArray.tileOf (rowOf m hr c (tok b s)))
      = Cert.Spec.binOf (fun v => (m ((c.tc : Thread nD τ).loc main_arg8) : IVec S32000 32) (ix1 v))
          (fun b s => (m ((c.tc : Thread nD τ).loc main_arg7) : IVec S4x512 32) (ix2 b s)) b s := by
  have hc : c = 0 := Subsingleton.elim _ _
  subst hc
  apply Fin.ext
  show ((tbl m 0 : IVec S24 32) (ix1 (KArray.tileOf (rowOf m hr 0 (tok b s))))).toNat % 8 = (Cert.Spec.binWord _ _ b s).toNat % 8
  rw [KHost.tbl_eq]
  show ((Route.eOfT (Route.tileStarts (Route.nTiles (Route.groupSizes (KHost.binsOf m 0)))) : IVec S24 32)
    (ix1 (KArray.tileOf (rowOf m hr 0 (tok b s))))).toNat % 8 = _
  rw [RouteWord.eOfT_toNat (KHost.binsOf m 0) (bins_lt m hr 0)]
  show RouteNat.eOf (bf m hr 0) (RouteNat.dest (bf m hr 0) (tok b s) / 128) % 8 = _
  rw [RouteNat.eOf_dest]
  show ((KHost.binsOf m 0 : IVec S2048 32) (ix1 (tok b s))).toNat % 8 = _
  show ((Route.bins _ _ : IVec S2048 32) (ix1 ⟨b.val * 512 + s.val, _⟩)).toNat % 8 = _
  rw [RouteWord.bins_eq]

/-! ## The arrays the region reads, at an index -/

theorem w1_at (c : Dev nD) (e : Fin 8) (k : Fin 512) (h : Fin 2048) :
    (V m c main_v120 : FVec Ideal S8x512x2048 .bf16) (ix3 e k h)
      = (m ((c.tc : Thread nD τ).loc main_arg1) : FVec Ideal S8x512x2048 .f32) (ix3 e k h) := by
  rw [KHost.V_w1]; rfl

theorem w2_at (c : Dev nD) (e : Fin 8) (h : Fin 2048) (d : Fin 512) :
    (V m c main_v121 : FVec Ideal S8x2048x512 .bf16) (ix3 e h d)
      = (m ((c.tc : Thread nD τ).loc main_arg3) : FVec Ideal S8x2048x512 .f32) (ix3 e h d) := by
  rw [KHost.V_w2]; rfl

theorem b1_at (c : Dev nD) (e : Fin 8) (h : Fin 2048) :
    (V m c main_v122 : FVec Ideal S8x1x2048 .f32) (ix3 e 0 h)
      = (m ((c.tc : Thread nD τ).loc main_arg2) : FVec Ideal S8x2048 .f32) (ix2 e h) := by
  rw [KHost.V_b1]; exact mid1_at _ e h

theorem b2_at (c : Dev nD) (e : Fin 8) (d : Fin 512) :
    (V m c main_v123 : FVec Ideal S8x1x512 .f32) (ix3 e 0 d)
      = (m ((c.tc : Thread nD τ).loc main_arg4) : FVec Ideal S8x512 .f32) (ix2 e d) := by
  rw [KHost.V_b2]; exact mid2_at _ e d

theorem gamma_at (c : Dev nD) (d : Fin 512) :
    (V m c main_v124 : FVec Ideal S1x512 .f32) (ix2 0 d)
      = (m ((c.tc : Thread nD τ).loc main_arg5) : FVec Ideal S512 .f32) (ix1 d) := by
  rw [KHost.V_gamma]; exact lead1_at _ d

theorem beta_at (c : Dev nD) (d : Fin 512) :
    (V m c main_v125 : FVec Ideal S1x512 .f32) (ix2 0 d)
      = (m ((c.tc : Thread nD τ).loc main_arg6) : FVec Ideal S512 .f32) (ix1 d) := by
  rw [KHost.V_beta]; exact lead1_at _ d

/-! ## The result at an index -/

/-- The specification's row depends on its arguments only through their values. -/
theorem row_congr {x x' : Fin 512 → EReal} {W1 W1' : Fin 512 → Fin 2048 → EReal} {b1 b1' : Fin 2048 → EReal}
    {W2 W2' : Fin 2048 → Fin 512 → EReal} {b2 b2' g g' be be' : Fin 512 → EReal}
    (hx : ∀ k, x k = x' k) (hW1 : ∀ k h, W1 k h = W1' k h) (hb1 : ∀ h, b1 h = b1' h) (hW2 : ∀ h d, W2 h d = W2' h d)
    (hb2 : ∀ d, b2 d = b2' d) (hg : ∀ d, g d = g' d) (hbe : ∀ d, be d = be' d) (d : Fin 512) :
    Cert.Spec.row x W1 b1 W2 b2 g be d = Cert.Spec.row x' W1' b1' W2' b2' g' be' d := by
  obtain rfl : x = x' := funext hx
  obtain rfl : W1 = W1' := funext fun k => funext (hW1 k)
  obtain rfl : b1 = b1' := funext hb1
  obtain rfl : W2 = W2' := funext fun h => funext (hW2 h)
  obtain rfl : b2 = b2' := funext hb2
  obtain rfl : g = g' := funext hg
  obtain rfl : be = be' := funext hbe
  rfl

/-- The padded output at a token's row is the specification's row of that token. -/
theorem outpad_row (hr : ∀ (c : Dev nD) (v : Fin 32000), ((m ((c.tc : Thread nD τ).loc main_arg8) : IVec S32000 32) (ix1 v)).toNat < 8)
    (c : Dev nD) (b : Fin 4) (s : Fin 512) (d : Fin 512) :
    KArray.outpadAt m c (rowOf m hr c (tok b s)) d
      = Cert.Spec.outAt (fun b s d => (m ((c.tc : Thread nD τ).loc main_arg0) : FVec Ideal S4x512x512 .f32) (ix3 b s d))
          (fun e k h => (m ((c.tc : Thread nD τ).loc main_arg1) : FVec Ideal S8x512x2048 .f32) (ix3 e k h))
          (fun e h => (m ((c.tc : Thread nD τ).loc main_arg2) : FVec Ideal S8x2048 .f32) (ix2 e h))
          (fun e h d => (m ((c.tc : Thread nD τ).loc main_arg3) : FVec Ideal S8x2048x512 .f32) (ix3 e h d))
          (fun e d => (m ((c.tc : Thread nD τ).loc main_arg4) : FVec Ideal S8x512 .f32) (ix2 e d))
          (fun d => (m ((c.tc : Thread nD τ).loc main_arg5) : FVec Ideal S512 .f32) (ix1 d))
          (fun d => (m ((c.tc : Thread nD τ).loc main_arg6) : FVec Ideal S512 .f32) (ix1 d))
          (fun b s => (m ((c.tc : Thread nD τ).loc main_arg7) : IVec S4x512 32) (ix2 b s))
          (fun v => (m ((c.tc : Thread nD τ).loc main_arg8) : IVec S32000 32) (ix1 v)) b s d := by
  unfold KArray.outpadAt Cert.Spec.outAt
  rw [owner_eq m hr c b s]
  exact row_congr (fun k => xpad_at m hr c b s k) (fun k h => w1_at m c _ k h) (fun h => b1_at m c _ h)
    (fun h d' => w2_at m c _ h d') (fun d' => b2_at m c _ d') (fun d' => gamma_at m c d') (fun d' => beta_at m c d') d

/-- The result buffer after the run, at (b, s, d). -/
theorem result_at (hr : ∀ (c : Dev nD) (v : Fin 32000), ((m ((c.tc : Thread nD τ).loc main_arg8) : IVec S32000 32) (ix1 v)).toNat < 8)
    (hO : Ok m) (c : Dev nD) (b : Fin 4) (s : Fin 512) (d : Fin 512) :
    (shapeCast S4x512x512
        (Host.gather gather_S3072x512_S2048x1_S2048x512_1_0_n_n_0_1_1512
          ((dats m hO 0 c).arrAt 7 (cfgM m hO).N : FVec Ideal S3072x512 .f32) (Route.destIdx (KHost.destOf m c)))
        Facts₀.shapeCasts_S2048x512_S4x512x512 : FVec Ideal S4x512x512 .f32) (ix3 b s d)
      = KArray.outpadAt m c (rowOf m hr c (tok b s)) d := by
  exact (unflat_at _ b s d).trans ((RouteWord.gather_dest _ _ (tok b s) d (rowOf m hr c (tok b s))
    (RouteWord.destPos_toNat (KHost.binsOf m c) (bins_lt m hr c) (tok b s))).trans (KArray.outpad_eq m hO c _ d))

/-! ## The run -/

variable (ρ : Dev nD → PrngReg)

/-- Every weakly fair execution of the idealized kernel's @main ends with the result at the specification of the
    argument arrays (when every hash-table entry is an expert number) and the arguments unchanged. -/
theorem run (hr : ∀ (c : Dev nD) (v : Fin 32000), ((m ((c.tc : Thread nD τ).loc main_arg8) : IVec S32000 32) (ix1 v)).toNat < 8) :
    θ_run (defs (F := Ideal)) (onTc (τ := τ) (main (F := Ideal))) ⟨m, fun _ => 0, ρ⟩ (fun r => ∀ c : Dev nD,
      r.2.mem ((c.tc : Thread nD τ).loc main_v134) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(((h c).2 main_v134 (by decide : main_v134 ∈ Pipeline.restRefs sig spec0)).trans
        ((KHost.tail_eq m (KOk.ok m) c).trans (funext fun i => by
          rw [eq_ix3 i]
          exact (result_at m hr (KOk.ok m) c (i 0) (i 1) (i 2)).trans (outpad_row m hr c (i 0) (i 1) (i 2))))),
      (((h c).2 main_arg0 (by decide : main_arg0 ∈ Pipeline.restRefs sig spec0)).trans (W_main_arg0 m (KOk.ok m) (dats m (KOk.ok m)) c)),
      (((h c).2 main_arg1 (by decide : main_arg1 ∈ Pipeline.restRefs sig spec0)).trans (W_main_arg1 m (KOk.ok m) (dats m (KOk.ok m)) c)),
      (((h c).2 main_arg2 (by decide : main_arg2 ∈ Pipeline.restRefs sig spec0)).trans (W_main_arg2 m (KOk.ok m) (dats m (KOk.ok m)) c)),
      (((h c).2 main_arg3 (by decide : main_arg3 ∈ Pipeline.restRefs sig spec0)).trans (W_main_arg3 m (KOk.ok m) (dats m (KOk.ok m)) c)),
      (((h c).2 main_arg4 (by decide : main_arg4 ∈ Pipeline.restRefs sig spec0)).trans (W_main_arg4 m (KOk.ok m) (dats m (KOk.ok m)) c)),
      (((h c).2 main_arg5 (by decide : main_arg5 ∈ Pipeline.restRefs sig spec0)).trans (W_main_arg5 m (KOk.ok m) (dats m (KOk.ok m)) c)),
      (((h c).2 main_arg6 (by decide : main_arg6 ∈ Pipeline.restRefs sig spec0)).trans (W_main_arg6 m (KOk.ok m) (dats m (KOk.ok m)) c)),
      (((h c).2 main_arg7 (by decide : main_arg7 ∈ Pipeline.restRefs sig spec0)).trans (W_main_arg7 m (KOk.ok m) (dats m (KOk.ok m)) c)),
      (((h c).2 main_arg8 (by decide : main_arg8 ∈ Pipeline.restRefs sig spec0)).trans (W_main_arg8 m (KOk.ok m) (dats m (KOk.ok m)) c))⟩)
    (run_main m ρ (KOk.ok m))

end Cert.KernelIdeal.KValue

end
-- ==== Proof.PreFacts.lean ====
/- What the precondition says of the hash table: every entry is one of the experts 0 … 7. -/
import proofs.«414385_j85753317032356_3_alg».proof.Pre_finite_inputs
import proofs.«414385_j85753317032356_3_alg».proof.Proof.Gen.Pre_finite_inputs
import Idealize.ShloMosaic.Lib.ValueIdx
import Idealize.ShloMosaic.Lib.StableHlo.Predicate
import Idealize.ShloMosaic.Lib.ReduceAll

set_option maxRecDepth 16384

noncomputable section

namespace Cert.PreFacts

open Idealize.ShloMosaic Idealize.ShloMosaic.ValueIdx
open Cert.Pre_finite_inputs

variable {F : FTy → Type} [FloatOps F]

/-- The scalar shape has exactly one index. -/
instance : Subsingleton S_.Idx := ⟨fun a b => funext fun d => d.elim0⟩

/-- Under the precondition every entry of the hash table is a word in 0 … 7. -/
theorem hbm_range (a0 : FVec F S4x512x512 .f32) (a1 : FVec F S8x512x2048 .f32) (a2 : FVec F S8x2048 .f32) (a3 : FVec F S8x2048x512 .f32)
    (a4 : FVec F S8x512 .f32) (a5 : FVec F S512 .f32) (a6 : FVec F S512 .f32) (a7 : IVec S4x512 32) (a8 : IVec S32000 32)
    (h : Cert.Pre_finite_inputs.fn (F := F) a0 a1 a2 a3 a4 a5 a6 a7 a8 = fun _ => 1#1) :
    ∀ v : Fin 32000, (a8 (ix1 v)).toNat < 8 := by
  intro v
  have h0 := congrFun h ValueIdx.ix0
  dsimp only [Cert.Pre_finite_inputs.fn, fn_part1, fn_part2] at h0
  -- the outermost conjunction: keep only its right operand, the statement about the table
  have h1 := (IntOp.andi_eq_one.1 h0).2
  -- an "and" over the whole table that came out 1 met a 1 at every entry
  have h2 := Host.reduce_andi_all _ _ _ _ _ h1 (ix1 v)
  obtain ⟨hge, hlt⟩ := IntOp.andi_eq_one.1 h2
  -- the two comparisons, read as signed inequalities against the constants 0 and 8
  have hge' : (0#32 : BitVec 32).toInt ≤ (a8 (ix1 v)).toInt := IntOp.cmpi_sge.1 hge
  have hlt' : (a8 (ix1 v)).toInt < (8#32 : BitVec 32).toInt := IntOp.cmpi_slt.1 hlt
  have e0 : (0#32 : BitVec 32).toInt = 0 := by decide
  have e8 : (8#32 : BitVec 32).toInt = 8 := by decide
  rw [e0] at hge'
  rw [e8] at hlt'
  -- a word whose signed reading is nonnegative reads the same unsigned
  have := BitVec.toInt_eq_toNat_cond (a8 (ix1 v))
  have hlt2 := (a8 (ix1 v)).isLt
  split at this <;> omega

end Cert.PreFacts

end
-- ==== Proof.RefOps.lean ====
import proofs.«414385_j85753317032356_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- 11 consecutive operations of @main's window 0, in order; a called function's operations stand where it is
    called, over that call's buffers. -/
abbrev ch0 : List (HloOp τ sig (Elt F)) :=
  [ StableHlo.nullary main_c (constantI S_ 32 0#32),
    StableHlo.unary main_c main_v0 (broadcastInDim S4x512 ![] bcast_S_S4x512 : (⟨S_, .i32⟩ : BufTy).Contents (Elt F) → (⟨S4x512, .i32⟩ : BufTy).Contents (Elt F)),
    StableHlo.binary main_arg7 main_v0 main_v1 (cmpi .slt : (⟨S4x512, .i32⟩ : BufTy).Contents (Elt F) → (⟨S4x512, .i32⟩ : BufTy).Contents (Elt F) → (⟨S4x512, .i1⟩ : BufTy).Contents (Elt F)),
    StableHlo.nullary main_c_0 (constantI S_ 32 32000#32),
    StableHlo.unary main_c_0 main_v2 (broadcastInDim S4x512 ![] bcast_S_S4x512 : (⟨S_, .i32⟩ : BufTy).Contents (Elt F) → (⟨S4x512, .i32⟩ : BufTy).Contents (Elt F)),
    StableHlo.binary main_arg7 main_v2 main_v3 (addi : (⟨S4x512, .i32⟩ : BufTy).Contents (Elt F) → (⟨S4x512, .i32⟩ : BufTy).Contents (Elt F) → (⟨S4x512, .i32⟩ : BufTy).Contents (Elt F)),
    StableHlo.ternary main_v1 main_v3 main_arg7 main_v4 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v4 main_v5 (broadcastInDim S4x512x1 ![0, 1] bcast_S4x512_S4x512x1_0_1 : (⟨S4x512, .i32⟩ : BufTy).Contents (Elt F) → (⟨S4x512x1, .i32⟩ : BufTy).Contents (Elt F)),
    StableHlo.binary main_arg8 main_v5 main_v6 ((fun x i => Host.gather gather_S32000_S4x512x1_S4x512_n_0_n_n_0_2_1 x i) : (⟨S32000, .i32⟩ : BufTy).Contents (Elt F) → (⟨S4x512x1, .i32⟩ : BufTy).Contents (Elt F) → (⟨S4x512, .i32⟩ : BufTy).Contents (Elt F)),
    StableHlo.nullary main_cst (constant S_ .f32 0x00000000#32),
    StableHlo.unary main_cst main_v7 (broadcastInDim S4x512x512 ![] bcast_S_S4x512x512 : (⟨S_, .f32⟩ : BufTy).Contents (Elt F) → (⟨S4x512x512, .f32⟩ : BufTy).Contents (Elt F)) ]

set_option maxRecDepth 65536 in
set_option maxHeartbeats 4000000 in
/-- 29 consecutive operations of @main's window 0, in order; a called function's operations stand where it is
    called, over that call's buffers. -/
abbrev ch1 : List (HloOp τ sig (Elt F)) :=
  [ StableHlo.unary main_arg1 main_v8 ((extractStridedSlice S1x512x2048 ![0, 0, 0] · slices_S8x512x2048_S1x512x2048_0_0_0) : (⟨S8x512x2048, .f32⟩ : BufTy).Contents (Elt F) → (⟨S1x512x2048, .f32⟩ : BufTy).Contents (Elt F)),
    StableHlo.reshape main_v8 main_v9 rfl shapeCasts_S1x512x2048_S512x2048,
    StableHlo.binary main_arg0 main_v9 main_v10 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v11 ((extractStridedSlice S1x2048 ![0, 0] · slices_S8x2048_S1x2048_0_0) : (⟨S8x2048, .f32⟩ : BufTy).Contents (Elt F) → (⟨S1x2048, .f32⟩ : BufTy).Contents (Elt F)),
    StableHlo.reshape main_v11 main_v12 rfl shapeCasts_S1x2048_S2048,
    StableHlo.unary main_v12 main_v13 (broadcastInDim S1x1x2048 ![2] bcast_S2048_S1x1x2048_2 : (⟨S2048, .f32⟩ : BufTy).Contents (Elt F) → (⟨S1x1x2048, .f32⟩ : BufTy).Contents (Elt F)),
    StableHlo.unary main_v13 main_v14 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v10 main_v14 main_v15 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call0.cst (constant S_ .f32 0x00000000#32),
    StableHlo.TRef.unary main_call0.cst main_call0.v0 (broadcastInDim S4x512x2048 ![] bcast_S_S4x512x2048),
    StableHlo.TRef.binary (.of main_v15 : StableHlo.TRef sig ⟨S4x512x2048, .f32⟩) main_call0.v0 main_call0.v1 maximumf,
    StableHlo.unary main_arg3 main_v17 ((extractStridedSlice S1x2048x512 ![0, 0, 0] · slices_S8x2048x512_S1x2048x512_0_0_0) : (⟨S8x2048x512, .f32⟩ : BufTy).Contents (Elt F) → (⟨S1x2048x512, .f32⟩ : BufTy).Contents (Elt F)),
    StableHlo.reshape main_v17 main_v18 rfl shapeCasts_S1x2048x512_S2048x512,
    StableHlo.binary main_v16 main_v18 main_v19 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v20 ((extractStridedSlice S1x512 ![0, 0] · slices_S8x512_S1x512_0_0) : (⟨S8x512, .f32⟩ : BufTy).Contents (Elt F) → (⟨S1x512, .f32⟩ : BufTy).Contents (Elt F)),
    StableHlo.reshape main_v20 main_v21 rfl shapeCasts_S1x512_S512,
    StableHlo.unary main_v21 main_v22 (broadcastInDim S1x1x512 ![2] bcast_S512_S1x1x512_2 : (⟨S512, .f32⟩ : BufTy).Contents (Elt F) → (⟨S1x1x512, .f32⟩ : BufTy).Contents (Elt F)),
    StableHlo.unary main_v22 main_v23 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v19 main_v23 main_v24 (addf : (⟨S4x512x512, .f32⟩ : BufTy).Contents (Elt F) → (⟨S4x512x512, .f32⟩ : BufTy).Contents (Elt F) → (⟨S4x512x512, .f32⟩ : BufTy).Contents (Elt F)),
    StableHlo.nullary main_c_1 (constantI S_ 32 0#32),
    StableHlo.unary main_c_1 main_v25 (broadcastInDim S4x512 ![] bcast_S_S4x512 : (⟨S_, .i32⟩ : BufTy).Contents (Elt F) → (⟨S4x512, .i32⟩ : BufTy).Contents (Elt F)),
    StableHlo.binary main_v6 main_v25 main_v26 (cmpi .eq : (⟨S4x512, .i32⟩ : BufTy).Contents (Elt F) → (⟨S4x512, .i32⟩ : BufTy).Contents (Elt F) → (⟨S4x512, .i1⟩ : BufTy).Contents (Elt F)),
    StableHlo.unary main_v26 main_v27 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_2 (constant S_ .f32 0x00000000#32),
    StableHlo.TRef.unary (.of main_cst_2 : StableHlo.TRef sig ⟨S_, .f32⟩) main_call1.v0 id,
    StableHlo.TRef.unary (.of main_v27 : StableHlo.TRef sig ⟨S4x512x1, .i1⟩) main_call1.v1 (broadcastInDim S4x512x512 ![0, 1, 2] bcast_S4x512x1_S4x512x512_0_1_2),
    StableHlo.TRef.unary main_call1.v0 main_call1.v2 (broadcastInDim S4x512x512 ![] bcast_S_S4x512x512),
    StableHlo.TRef.ternary main_call1.v1 (.of main_v24 : StableHlo.TRef sig ⟨S4x512x512, .f32⟩) main_call1.v2 main_call1.v3 select,
    StableHlo.binary main_v7 main_v28 main_v29 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 29 consecutive operations of @main's window 0, in order; a called function's operations stand where it is
    called, over that call's buffers. -/
abbrev ch2 : List (HloOp τ sig (Elt F)) :=
  [ StableHlo.unary main_arg1 main_v30 ((extractStridedSlice S1x512x2048 ![1, 0, 0] · slices_S8x512x2048_S1x512x2048_1_0_0) : (⟨S8x512x2048, .f32⟩ : BufTy).Contents (Elt F) → (⟨S1x512x2048, .f32⟩ : BufTy).Contents (Elt F)),
    StableHlo.reshape main_v30 main_v31 rfl shapeCasts_S1x512x2048_S512x2048,
    StableHlo.binary main_arg0 main_v31 main_v32 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v33 ((extractStridedSlice S1x2048 ![1, 0] · slices_S8x2048_S1x2048_1_0) : (⟨S8x2048, .f32⟩ : BufTy).Contents (Elt F) → (⟨S1x2048, .f32⟩ : BufTy).Contents (Elt F)),
    StableHlo.reshape main_v33 main_v34 rfl shapeCasts_S1x2048_S2048,
    StableHlo.unary main_v34 main_v35 (broadcastInDim S1x1x2048 ![2] bcast_S2048_S1x1x2048_2 : (⟨S2048, .f32⟩ : BufTy).Contents (Elt F) → (⟨S1x1x2048, .f32⟩ : BufTy).Contents (Elt F)),
    StableHlo.unary main_v35 main_v36 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v32 main_v36 main_v37 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call2.cst (constant S_ .f32 0x00000000#32),
    StableHlo.TRef.unary main_call2.cst main_call2.v0 (broadcastInDim S4x512x2048 ![] bcast_S_S4x512x2048),
    StableHlo.TRef.binary (.of main_v37 : StableHlo.TRef sig ⟨S4x512x2048, .f32⟩) main_call2.v0 main_call2.v1 maximumf,
    StableHlo.unary main_arg3 main_v39 ((extractStridedSlice S1x2048x512 ![1, 0, 0] · slices_S8x2048x512_S1x2048x512_1_0_0) : (⟨S8x2048x512, .f32⟩ : BufTy).Contents (Elt F) → (⟨S1x2048x512, .f32⟩ : BufTy).Contents (Elt F)),
    StableHlo.reshape main_v39 main_v40 rfl shapeCasts_S1x2048x512_S2048x512,
    StableHlo.binary main_v38 main_v40 main_v41 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v42 ((extractStridedSlice S1x512 ![1, 0] · slices_S8x512_S1x512_1_0) : (⟨S8x512, .f32⟩ : BufTy).Contents (Elt F) → (⟨S1x512, .f32⟩ : BufTy).Contents (Elt F)),
    StableHlo.reshape main_v42 main_v43 rfl shapeCasts_S1x512_S512,
    StableHlo.unary main_v43 main_v44 (broadcastInDim S1x1x512 ![2] bcast_S512_S1x1x512_2 : (⟨S512, .f32⟩ : BufTy).Contents (Elt F) → (⟨S1x1x512, .f32⟩ : BufTy).Contents (Elt F)),
    StableHlo.unary main_v44 main_v45 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v41 main_v45 main_v46 (addf : (⟨S4x512x512, .f32⟩ : BufTy).Contents (Elt F) → (⟨S4x512x512, .f32⟩ : BufTy).Contents (Elt F) → (⟨S4x512x512, .f32⟩ : BufTy).Contents (Elt F)),
    StableHlo.nullary main_c_3 (constantI S_ 32 1#32),
    StableHlo.unary main_c_3 main_v47 (broadcastInDim S4x512 ![] bcast_S_S4x512 : (⟨S_, .i32⟩ : BufTy).Contents (Elt F) → (⟨S4x512, .i32⟩ : BufTy).Contents (Elt F)),
    StableHlo.binary main_v6 main_v47 main_v48 (cmpi .eq : (⟨S4x512, .i32⟩ : BufTy).Contents (Elt F) → (⟨S4x512, .i32⟩ : BufTy).Contents (Elt F) → (⟨S4x512, .i1⟩ : BufTy).Contents (Elt F)),
    StableHlo.unary main_v48 main_v49 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_4 (constant S_ .f32 0x00000000#32),
    StableHlo.TRef.unary (.of main_cst_4 : StableHlo.TRef sig ⟨S_, .f32⟩) main_call3.v0 id,
    StableHlo.TRef.unary (.of main_v49 : StableHlo.TRef sig ⟨S4x512x1, .i1⟩) main_call3.v1 (broadcastInDim S4x512x512 ![0, 1, 2] bcast_S4x512x1_S4x512x512_0_1_2),
    StableHlo.TRef.unary main_call3.v0 main_call3.v2 (broadcastInDim S4x512x512 ![] bcast_S_S4x512x512),
    StableHlo.TRef.ternary main_call3.v1 (.of main_v46 : StableHlo.TRef sig ⟨S4x512x512, .f32⟩) main_call3.v2 main_call3.v3 select,
    StableHlo.binary main_v29 main_v50 main_v51 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 1 consecutive operations of @main's window 0, in order; a called function's operations stand where it is
    called, over that call's buffers. -/
abbrev ch3 : List (HloOp τ sig (Elt F)) :=
  [ StableHlo.unary main_arg1 main_v52 ((extractStridedSlice S1x512x2048 ![2, 0, 0] · slices_S8x512x2048_S1x512x2048_2_0_0) : (⟨S8x512x2048, .f32⟩ : BufTy).Contents (Elt F) → (⟨S1x512x2048, .f32⟩ : BufTy).Contents (Elt F)) ]

/-- The 70 operations of @main's window 0. -/
abbrev ops0 : List (HloOp τ sig (Elt F)) := ch0 ++ ch1 ++ ch2 ++ ch3

set_option maxRecDepth 65536 in
set_option maxHeartbeats 4000000 in
/-- 28 consecutive operations of @main's window 1, in order; a called function's operations stand where it is
    called, over that call's buffers. -/
abbrev ch4 : List (HloOp τ sig (Elt F)) :=
  [ StableHlo.reshape main_v52 main_v53 rfl shapeCasts_S1x512x2048_S512x2048,
    StableHlo.binary main_arg0 main_v53 main_v54 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v55 ((extractStridedSlice S1x2048 ![2, 0] · slices_S8x2048_S1x2048_2_0) : (⟨S8x2048, .f32⟩ : BufTy).Contents (Elt F) → (⟨S1x2048, .f32⟩ : BufTy).Contents (Elt F)),
    StableHlo.reshape main_v55 main_v56 rfl shapeCasts_S1x2048_S2048,
    StableHlo.unary main_v56 main_v57 (broadcastInDim S1x1x2048 ![2] bcast_S2048_S1x1x2048_2 : (⟨S2048, .f32⟩ : BufTy).Contents (Elt F) → (⟨S1x1x2048, .f32⟩ : BufTy).Contents (Elt F)),
    StableHlo.unary main_v57 main_v58 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v54 main_v58 main_v59 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call4.cst (constant S_ .f32 0x00000000#32),
    StableHlo.TRef.unary main_call4.cst main_call4.v0 (broadcastInDim S4x512x2048 ![] bcast_S_S4x512x2048),
    StableHlo.TRef.binary (.of main_v59 : StableHlo.TRef sig ⟨S4x512x2048, .f32⟩) main_call4.v0 main_call4.v1 maximumf,
    StableHlo.unary main_arg3 main_v61 ((extractStridedSlice S1x2048x512 ![2, 0, 0] · slices_S8x2048x512_S1x2048x512_2_0_0) : (⟨S8x2048x512, .f32⟩ : BufTy).Contents (Elt F) → (⟨S1x2048x512, .f32⟩ : BufTy).Contents (Elt F)),
    StableHlo.reshape main_v61 main_v62 rfl shapeCasts_S1x2048x512_S2048x512,
    StableHlo.binary main_v60 main_v62 main_v63 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v64 ((extractStridedSlice S1x512 ![2, 0] · slices_S8x512_S1x512_2_0) : (⟨S8x512, .f32⟩ : BufTy).Contents (Elt F) → (⟨S1x512, .f32⟩ : BufTy).Contents (Elt F)),
    StableHlo.reshape main_v64 main_v65 rfl shapeCasts_S1x512_S512,
    StableHlo.unary main_v65 main_v66 (broadcastInDim S1x1x512 ![2] bcast_S512_S1x1x512_2 : (⟨S512, .f32⟩ : BufTy).Contents (Elt F) → (⟨S1x1x512, .f32⟩ : BufTy).Contents (Elt F)),
    StableHlo.unary main_v66 main_v67 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v63 main_v67 main_v68 (addf : (⟨S4x512x512, .f32⟩ : BufTy).Contents (Elt F) → (⟨S4x512x512, .f32⟩ : BufTy).Contents (Elt F) → (⟨S4x512x512, .f32⟩ : BufTy).Contents (Elt F)),
    StableHlo.nullary main_c_5 (constantI S_ 32 2#32),
    StableHlo.unary main_c_5 main_v69 (broadcastInDim S4x512 ![] bcast_S_S4x512 : (⟨S_, .i32⟩ : BufTy).Contents (Elt F) → (⟨S4x512, .i32⟩ : BufTy).Contents (Elt F)),
    StableHlo.binary main_v6 main_v69 main_v70 (cmpi .eq : (⟨S4x512, .i32⟩ : BufTy).Contents (Elt F) → (⟨S4x512, .i32⟩ : BufTy).Contents (Elt F) → (⟨S4x512, .i1⟩ : BufTy).Contents (Elt F)),
    StableHlo.unary main_v70 main_v71 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_6 (constant S_ .f32 0x00000000#32),
    StableHlo.TRef.unary (.of main_cst_6 : StableHlo.TRef sig ⟨S_, .f32⟩) main_call5.v0 id,
    StableHlo.TRef.unary (.of main_v71 : StableHlo.TRef sig ⟨S4x512x1, .i1⟩) main_call5.v1 (broadcastInDim S4x512x512 ![0, 1, 2] bcast_S4x512x1_S4x512x512_0_1_2),
    StableHlo.TRef.unary main_call5.v0 main_call5.v2 (broadcastInDim S4x512x512 ![] bcast_S_S4x512x512),
    StableHlo.TRef.ternary main_call5.v1 (.of main_v68 : StableHlo.TRef sig ⟨S4x512x512, .f32⟩) main_call5.v2 main_call5.v3 select,
    StableHlo.binary main_v51 main_v72 main_v73 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 29 consecutive operations of @main's window 1, in order; a called function's operations stand where it is
    called, over that call's buffers. -/
abbrev ch5 : List (HloOp τ sig (Elt F)) :=
  [ StableHlo.unary main_arg1 main_v74 ((extractStridedSlice S1x512x2048 ![3, 0, 0] · slices_S8x512x2048_S1x512x2048_3_0_0) : (⟨S8x512x2048, .f32⟩ : BufTy).Contents (Elt F) → (⟨S1x512x2048, .f32⟩ : BufTy).Contents (Elt F)),
    StableHlo.reshape main_v74 main_v75 rfl shapeCasts_S1x512x2048_S512x2048,
    StableHlo.binary main_arg0 main_v75 main_v76 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v77 ((extractStridedSlice S1x2048 ![3, 0] · slices_S8x2048_S1x2048_3_0) : (⟨S8x2048, .f32⟩ : BufTy).Contents (Elt F) → (⟨S1x2048, .f32⟩ : BufTy).Contents (Elt F)),
    StableHlo.reshape main_v77 main_v78 rfl shapeCasts_S1x2048_S2048,
    StableHlo.unary main_v78 main_v79 (broadcastInDim S1x1x2048 ![2] bcast_S2048_S1x1x2048_2 : (⟨S2048, .f32⟩ : BufTy).Contents (Elt F) → (⟨S1x1x2048, .f32⟩ : BufTy).Contents (Elt F)),
    StableHlo.unary main_v79 main_v80 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v76 main_v80 main_v81 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call6.cst (constant S_ .f32 0x00000000#32),
    StableHlo.TRef.unary main_call6.cst main_call6.v0 (broadcastInDim S4x512x2048 ![] bcast_S_S4x512x2048),
    StableHlo.TRef.binary (.of main_v81 : StableHlo.TRef sig ⟨S4x512x2048, .f32⟩) main_call6.v0 main_call6.v1 maximumf,
    StableHlo.unary main_arg3 main_v83 ((extractStridedSlice S1x2048x512 ![3, 0, 0] · slices_S8x2048x512_S1x2048x512_3_0_0) : (⟨S8x2048x512, .f32⟩ : BufTy).Contents (Elt F) → (⟨S1x2048x512, .f32⟩ : BufTy).Contents (Elt F)),
    StableHlo.reshape main_v83 main_v84 rfl shapeCasts_S1x2048x512_S2048x512,
    StableHlo.binary main_v82 main_v84 main_v85 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v86 ((extractStridedSlice S1x512 ![3, 0] · slices_S8x512_S1x512_3_0) : (⟨S8x512, .f32⟩ : BufTy).Contents (Elt F) → (⟨S1x512, .f32⟩ : BufTy).Contents (Elt F)),
    StableHlo.reshape main_v86 main_v87 rfl shapeCasts_S1x512_S512,
    StableHlo.unary main_v87 main_v88 (broadcastInDim S1x1x512 ![2] bcast_S512_S1x1x512_2 : (⟨S512, .f32⟩ : BufTy).Contents (Elt F) → (⟨S1x1x512, .f32⟩ : BufTy).Contents (Elt F)),
    StableHlo.unary main_v88 main_v89 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v85 main_v89 main_v90 (addf : (⟨S4x512x512, .f32⟩ : BufTy).Contents (Elt F) → (⟨S4x512x512, .f32⟩ : BufTy).Contents (Elt F) → (⟨S4x512x512, .f32⟩ : BufTy).Contents (Elt F)),
    StableHlo.nullary main_c_7 (constantI S_ 32 3#32),
    StableHlo.unary main_c_7 main_v91 (broadcastInDim S4x512 ![] bcast_S_S4x512 : (⟨S_, .i32⟩ : BufTy).Contents (Elt F) → (⟨S4x512, .i32⟩ : BufTy).Contents (Elt F)),
    StableHlo.binary main_v6 main_v91 main_v92 (cmpi .eq : (⟨S4x512, .i32⟩ : BufTy).Contents (Elt F) → (⟨S4x512, .i32⟩ : BufTy).Contents (Elt F) → (⟨S4x512, .i1⟩ : BufTy).Contents (Elt F)),
    StableHlo.unary main_v92 main_v93 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_8 (constant S_ .f32 0x00000000#32),
    StableHlo.TRef.unary (.of main_cst_8 : StableHlo.TRef sig ⟨S_, .f32⟩) main_call7.v0 id,
    StableHlo.TRef.unary (.of main_v93 : StableHlo.TRef sig ⟨S4x512x1, .i1⟩) main_call7.v1 (broadcastInDim S4x512x512 ![0, 1, 2] bcast_S4x512x1_S4x512x512_0_1_2),
    StableHlo.TRef.unary main_call7.v0 main_call7.v2 (broadcastInDim S4x512x512 ![] bcast_S_S4x512x512),
    StableHlo.TRef.ternary main_call7.v1 (.of main_v90 : StableHlo.TRef sig ⟨S4x512x512, .f32⟩) main_call7.v2 main_call7.v3 select,
    StableHlo.binary main_v73 main_v94 main_v95 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 15 consecutive operations of @main's window 1, in order; a called function's operations stand where it is
    called, over that call's buffers. -/
abbrev ch6 : List (HloOp τ sig (Elt F)) :=
  [ StableHlo.unary main_arg1 main_v96 ((extractStridedSlice S1x512x2048 ![4, 0, 0] · slices_S8x512x2048_S1x512x2048_4_0_0) : (⟨S8x512x2048, .f32⟩ : BufTy).Contents (Elt F) → (⟨S1x512x2048, .f32⟩ : BufTy).Contents (Elt F)),
    StableHlo.reshape main_v96 main_v97 rfl shapeCasts_S1x512x2048_S512x2048,
    StableHlo.binary main_arg0 main_v97 main_v98 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v99 ((extractStridedSlice S1x2048 ![4, 0] · slices_S8x2048_S1x2048_4_0) : (⟨S8x2048, .f32⟩ : BufTy).Contents (Elt F) → (⟨S1x2048, .f32⟩ : BufTy).Contents (Elt F)),
    StableHlo.reshape main_v99 main_v100 rfl shapeCasts_S1x2048_S2048,
    StableHlo.unary main_v100 main_v101 (broadcastInDim S1x1x2048 ![2] bcast_S2048_S1x1x2048_2 : (⟨S2048, .f32⟩ : BufTy).Contents (Elt F) → (⟨S1x1x2048, .f32⟩ : BufTy).Contents (Elt F)),
    StableHlo.unary main_v101 main_v102 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v98 main_v102 main_v103 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call8.cst (constant S_ .f32 0x00000000#32),
    StableHlo.TRef.unary main_call8.cst main_call8.v0 (broadcastInDim S4x512x2048 ![] bcast_S_S4x512x2048),
    StableHlo.TRef.binary (.of main_v103 : StableHlo.TRef sig ⟨S4x512x2048, .f32⟩) main_call8.v0 main_call8.v1 maximumf,
    StableHlo.unary main_arg3 main_v105 ((extractStridedSlice S1x2048x512 ![4, 0, 0] · slices_S8x2048x512_S1x2048x512_4_0_0) : (⟨S8x2048x512, .f32⟩ : BufTy).Contents (Elt F) → (⟨S1x2048x512, .f32⟩ : BufTy).Contents (Elt F)),
    StableHlo.reshape main_v105 main_v106 rfl shapeCasts_S1x2048x512_S2048x512,
    StableHlo.binary main_v104 main_v106 main_v107 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v108 ((extractStridedSlice S1x512 ![4, 0] · slices_S8x512_S1x512_4_0) : (⟨S8x512, .f32⟩ : BufTy).Contents (Elt F) → (⟨S1x512, .f32⟩ : BufTy).Contents (Elt F)) ]

/-- The 72 operations of @main's window 1. -/
abbrev ops1 : List (HloOp τ sig (Elt F)) := ch4 ++ ch5 ++ ch6

set_option maxRecDepth 65536 in
set_option maxHeartbeats 4000000 in
/-- 14 consecutive operations of @main's window 2, in order; a called function's operations stand where it is
    called, over that call's buffers. -/
abbrev ch7 : List (HloOp τ sig (Elt F)) :=
  [ StableHlo.reshape main_v108 main_v109 rfl shapeCasts_S1x512_S512,
    StableHlo.unary main_v109 main_v110 (broadcastInDim S1x1x512 ![2] bcast_S512_S1x1x512_2 : (⟨S512, .f32⟩ : BufTy).Contents (Elt F) → (⟨S1x1x512, .f32⟩ : BufTy).Contents (Elt F)),
    StableHlo.unary main_v110 main_v111 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v107 main_v111 main_v112 (addf : (⟨S4x512x512, .f32⟩ : BufTy).Contents (Elt F) → (⟨S4x512x512, .f32⟩ : BufTy).Contents (Elt F) → (⟨S4x512x512, .f32⟩ : BufTy).Contents (Elt F)),
    StableHlo.nullary main_c_9 (constantI S_ 32 4#32),
    StableHlo.unary main_c_9 main_v113 (broadcastInDim S4x512 ![] bcast_S_S4x512 : (⟨S_, .i32⟩ : BufTy).Contents (Elt F) → (⟨S4x512, .i32⟩ : BufTy).Contents (Elt F)),
    StableHlo.binary main_v6 main_v113 main_v114 (cmpi .eq : (⟨S4x512, .i32⟩ : BufTy).Contents (Elt F) → (⟨S4x512, .i32⟩ : BufTy).Contents (Elt F) → (⟨S4x512, .i1⟩ : BufTy).Contents (Elt F)),
    StableHlo.unary main_v114 main_v115 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_10 (constant S_ .f32 0x00000000#32),
    StableHlo.TRef.unary (.of main_cst_10 : StableHlo.TRef sig ⟨S_, .f32⟩) main_call9.v0 id,
    StableHlo.TRef.unary (.of main_v115 : StableHlo.TRef sig ⟨S4x512x1, .i1⟩) main_call9.v1 (broadcastInDim S4x512x512 ![0, 1, 2] bcast_S4x512x1_S4x512x512_0_1_2),
    StableHlo.TRef.unary main_call9.v0 main_call9.v2 (broadcastInDim S4x512x512 ![] bcast_S_S4x512x512),
    StableHlo.TRef.ternary main_call9.v1 (.of main_v112 : StableHlo.TRef sig ⟨S4x512x512, .f32⟩) main_call9.v2 main_call9.v3 select,
    StableHlo.binary main_v95 main_v116 main_v117 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 29 consecutive operations of @main's window 2, in order; a called function's operations stand where it is
    called, over that call's buffers. -/
abbrev ch8 : List (HloOp τ sig (Elt F)) :=
  [ StableHlo.unary main_arg1 main_v118 ((extractStridedSlice S1x512x2048 ![5, 0, 0] · slices_S8x512x2048_S1x512x2048_5_0_0) : (⟨S8x512x2048, .f32⟩ : BufTy).Contents (Elt F) → (⟨S1x512x2048, .f32⟩ : BufTy).Contents (Elt F)),
    StableHlo.reshape main_v118 main_v119 rfl shapeCasts_S1x512x2048_S512x2048,
    StableHlo.binary main_arg0 main_v119 main_v120 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v121 ((extractStridedSlice S1x2048 ![5, 0] · slices_S8x2048_S1x2048_5_0) : (⟨S8x2048, .f32⟩ : BufTy).Contents (Elt F) → (⟨S1x2048, .f32⟩ : BufTy).Contents (Elt F)),
    StableHlo.reshape main_v121 main_v122 rfl shapeCasts_S1x2048_S2048,
    StableHlo.unary main_v122 main_v123 (broadcastInDim S1x1x2048 ![2] bcast_S2048_S1x1x2048_2 : (⟨S2048, .f32⟩ : BufTy).Contents (Elt F) → (⟨S1x1x2048, .f32⟩ : BufTy).Contents (Elt F)),
    StableHlo.unary main_v123 main_v124 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v120 main_v124 main_v125 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call10.cst (constant S_ .f32 0x00000000#32),
    StableHlo.TRef.unary main_call10.cst main_call10.v0 (broadcastInDim S4x512x2048 ![] bcast_S_S4x512x2048),
    StableHlo.TRef.binary (.of main_v125 : StableHlo.TRef sig ⟨S4x512x2048, .f32⟩) main_call10.v0 main_call10.v1 maximumf,
    StableHlo.unary main_arg3 main_v127 ((extractStridedSlice S1x2048x512 ![5, 0, 0] · slices_S8x2048x512_S1x2048x512_5_0_0) : (⟨S8x2048x512, .f32⟩ : BufTy).Contents (Elt F) → (⟨S1x2048x512, .f32⟩ : BufTy).Contents (Elt F)),
    StableHlo.reshape main_v127 main_v128 rfl shapeCasts_S1x2048x512_S2048x512,
    StableHlo.binary main_v126 main_v128 main_v129 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v130 ((extractStridedSlice S1x512 ![5, 0] · slices_S8x512_S1x512_5_0) : (⟨S8x512, .f32⟩ : BufTy).Contents (Elt F) → (⟨S1x512, .f32⟩ : BufTy).Contents (Elt F)),
    StableHlo.reshape main_v130 main_v131 rfl shapeCasts_S1x512_S512,
    StableHlo.unary main_v131 main_v132 (broadcastInDim S1x1x512 ![2] bcast_S512_S1x1x512_2 : (⟨S512, .f32⟩ : BufTy).Contents (Elt F) → (⟨S1x1x512, .f32⟩ : BufTy).Contents (Elt F)),
    StableHlo.unary main_v132 main_v133 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v129 main_v133 main_v134 (addf : (⟨S4x512x512, .f32⟩ : BufTy).Contents (Elt F) → (⟨S4x512x512, .f32⟩ : BufTy).Contents (Elt F) → (⟨S4x512x512, .f32⟩ : BufTy).Contents (Elt F)),
    StableHlo.nullary main_c_11 (constantI S_ 32 5#32),
    StableHlo.unary main_c_11 main_v135 (broadcastInDim S4x512 ![] bcast_S_S4x512 : (⟨S_, .i32⟩ : BufTy).Contents (Elt F) → (⟨S4x512, .i32⟩ : BufTy).Contents (Elt F)),
    StableHlo.binary main_v6 main_v135 main_v136 (cmpi .eq : (⟨S4x512, .i32⟩ : BufTy).Contents (Elt F) → (⟨S4x512, .i32⟩ : BufTy).Contents (Elt F) → (⟨S4x512, .i1⟩ : BufTy).Contents (Elt F)),
    StableHlo.unary main_v136 main_v137 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_12 (constant S_ .f32 0x00000000#32),
    StableHlo.TRef.unary (.of main_cst_12 : StableHlo.TRef sig ⟨S_, .f32⟩) main_call11.v0 id,
    StableHlo.TRef.unary (.of main_v137 : StableHlo.TRef sig ⟨S4x512x1, .i1⟩) main_call11.v1 (broadcastInDim S4x512x512 ![0, 1, 2] bcast_S4x512x1_S4x512x512_0_1_2),
    StableHlo.TRef.unary main_call11.v0 main_call11.v2 (broadcastInDim S4x512x512 ![] bcast_S_S4x512x512),
    StableHlo.TRef.ternary main_call11.v1 (.of main_v134 : StableHlo.TRef sig ⟨S4x512x512, .f32⟩) main_call11.v2 main_call11.v3 select,
    StableHlo.binary main_v117 main_v138 main_v139 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 29 consecutive operations of @main's window 2, in order; a called function's operations stand where it is
    called, over that call's buffers. -/
abbrev ch9 : List (HloOp τ sig (Elt F)) :=
  [ StableHlo.unary main_arg1 main_v140 ((extractStridedSlice S1x512x2048 ![6, 0, 0] · slices_S8x512x2048_S1x512x2048_6_0_0) : (⟨S8x512x2048, .f32⟩ : BufTy).Contents (Elt F) → (⟨S1x512x2048, .f32⟩ : BufTy).Contents (Elt F)),
    StableHlo.reshape main_v140 main_v141 rfl shapeCasts_S1x512x2048_S512x2048,
    StableHlo.binary main_arg0 main_v141 main_v142 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v143 ((extractStridedSlice S1x2048 ![6, 0] · slices_S8x2048_S1x2048_6_0) : (⟨S8x2048, .f32⟩ : BufTy).Contents (Elt F) → (⟨S1x2048, .f32⟩ : BufTy).Contents (Elt F)),
    StableHlo.reshape main_v143 main_v144 rfl shapeCasts_S1x2048_S2048,
    StableHlo.unary main_v144 main_v145 (broadcastInDim S1x1x2048 ![2] bcast_S2048_S1x1x2048_2 : (⟨S2048, .f32⟩ : BufTy).Contents (Elt F) → (⟨S1x1x2048, .f32⟩ : BufTy).Contents (Elt F)),
    StableHlo.unary main_v145 main_v146 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v142 main_v146 main_v147 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call12.cst (constant S_ .f32 0x00000000#32),
    StableHlo.TRef.unary main_call12.cst main_call12.v0 (broadcastInDim S4x512x2048 ![] bcast_S_S4x512x2048),
    StableHlo.TRef.binary (.of main_v147 : StableHlo.TRef sig ⟨S4x512x2048, .f32⟩) main_call12.v0 main_call12.v1 maximumf,
    StableHlo.unary main_arg3 main_v149 ((extractStridedSlice S1x2048x512 ![6, 0, 0] · slices_S8x2048x512_S1x2048x512_6_0_0) : (⟨S8x2048x512, .f32⟩ : BufTy).Contents (Elt F) → (⟨S1x2048x512, .f32⟩ : BufTy).Contents (Elt F)),
    StableHlo.reshape main_v149 main_v150 rfl shapeCasts_S1x2048x512_S2048x512,
    StableHlo.binary main_v148 main_v150 main_v151 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v152 ((extractStridedSlice S1x512 ![6, 0] · slices_S8x512_S1x512_6_0) : (⟨S8x512, .f32⟩ : BufTy).Contents (Elt F) → (⟨S1x512, .f32⟩ : BufTy).Contents (Elt F)),
    StableHlo.reshape main_v152 main_v153 rfl shapeCasts_S1x512_S512,
    StableHlo.unary main_v153 main_v154 (broadcastInDim S1x1x512 ![2] bcast_S512_S1x1x512_2 : (⟨S512, .f32⟩ : BufTy).Contents (Elt F) → (⟨S1x1x512, .f32⟩ : BufTy).Contents (Elt F)),
    StableHlo.unary main_v154 main_v155 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v151 main_v155 main_v156 (addf : (⟨S4x512x512, .f32⟩ : BufTy).Contents (Elt F) → (⟨S4x512x512, .f32⟩ : BufTy).Contents (Elt F) → (⟨S4x512x512, .f32⟩ : BufTy).Contents (Elt F)),
    StableHlo.nullary main_c_13 (constantI S_ 32 6#32),
    StableHlo.unary main_c_13 main_v157 (broadcastInDim S4x512 ![] bcast_S_S4x512 : (⟨S_, .i32⟩ : BufTy).Contents (Elt F) → (⟨S4x512, .i32⟩ : BufTy).Contents (Elt F)),
    StableHlo.binary main_v6 main_v157 main_v158 (cmpi .eq : (⟨S4x512, .i32⟩ : BufTy).Contents (Elt F) → (⟨S4x512, .i32⟩ : BufTy).Contents (Elt F) → (⟨S4x512, .i1⟩ : BufTy).Contents (Elt F)),
    StableHlo.unary main_v158 main_v159 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_14 (constant S_ .f32 0x00000000#32),
    StableHlo.TRef.unary (.of main_cst_14 : StableHlo.TRef sig ⟨S_, .f32⟩) main_call13.v0 id,
    StableHlo.TRef.unary (.of main_v159 : StableHlo.TRef sig ⟨S4x512x1, .i1⟩) main_call13.v1 (broadcastInDim S4x512x512 ![0, 1, 2] bcast_S4x512x1_S4x512x512_0_1_2),
    StableHlo.TRef.unary main_call13.v0 main_call13.v2 (broadcastInDim S4x512x512 ![] bcast_S_S4x512x512),
    StableHlo.TRef.ternary main_call13.v1 (.of main_v156 : StableHlo.TRef sig ⟨S4x512x512, .f32⟩) main_call13.v2 main_call13.v3 select,
    StableHlo.binary main_v139 main_v160 main_v161 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 1 consecutive operations of @main's window 2, in order; a called function's operations stand where it is
    called, over that call's buffers. -/
abbrev ch10 : List (HloOp τ sig (Elt F)) :=
  [ StableHlo.unary main_arg1 main_v162 ((extractStridedSlice S1x512x2048 ![7, 0, 0] · slices_S8x512x2048_S1x512x2048_7_0_0) : (⟨S8x512x2048, .f32⟩ : BufTy).Contents (Elt F) → (⟨S1x512x2048, .f32⟩ : BufTy).Contents (Elt F)) ]

/-- The 73 operations of @main's window 2. -/
abbrev ops2 : List (HloOp τ sig (Elt F)) := ch7 ++ ch8 ++ ch9 ++ ch10

set_option maxRecDepth 65536 in
set_option maxHeartbeats 4000000 in
/-- 28 consecutive operations of @main's window 3, in order; a called function's operations stand where it is
    called, over that call's buffers. -/
abbrev ch11 : List (HloOp τ sig (Elt F)) :=
  [ StableHlo.reshape main_v162 main_v163 rfl shapeCasts_S1x512x2048_S512x2048,
    StableHlo.binary main_arg0 main_v163 main_v164 ((fun l r => Host.dotGeneral dot_S4x512x512_S512x2048_S4x512x2048_2_0_01_1_n_n none l r) : (⟨S4x512x512, .f32⟩ : BufTy).Contents (Elt F) → (⟨S512x2048, .f32⟩ : BufTy).Contents (Elt F) → (⟨S4x512x2048, .f32⟩ : BufTy).Contents (Elt F)),
    StableHlo.unary main_arg2 main_v165 ((extractStridedSlice S1x2048 ![7, 0] · slices_S8x2048_S1x2048_7_0) : (⟨S8x2048, .f32⟩ : BufTy).Contents (Elt F) → (⟨S1x2048, .f32⟩ : BufTy).Contents (Elt F)),
    StableHlo.reshape main_v165 main_v166 rfl shapeCasts_S1x2048_S2048,
    StableHlo.unary main_v166 main_v167 (broadcastInDim S1x1x2048 ![2] bcast_S2048_S1x1x2048_2 : (⟨S2048, .f32⟩ : BufTy).Contents (Elt F) → (⟨S1x1x2048, .f32⟩ : BufTy).Contents (Elt F)),
    StableHlo.unary main_v167 main_v168 (broadcastInDim S4x512x2048 ![0, 1, 2] bcast_S1x1x2048_S4x512x2048_0_1_2 : (⟨S1x1x2048, .f32⟩ : BufTy).Contents (Elt F) → (⟨S4x512x2048, .f32⟩ : BufTy).Contents (Elt F)),
    StableHlo.binary main_v164 main_v168 main_v169 (addf : (⟨S4x512x2048, .f32⟩ : BufTy).Contents (Elt F) → (⟨S4x512x2048, .f32⟩ : BufTy).Contents (Elt F) → (⟨S4x512x2048, .f32⟩ : BufTy).Contents (Elt F)),
    StableHlo.TRef.nullary main_call14.cst (constant S_ .f32 0x00000000#32),
    StableHlo.TRef.unary main_call14.cst main_call14.v0 (broadcastInDim S4x512x2048 ![] bcast_S_S4x512x2048),
    StableHlo.TRef.binary (.of main_v169 : StableHlo.TRef sig ⟨S4x512x2048, .f32⟩) main_call14.v0 main_call14.v1 maximumf,
    StableHlo.unary main_arg3 main_v171 ((extractStridedSlice S1x2048x512 ![7, 0, 0] · slices_S8x2048x512_S1x2048x512_7_0_0) : (⟨S8x2048x512, .f32⟩ : BufTy).Contents (Elt F) → (⟨S1x2048x512, .f32⟩ : BufTy).Contents (Elt F)),
    StableHlo.reshape main_v171 main_v172 rfl shapeCasts_S1x2048x512_S2048x512,
    StableHlo.binary main_v170 main_v172 main_v173 ((fun l r => Host.dotGeneral dot_S4x512x2048_S2048x512_S4x512x512_2_0_01_1_n_n none l r) : (⟨S4x512x2048, .f32⟩ : BufTy).Contents (Elt F) → (⟨S2048x512, .f32⟩ : BufTy).Contents (Elt F) → (⟨S4x512x512, .f32⟩ : BufTy).Contents (Elt F)),
    StableHlo.unary main_arg4 main_v174 ((extractStridedSlice S1x512 ![7, 0] · slices_S8x512_S1x512_7_0) : (⟨S8x512, .f32⟩ : BufTy).Contents (Elt F) → (⟨S1x512, .f32⟩ : BufTy).Contents (Elt F)),
    StableHlo.reshape main_v174 main_v175 rfl shapeCasts_S1x512_S512,
    StableHlo.unary main_v175 main_v176 (broadcastInDim S1x1x512 ![2] bcast_S512_S1x1x512_2 : (⟨S512, .f32⟩ : BufTy).Contents (Elt F) → (⟨S1x1x512, .f32⟩ : BufTy).Contents (Elt F)),
    StableHlo.unary main_v176 main_v177 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v173 main_v177 main_v178 (addf : (⟨S4x512x512, .f32⟩ : BufTy).Contents (Elt F) → (⟨S4x512x512, .f32⟩ : BufTy).Contents (Elt F) → (⟨S4x512x512, .f32⟩ : BufTy).Contents (Elt F)),
    StableHlo.nullary main_c_15 (constantI S_ 32 7#32),
    StableHlo.unary main_c_15 main_v179 (broadcastInDim S4x512 ![] bcast_S_S4x512 : (⟨S_, .i32⟩ : BufTy).Contents (Elt F) → (⟨S4x512, .i32⟩ : BufTy).Contents (Elt F)),
    StableHlo.binary main_v6 main_v179 main_v180 (cmpi .eq : (⟨S4x512, .i32⟩ : BufTy).Contents (Elt F) → (⟨S4x512, .i32⟩ : BufTy).Contents (Elt F) → (⟨S4x512, .i1⟩ : BufTy).Contents (Elt F)),
    StableHlo.unary main_v180 main_v181 (broadcastInDim S4x512x1 ![0, 1] bcast_S4x512_S4x512x1_0_1 : (⟨S4x512, .i1⟩ : BufTy).Contents (Elt F) → (⟨S4x512x1, .i1⟩ : BufTy).Contents (Elt F)),
    StableHlo.nullary main_cst_16 (constant S_ .f32 0x00000000#32),
    StableHlo.TRef.unary (.of main_cst_16 : StableHlo.TRef sig ⟨S_, .f32⟩) main_call15.v0 id,
    StableHlo.TRef.unary (.of main_v181 : StableHlo.TRef sig ⟨S4x512x1, .i1⟩) main_call15.v1 (broadcastInDim S4x512x512 ![0, 1, 2] bcast_S4x512x1_S4x512x512_0_1_2),
    StableHlo.TRef.unary main_call15.v0 main_call15.v2 (broadcastInDim S4x512x512 ![] bcast_S_S4x512x512),
    StableHlo.TRef.ternary main_call15.v1 (.of main_v178 : StableHlo.TRef sig ⟨S4x512x512, .f32⟩) main_call15.v2 main_call15.v3 select,
    StableHlo.binary main_v161 main_v182 main_v183 (addf : (⟨S4x512x512, .f32⟩ : BufTy).Contents (Elt F) → (⟨S4x512x512, .f32⟩ : BufTy).Contents (Elt F) → (⟨S4x512x512, .f32⟩ : BufTy).Contents (Elt F)) ]

set_option maxRecDepth 65536 in
set_option maxHeartbeats 4000000 in
/-- 45 consecutive operations of @main's window 3, in order; a called function's operations stand where it is
    called, over that call's buffers. -/
abbrev ch12 : List (HloOp τ sig (Elt F)) :=
  [ StableHlo.binary main_arg0 main_v183 main_v184 (addf : (⟨S4x512x512, .f32⟩ : BufTy).Contents (Elt F) → (⟨S4x512x512, .f32⟩ : BufTy).Contents (Elt F) → (⟨S4x512x512, .f32⟩ : BufTy).Contents (Elt F)),
    StableHlo.nullary main_cst_17 (constant S_ .f32 0x00000000#32),
    StableHlo.binary main_v184 main_cst_17 main_v185 ((fun x v => Host.reduceAdd x v reducesTo_S4x512x512_S4x512_d2 h_S_) : (⟨S4x512x512, .f32⟩ : BufTy).Contents (Elt F) → (⟨S_, .f32⟩ : BufTy).Contents (Elt F) → (⟨S4x512, .f32⟩ : BufTy).Contents (Elt F)),
    StableHlo.unary main_v185 main_v186 (broadcastInDim S4x512x1 ![0, 1] bcast_S4x512_S4x512x1_0_1 : (⟨S4x512, .f32⟩ : BufTy).Contents (Elt F) → (⟨S4x512x1, .f32⟩ : BufTy).Contents (Elt F)),
    StableHlo.nullary main_cst_18 (constant S_ .f32 0x44000000#32),
    StableHlo.unary main_cst_18 main_v187 (broadcastInDim S4x512x1 ![] bcast_S_S4x512x1 : (⟨S_, .f32⟩ : BufTy).Contents (Elt F) → (⟨S4x512x1, .f32⟩ : BufTy).Contents (Elt F)),
    StableHlo.binary main_v186 main_v187 main_v188 (Host.divf : (⟨S4x512x1, .f32⟩ : BufTy).Contents (Elt F) → (⟨S4x512x1, .f32⟩ : BufTy).Contents (Elt F) → (⟨S4x512x1, .f32⟩ : BufTy).Contents (Elt F)),
    StableHlo.nullary main_c_19 (constantI S_ 32 0#32),
    StableHlo.TRef.nullary main_call16.cst (constant S_ .f32 0x00000000#32),
    StableHlo.TRef.binary (.of main_v184 : StableHlo.TRef sig ⟨S4x512x512, .f32⟩) main_call16.cst main_call16.v0 (fun x v => Host.reduceAdd x v reducesTo_S4x512x512_S4x512_d2 h_S_),
    StableHlo.TRef.unary main_call16.v0 main_call16.v1 (broadcastInDim S4x512x1 ![0, 1] bcast_S4x512_S4x512x1_0_1),
    StableHlo.TRef.nullary main_call16.cst_0 (constant S_ .f32 0x44000000#32),
    StableHlo.TRef.unary main_call16.cst_0 main_call16.v2 (broadcastInDim S4x512x1 ![] bcast_S_S4x512x1),
    StableHlo.TRef.binary main_call16.v1 main_call16.v2 main_call16.v3 Host.divf,
    StableHlo.TRef.unary main_call16.v3 main_call16.v4 (broadcastInDim S4x512x512 ![0, 1, 2] bcast_S4x512x1_S4x512x512_0_1_2),
    StableHlo.TRef.binary (.of main_v184 : StableHlo.TRef sig ⟨S4x512x512, .f32⟩) main_call16.v4 main_call16.v5 subf,
    StableHlo.TRef.binary main_call16.v5 main_call16.v5 main_call16.v6 mulf,
    StableHlo.TRef.unary (.of main_c_19 : StableHlo.TRef sig ⟨S_, .i32⟩) main_call16.v7 (sitofp .f32),
    StableHlo.TRef.nullary main_call16.cst_1 (constant S_ .f32 0x44000000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S4x512x512_S4x512_d2 h_S_),
    StableHlo.TRef.unary main_call16.v9 main_call16.v10 (broadcastInDim S4x512x1 ![0, 1] bcast_S4x512_S4x512x1_0_1),
    StableHlo.TRef.unary main_call16.v8 main_call16.v11 (broadcastInDim S4x512x1 ![] bcast_S_S4x512x1),
    StableHlo.TRef.binary main_call16.v10 main_call16.v11 main_call16.v12 Host.divf,
    StableHlo.TRef.nullary main_call16.cst_3 (constant S_ .f32 0x00000000#32),
    StableHlo.TRef.binary main_call16.v8 main_call16.cst_3 main_call16.v13 (cmpf .ogt),
    StableHlo.TRef.nullary main_call16.cst_4 (constant S_ .f32 0x7FC00000#32),
    StableHlo.TRef.unary (main_call16.cst_4 : StableHlo.TRef sig ⟨S_, .f32⟩) main_call16.call0.v0 id,
    StableHlo.TRef.unary main_call16.call0.v0 main_call16.call0.v1 (broadcastInDim S4x512x1 ![] bcast_S_S4x512x1),
    StableHlo.TRef.ternary (main_call16.v13 : StableHlo.TRef sig ⟨S_, .i1⟩) (main_call16.v12 : StableHlo.TRef sig ⟨S4x512x1, .f32⟩) main_call16.call0.v1 main_call16.call0.v2 (fun p a b => select (broadcastInDim S4x512x1 ![] bcast_S_S4x512x1 p) a b),
    StableHlo.unary main_v188 main_v190 (broadcastInDim S4x512x512 ![0, 1, 2] bcast_S4x512x1_S4x512x512_0_1_2 : (⟨S4x512x1, .f32⟩ : BufTy).Contents (Elt F) → (⟨S4x512x512, .f32⟩ : BufTy).Contents (Elt F)),
    StableHlo.binary main_v184 main_v190 main_v191 (subf : (⟨S4x512x512, .f32⟩ : BufTy).Contents (Elt F) → (⟨S4x512x512, .f32⟩ : BufTy).Contents (Elt F) → (⟨S4x512x512, .f32⟩ : BufTy).Contents (Elt F)),
    StableHlo.nullary main_cst_20 (constant S_ .f32 0x3727C5AC#32),
    StableHlo.unary main_cst_20 main_v192 (broadcastInDim S4x512x1 ![] bcast_S_S4x512x1 : (⟨S_, .f32⟩ : BufTy).Contents (Elt F) → (⟨S4x512x1, .f32⟩ : BufTy).Contents (Elt F)),
    StableHlo.binary main_v189 main_v192 main_v193 (addf : (⟨S4x512x1, .f32⟩ : BufTy).Contents (Elt F) → (⟨S4x512x1, .f32⟩ : BufTy).Contents (Elt F) → (⟨S4x512x1, .f32⟩ : BufTy).Contents (Elt F)),
    StableHlo.unary main_v193 main_v194 (Host.rsqrt : (⟨S4x512x1, .f32⟩ : BufTy).Contents (Elt F) → (⟨S4x512x1, .f32⟩ : BufTy).Contents (Elt F)),
    StableHlo.unary main_v194 main_v195 (broadcastInDim S4x512x512 ![0, 1, 2] bcast_S4x512x1_S4x512x512_0_1_2 : (⟨S4x512x1, .f32⟩ : BufTy).Contents (Elt F) → (⟨S4x512x512, .f32⟩ : BufTy).Contents (Elt F)),
    StableHlo.binary main_v191 main_v195 main_v196 (mulf : (⟨S4x512x512, .f32⟩ : BufTy).Contents (Elt F) → (⟨S4x512x512, .f32⟩ : BufTy).Contents (Elt F) → (⟨S4x512x512, .f32⟩ : BufTy).Contents (Elt F)),
    StableHlo.unary main_arg5 main_v197 (broadcastInDim S1x1x512 ![2] bcast_S512_S1x1x512_2 : (⟨S512, .f32⟩ : BufTy).Contents (Elt F) → (⟨S1x1x512, .f32⟩ : BufTy).Contents (Elt F)),
    StableHlo.unary main_v197 main_v198 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v196 main_v198 main_v199 (mulf : (⟨S4x512x512, .f32⟩ : BufTy).Contents (Elt F) → (⟨S4x512x512, .f32⟩ : BufTy).Contents (Elt F) → (⟨S4x512x512, .f32⟩ : BufTy).Contents (Elt F)),
    StableHlo.unary main_arg6 main_v200 (broadcastInDim S1x1x512 ![2] bcast_S512_S1x1x512_2 : (⟨S512, .f32⟩ : BufTy).Contents (Elt F) → (⟨S1x1x512, .f32⟩ : BufTy).Contents (Elt F)),
    StableHlo.unary main_v200 main_v201 (broadcastInDim S4x512x512 ![0, 1, 2] bcast_S1x1x512_S4x512x512_0_1_2 : (⟨S1x1x512, .f32⟩ : BufTy).Contents (Elt F) → (⟨S4x512x512, .f32⟩ : BufTy).Contents (Elt F)),
    StableHlo.binary main_v199 main_v201 main_v202 (addf : (⟨S4x512x512, .f32⟩ : BufTy).Contents (Elt F) → (⟨S4x512x512, .f32⟩ : BufTy).Contents (Elt F) → (⟨S4x512x512, .f32⟩ : BufTy).Contents (Elt F)) ]

/-- The 73 operations of @main's window 3. -/
abbrev ops3 : List (HloOp τ sig (Elt F)) := ch11 ++ ch12

/-- @main's 288 operations: the windows' lists one after the other. -/
abbrev ops : List (HloOp τ sig (Elt F)) := ops0 ++ ops1 ++ ops2 ++ ops3

end Cert.ReferenceIdeal.RefRun

end
-- ==== Proof.RefTerm.lean ====
/-
  The reference function's value as one term of its nine argument arrays.

  bins[b, s] = hash_bin_map[orig_input[b, s]] (a negative id counted from the end, an id past the end clamped).
  For each expert e = 0 … 7 in turn: h_e = max(x W1[e] + b1[e], 0), y_e = h_e W2[e] + b2[e], and the
  accumulator, started at zero, gains y_e on the tokens whose bin is e and zero elsewhere. The result is the layer
  norm of z = x + accumulator along the last axis: (z - mean z) * rsqrt(var z + eps) * gamma + beta, where
  mean z = (sum z) / 512 and var z = (sum (z - mean z)^2) / (512 - 0), the quotient kept when the divisor
  512 - 0 is positive and a NaN otherwise. Each definition below is the composition of the operations the function
  applies, in its order.
-/
import proofs.«414385_j85753317032356_3_alg».proof.ReferenceIdeal
import proofs.«414385_j85753317032356_3_alg».proof.Proof.Gen.ReferenceIdeal

noncomputable section

namespace Cert.ReferenceIdeal.RefTerm

open Idealize.ShloMosaic Cert.ReferenceIdeal Cert.ReferenceIdeal.Facts₀

variable {F : FTy → Type} [FloatOps F]
variable [Cert.ReferenceIdeal.Facts]

/-- The bin word of every token: the hash table read at the token ids (a negative id counted from the end, an id
    past the end clamped). -/
def bins (orig : IVec S4x512 32) (hbm : IVec S32000 32) : IVec S4x512 32 :=
  let v0 : IVec S4x512 32 := broadcastInDim S4x512 ![] bcast_S_S4x512 (constantI S_ 32 0#32)
  let v1 : IVec S4x512 1 := cmpi .slt orig v0
  let v2 : IVec S4x512 32 := broadcastInDim S4x512 ![] bcast_S_S4x512 (constantI S_ 32 32000#32)
  let v3 : IVec S4x512 32 := addi orig v2
  let v4 : IVec S4x512 32 := select v1 v3 orig
  let v5 : IVec S4x512x1 32 := broadcastInDim S4x512x1 ![0, 1] bcast_S4x512_S4x512x1_0_1 v4
  Host.gather gather_S32000_S4x512x1_S4x512_n_0_n_n_0_2_1 hbm v5

/-- The hidden layer of one expert, max(x W1 + b1, 0), from that expert's slab of W1 and row of b1. -/
def expertHid (x : FVec F S4x512x512 .f32) (W1e : FVec F S1x512x2048 .f32) (b1e : FVec F S1x2048 .f32) :
    FVec F S4x512x2048 .f32 :=
  let w : FVec F S512x2048 .f32 := shapeCast S512x2048 W1e shapeCasts_S1x512x2048_S512x2048
  let p : FVec F S4x512x2048 .f32 := Host.dotGeneral dot_S4x512x512_S512x2048_S4x512x2048_2_0_01_1_n_n none x w
  let c : FVec F S2048 .f32 := shapeCast S2048 b1e shapeCasts_S1x2048_S2048
  let c1 : FVec F S1x1x2048 .f32 := broadcastInDim S1x1x2048 ![2] bcast_S2048_S1x1x2048_2 c
  let c2 : FVec F S4x512x2048 .f32 := broadcastInDim S4x512x2048 ![0, 1, 2] bcast_S1x1x2048_S4x512x2048_0_1_2 c1
  let a : FVec F S4x512x2048 .f32 := addf p c2
  let z : FVec F S4x512x2048 .f32 := broadcastInDim S4x512x2048 ![] bcast_S_S4x512x2048 (constant S_ .f32 0x00000000#32)
  maximumf a z

/-- The output of one expert, h W2 + b2, from its hidden layer, its slab of W2 and its row of b2. -/
def expertOut (h : FVec F S4x512x2048 .f32) (W2e : FVec F S1x2048x512 .f32) (b2e : FVec F S1x512 .f32) :
    FVec F S4x512x512 .f32 :=
  let w : FVec F S2048x512 .f32 := shapeCast S2048x512 W2e shapeCasts_S1x2048x512_S2048x512
  let p : FVec F S4x512x512 .f32 := Host.dotGeneral dot_S4x512x2048_S2048x512_S4x512x512_2_0_01_1_n_n none h w
  let c : FVec F S512 .f32 := shapeCast S512 b2e shapeCasts_S1x512_S512
  let c1 : FVec F S1x1x512 .f32 := broadcastInDim S1x1x512 ![2] bcast_S512_S1x1x512_2 c
  let c2 : FVec F S4x512x512 .f32 := broadcastInDim S4x512x512 ![0, 1, 2] bcast_S1x1x512_S4x512x512_0_1_2 c1
  addf p c2

/-- The accumulator after expert `e`: it gains y on the tokens whose bin word is `e`, zero on the others. -/
def maskedAdd (acc : FVec F S4x512x512 .f32) (bn : IVec S4x512 32) (e : BitVec 32) (y : FVec F S4x512x512 .f32) :
    FVec F S4x512x512 .f32 :=
  let k : IVec S4x512 32 := broadcastInDim S4x512 ![] bcast_S_S4x512 (constantI S_ 32 e)
  let m : IVec S4x512 1 := cmpi .eq bn k
  let m1 : IVec S4x512x1 1 := broadcastInDim S4x512x1 ![0, 1] bcast_S4x512_S4x512x1_0_1 m
  let z0 : FVec F S_ .f32 := id (constant S_ .f32 0x00000000#32)
  let m2 : IVec S4x512x512 1 := broadcastInDim S4x512x512 ![0, 1, 2] bcast_S4x512x1_S4x512x512_0_1_2 m1
  let z : FVec F S4x512x512 .f32 := broadcastInDim S4x512x512 ![] bcast_S_S4x512x512 z0
  let w : FVec F S4x512x512 .f32 := select m2 y z
  addf acc w

/-- The mean of every row, (sum z) / 512, as a column. -/
def rowMean (z : FVec F S4x512x512 .f32) : FVec F S4x512x1 .f32 :=
  let s : FVec F S4x512 .f32 := Host.reduceAdd z (constant S_ .f32 0x00000000#32) reducesTo_S4x512x512_S4x512_d2 h_S_
  let s1 : FVec F S4x512x1 .f32 := broadcastInDim S4x512x1 ![0, 1] bcast_S4x512_S4x512x1_0_1 s
  let n : FVec F S4x512x1 .f32 := broadcastInDim S4x512x1 ![] bcast_S_S4x512x1 (constant S_ .f32 0x44000000#32)
  Host.divf s1 n

/-- The variance of every row, (sum (z - mean z)^2) / (512 - ddof) with ddof the integer `dd` made a float, as a
    column: the quotient where 512 - ddof is positive, a NaN otherwise. -/
def rowVar (z : FVec F S4x512x512 .f32) (dd : IVec S_ 32) : FVec F S4x512x1 .f32 :=
  let v3 : FVec F S4x512x1 .f32 := rowMean z
  let v4 : FVec F S4x512x512 .f32 := broadcastInDim S4x512x512 ![0, 1, 2] bcast_S4x512x1_S4x512x512_0_1_2 v3
  let v5 : FVec F S4x512x512 .f32 := subf z v4
  let v6 : FVec F S4x512x512 .f32 := mulf v5 v5
  let v7 : FVec F S_ .f32 := sitofp .f32 dd
  let v8 : FVec F S_ .f32 := subf (constant S_ .f32 0x44000000#32) v7
  let v9 : FVec F S4x512 .f32 := Host.reduceAdd v6 (constant S_ .f32 0x00000000#32) reducesTo_S4x512x512_S4x512_d2 h_S_
  let v10 : FVec F S4x512x1 .f32 := broadcastInDim S4x512x1 ![0, 1] bcast_S4x512_S4x512x1_0_1 v9
  let v11 : FVec F S4x512x1 .f32 := broadcastInDim S4x512x1 ![] bcast_S_S4x512x1 v8
  let v12 : FVec F S4x512x1 .f32 := Host.divf v10 v11
  let v13 : IVec S_ 1 := cmpf .ogt v8 (constant S_ .f32 0x00000000#32)
  let w0 : FVec F S_ .f32 := id (constant S_ .f32 0x7FC00000#32)
  let w1 : FVec F S4x512x1 .f32 := broadcastInDim S4x512x1 ![] bcast_S_S4x512x1 w0
  select (broadcastInDim S4x512x1 ![] bcast_S_S4x512x1 v13) v12 w1

/-- The layer norm of every row: (z - mean z) * rsqrt(var z + eps) * gamma + beta. -/
def layerNorm (z : FVec F S4x512x512 .f32) (g be : FVec F S512 .f32) : FVec F S4x512x512 .f32 :=
  let v188 : FVec F S4x512x1 .f32 := rowMean z
  let v189 : FVec F S4x512x1 .f32 := rowVar z (constantI S_ 32 0#32)
  let v190 : FVec F S4x512x512 .f32 := broadcastInDim S4x512x512 ![0, 1, 2] bcast_S4x512x1_S4x512x512_0_1_2 v188
  let v191 : FVec F S4x512x512 .f32 := subf z v190
  let v192 : FVec F S4x512x1 .f32 := broadcastInDim S4x512x1 ![] bcast_S_S4x512x1 (constant S_ .f32 0x3727C5AC#32)
  let v193 : FVec F S4x512x1 .f32 := addf v189 v192
  let v194 : FVec F S4x512x1 .f32 := Host.rsqrt v193
  let v195 : FVec F S4x512x512 .f32 := broadcastInDim S4x512x512 ![0, 1, 2] bcast_S4x512x1_S4x512x512_0_1_2 v194
  let v196 : FVec F S4x512x512 .f32 := mulf v191 v195
  let v197 : FVec F S1x1x512 .f32 := broadcastInDim S1x1x512 ![2] bcast_S512_S1x1x512_2 g
  let v198 : FVec F S4x512x512 .f32 := broadcastInDim S4x512x512 ![0, 1, 2] bcast_S1x1x512_S4x512x512_0_1_2 v197
  let v199 : FVec F S4x512x512 .f32 := mulf v196 v198
  let v200 : FVec F S1x1x512 .f32 := broadcastInDim S1x1x512 ![2] bcast_S512_S1x1x512_2 be
  let v201 : FVec F S4x512x512 .f32 := broadcastInDim S4x512x512 ![0, 1, 2] bcast_S1x1x512_S4x512x512_0_1_2 v200
  addf v199 v201

/-- Expert 0's output on every token. -/
def y0 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![0, 0, 0] W1 slices_S8x512x2048_S1x512x2048_0_0_0)
      (extractStridedSlice S1x2048 ![0, 0] b1 slices_S8x2048_S1x2048_0_0))
    (extractStridedSlice S1x2048x512 ![0, 0, 0] W2 slices_S8x2048x512_S1x2048x512_0_0_0)
    (extractStridedSlice S1x512 ![0, 0] b2 slices_S8x512_S1x512_0_0)

/-- Expert 1's output on every token. -/
def y1 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![1, 0, 0] W1 slices_S8x512x2048_S1x512x2048_1_0_0)
      (extractStridedSlice S1x2048 ![1, 0] b1 slices_S8x2048_S1x2048_1_0))
    (extractStridedSlice S1x2048x512 ![1, 0, 0] W2 slices_S8x2048x512_S1x2048x512_1_0_0)
    (extractStridedSlice S1x512 ![1, 0] b2 slices_S8x512_S1x512_1_0)

/-- Expert 2's output on every token. -/
def y2 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![2, 0, 0] W1 slices_S8x512x2048_S1x512x2048_2_0_0)
      (extractStridedSlice S1x2048 ![2, 0] b1 slices_S8x2048_S1x2048_2_0))
    (extractStridedSlice S1x2048x512 ![2, 0, 0] W2 slices_S8x2048x512_S1x2048x512_2_0_0)
    (extractStridedSlice S1x512 ![2, 0] b2 slices_S8x512_S1x512_2_0)

/-- Expert 3's output on every token. -/
def y3 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![3, 0, 0] W1 slices_S8x512x2048_S1x512x2048_3_0_0)
      (extractStridedSlice S1x2048 ![3, 0] b1 slices_S8x2048_S1x2048_3_0))
    (extractStridedSlice S1x2048x512 ![3, 0, 0] W2 slices_S8x2048x512_S1x2048x512_3_0_0)
    (extractStridedSlice S1x512 ![3, 0] b2 slices_S8x512_S1x512_3_0)

/-- Expert 4's output on every token. -/
def y4 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![4, 0, 0] W1 slices_S8x512x2048_S1x512x2048_4_0_0)
      (extractStridedSlice S1x2048 ![4, 0] b1 slices_S8x2048_S1x2048_4_0))
    (extractStridedSlice S1x2048x512 ![4, 0, 0] W2 slices_S8x2048x512_S1x2048x512_4_0_0)
    (extractStridedSlice S1x512 ![4, 0] b2 slices_S8x512_S1x512_4_0)

/-- Expert 5's output on every token. -/
def y5 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![5, 0, 0] W1 slices_S8x512x2048_S1x512x2048_5_0_0)
      (extractStridedSlice S1x2048 ![5, 0] b1 slices_S8x2048_S1x2048_5_0))
    (extractStridedSlice S1x2048x512 ![5, 0, 0] W2 slices_S8x2048x512_S1x2048x512_5_0_0)
    (extractStridedSlice S1x512 ![5, 0] b2 slices_S8x512_S1x512_5_0)

/-- Expert 6's output on every token. -/
def y6 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![6, 0, 0] W1 slices_S8x512x2048_S1x512x2048_6_0_0)
      (extractStridedSlice S1x2048 ![6, 0] b1 slices_S8x2048_S1x2048_6_0))
    (extractStridedSlice S1x2048x512 ![6, 0, 0] W2 slices_S8x2048x512_S1x2048x512_6_0_0)
    (extractStridedSlice S1x512 ![6, 0] b2 slices_S8x512_S1x512_6_0)

/-- Expert 7's output on every token. -/
def y7 (x : FVec F S4x512x512 .f32) (W1 : FVec F S8x512x2048 .f32) (b1 : FVec F S8x2048 .f32)
    (W2 : FVec F S8x2048x512 .f32) (b2 : FVec F S8x512 .f32) : FVec F S4x512x512 .f32 :=
  expertOut
    (expertHid x (extractStridedSlice S1x512x2048 ![7, 0, 0] W1 slices_S8x512x2048_S1x512x2048_7_0_0)
      (extractStridedSlice S1x2048 ![7, 0] b1 slices_S8x2048_S1x2048_7_0))
    (extractStridedSlice S1x2048x512 ![7, 0, 0] W2 slices_S8x2048x512_S1x2048x512_7_0_0)
    (extractStridedSlice S1x512 ![7, 0] b2 slices_S8x512_S1x512_7_0)

/-- The masked sum of the eight experts' outputs, experts 0 to 7 in order over zeros. -/
def ffnOut (x : FVec F S4x512x512 .f32) (W1 : FVec F S8x512x2048 .f32) (b1 : FVec F S8x2048 .f32)
    (W2 : FVec F S8x2048x512 .f32) (b2 : FVec F S8x512 .f32) (bn : IVec S4x512 32) : FVec F S4x512x512 .f32 :=
  let a0 : FVec F S4x512x512 .f32 := broadcastInDim S4x512x512 ![] bcast_S_S4x512x512 (constant S_ .f32 0x00000000#32)
  let a1 : FVec F S4x512x512 .f32 := maskedAdd a0 bn 0#32 (y0 x W1 b1 W2 b2)
  let a2 : FVec F S4x512x512 .f32 := maskedAdd a1 bn 1#32 (y1 x W1 b1 W2 b2)
  let a3 : FVec F S4x512x512 .f32 := maskedAdd a2 bn 2#32 (y2 x W1 b1 W2 b2)
  let a4 : FVec F S4x512x512 .f32 := maskedAdd a3 bn 3#32 (y3 x W1 b1 W2 b2)
  let a5 : FVec F S4x512x512 .f32 := maskedAdd a4 bn 4#32 (y4 x W1 b1 W2 b2)
  let a6 : FVec F S4x512x512 .f32 := maskedAdd a5 bn 5#32 (y5 x W1 b1 W2 b2)
  let a7 : FVec F S4x512x512 .f32 := maskedAdd a6 bn 6#32 (y6 x W1 b1 W2 b2)
  maskedAdd a7 bn 7#32 (y7 x W1 b1 W2 b2)

/-- The reference function's result: the layer norm of x plus the masked sum of the experts' outputs. -/
def refTerm (x : FVec F S4x512x512 .f32) (W1 : FVec F S8x512x2048 .f32) (b1 : FVec F S8x2048 .f32)
    (W2 : FVec F S8x2048x512 .f32) (b2 : FVec F S8x512 .f32) (g be : FVec F S512 .f32)
    (orig : IVec S4x512 32) (hbm : IVec S32000 32) : FVec F S4x512x512 .f32 :=
  layerNorm (addf x (ffnOut x W1 b1 W2 b2 (bins orig hbm))) g be

end Cert.ReferenceIdeal.RefTerm

end
-- ==== Proof.RefRun.lean ====
/-
  The reference program's run. Its @main is a straight line of 288 host operations (the called functions'
  operations standing at their call sites); every weakly fair execution of it terminates, and at the end the
  result buffer holds the reference function's value of the nine argument arrays as launched, the arguments
  themselves unchanged.

  The line is cut into thirteen consecutive chunks: the bin words (chunk 0), one block per expert e = 0 … 7
  (a block is one chunk, or two where a window of @main ends inside it), and the layer norm (chunk 12). Each
  block's effect on the buffers is read off separately — it writes no argument buffer, the blocks after the
  first do not write the bin words, and the one buffer the next block reads from it holds the corresponding
  piece of the reference function's term — and the pieces are then chained.
-/
import proofs.«414385_j85753317032356_3_alg».proof.Proof.RefOps
import proofs.«414385_j85753317032356_3_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefTerm

variable {F : FTy → Type} [FloatOps F]

/-! ## Lists -/

/-- A property of every element of two lists is one of every element of their concatenation. -/
theorem forall_append' {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The contents after two lines run one after the other: the second line's effect on the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The program is the line -/

theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
theorem main_part3_eq (c : Dev nD) : main_part3 (F := F) c = seq ops3 := rfl

/-- @main runs its four windows in order, and the windows' lines one after the other are the whole line. -/
theorem main_eq (c : Dev nD) : main (F := F) c = seq ops := by
  have h : (ops : List (HloOp τ sig (Elt F))) = ops0 ++ (ops1 ++ (ops2 ++ ops3)) := by
    simp only [ops, List.append_assoc]
  rw [h, seq_append ops0, seq_append ops1, seq_append ops2 ops3, ← main_part0_eq c, ← main_part1_eq c,
    ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation stays among the TensorCore's buffers and determines what it writes -/

/-- Each operation of a literal chunk reads and writes TensorCore buffers only: one fact per kind of operation. -/
local macro "bufs_sub_of" c:ident : tactic =>
  `(tactic| simp only [$c:ident, List.Forall, nullary_bufs_sub, unary_bufs_sub, binary_bufs_sub, ternary_bufs_sub,
      reshape_bufs_sub, and_self])

theorem ch0_sub : (ch0 : List (HloOp τ sig (Elt F))).Forall fun op => op.bufs ⊆ tcRefs τ sig := by bufs_sub_of ch0
theorem ch1_sub : (ch1 : List (HloOp τ sig (Elt F))).Forall fun op => op.bufs ⊆ tcRefs τ sig := by bufs_sub_of ch1
theorem ch2_sub : (ch2 : List (HloOp τ sig (Elt F))).Forall fun op => op.bufs ⊆ tcRefs τ sig := by bufs_sub_of ch2
theorem ch3_sub : (ch3 : List (HloOp τ sig (Elt F))).Forall fun op => op.bufs ⊆ tcRefs τ sig := by bufs_sub_of ch3
theorem ch4_sub : (ch4 : List (HloOp τ sig (Elt F))).Forall fun op => op.bufs ⊆ tcRefs τ sig := by bufs_sub_of ch4
theorem ch5_sub : (ch5 : List (HloOp τ sig (Elt F))).Forall fun op => op.bufs ⊆ tcRefs τ sig := by bufs_sub_of ch5
theorem ch6_sub : (ch6 : List (HloOp τ sig (Elt F))).Forall fun op => op.bufs ⊆ tcRefs τ sig := by bufs_sub_of ch6
theorem ch7_sub : (ch7 : List (HloOp τ sig (Elt F))).Forall fun op => op.bufs ⊆ tcRefs τ sig := by bufs_sub_of ch7
theorem ch8_sub : (ch8 : List (HloOp τ sig (Elt F))).Forall fun op => op.bufs ⊆ tcRefs τ sig := by bufs_sub_of ch8
theorem ch9_sub : (ch9 : List (HloOp τ sig (Elt F))).Forall fun op => op.bufs ⊆ tcRefs τ sig := by bufs_sub_of ch9
theorem ch10_sub : (ch10 : List (HloOp τ sig (Elt F))).Forall fun op => op.bufs ⊆ tcRefs τ sig := by bufs_sub_of ch10
theorem ch11_sub : (ch11 : List (HloOp τ sig (Elt F))).Forall fun op => op.bufs ⊆ tcRefs τ sig := by bufs_sub_of ch11
theorem ch12_sub : (ch12 : List (HloOp τ sig (Elt F))).Forall fun op => op.bufs ⊆ tcRefs τ sig := by bufs_sub_of ch12

theorem ops_sub : (ops : List (HloOp τ sig (Elt F))).Forall fun op => op.bufs ⊆ tcRefs τ sig :=
  forall_append' (forall_append' (forall_append'
    (forall_append' (forall_append' (forall_append' ch0_sub ch1_sub) ch2_sub) ch3_sub)
    (forall_append' (forall_append' ch4_sub ch5_sub) ch6_sub))
    (forall_append' (forall_append' (forall_append' ch7_sub ch8_sub) ch9_sub) ch10_sub))
    (forall_append' ch11_sub ch12_sub)

/-- No operation of a literal chunk leaves a buffer's contents open: each kind's set of such buffers is empty by
    definition. -/
local macro "fresh_of" c:ident : tactic =>
  `(tactic| (simp only [$c:ident, List.Forall]; repeat' constructor))

theorem ch0_fresh : (ch0 : List (HloOp τ sig (Elt F))).Forall fun op => op.fresh = ∅ := by fresh_of ch0
theorem ch1_fresh : (ch1 : List (HloOp τ sig (Elt F))).Forall fun op => op.fresh = ∅ := by fresh_of ch1
theorem ch2_fresh : (ch2 : List (HloOp τ sig (Elt F))).Forall fun op => op.fresh = ∅ := by fresh_of ch2
theorem ch3_fresh : (ch3 : List (HloOp τ sig (Elt F))).Forall fun op => op.fresh = ∅ := by fresh_of ch3
theorem ch4_fresh : (ch4 : List (HloOp τ sig (Elt F))).Forall fun op => op.fresh = ∅ := by fresh_of ch4
theorem ch5_fresh : (ch5 : List (HloOp τ sig (Elt F))).Forall fun op => op.fresh = ∅ := by fresh_of ch5
theorem ch6_fresh : (ch6 : List (HloOp τ sig (Elt F))).Forall fun op => op.fresh = ∅ := by fresh_of ch6
theorem ch7_fresh : (ch7 : List (HloOp τ sig (Elt F))).Forall fun op => op.fresh = ∅ := by fresh_of ch7
theorem ch8_fresh : (ch8 : List (HloOp τ sig (Elt F))).Forall fun op => op.fresh = ∅ := by fresh_of ch8
theorem ch9_fresh : (ch9 : List (HloOp τ sig (Elt F))).Forall fun op => op.fresh = ∅ := by fresh_of ch9
theorem ch10_fresh : (ch10 : List (HloOp τ sig (Elt F))).Forall fun op => op.fresh = ∅ := by fresh_of ch10
theorem ch11_fresh : (ch11 : List (HloOp τ sig (Elt F))).Forall fun op => op.fresh = ∅ := by fresh_of ch11
theorem ch12_fresh : (ch12 : List (HloOp τ sig (Elt F))).Forall fun op => op.fresh = ∅ := by fresh_of ch12

theorem ops_fresh : ∀ op ∈ (ops : List (HloOp τ sig (Elt F))), op.fresh = ∅ :=
  List.forall_iff_forall_mem.mp <|
    forall_append' (forall_append' (forall_append'
      (forall_append' (forall_append' (forall_append' ch0_fresh ch1_fresh) ch2_fresh) ch3_fresh)
      (forall_append' (forall_append' ch4_fresh ch5_fresh) ch6_fresh))
      (forall_append' (forall_append' (forall_append' ch7_fresh ch8_fresh) ch9_fresh) ch10_fresh))
      (forall_append' ch11_fresh ch12_fresh)

/-! ## What a chunk leaves alone -/

/-- The nine argument buffers. -/
def argRefs : List (Ref sig .tc) :=
  [main_arg0, main_arg1, main_arg2, main_arg3, main_arg4, main_arg5, main_arg6, main_arg7, main_arg8]

/-- A literal chunk writes only its operations' own result buffers, each a buffer other than the one asked about:
    the buffers' inequality is decided operation by operation. -/
local macro "no_write_of" c:ident : tactic =>
  `(tactic|
    (simp only [$c:ident, List.Forall, nullary_writes, unary_writes, binary_writes, ternary_writes, reshape_writes,
       Finset.mem_singleton]
     repeat' apply And.intro
     all_goals exact devRef_ne_of_ne (by decide)))

set_option hygiene false in
/-- A chunk none of whose operations writes an argument buffer leaves the nine of them as they were. -/
local macro "args_kept_by" c:ident : tactic =>
  `(tactic|
    (intro W r hr
     refine after_of_forall_not_mem _ _ (List.forall_iff_forall_mem.mp ?_)
     simp only [argRefs, List.mem_cons, List.mem_nil_iff, or_false] at hr
     rcases hr with rfl | rfl | rfl | rfl | rfl | rfl | rfl | rfl | rfl <;> no_write_of $c))

set_option maxHeartbeats 4000000 in
theorem ch0_keep : ∀ (W : Valuation τ sig (Elt F)) (r : Ref sig .tc), r ∈ argRefs →
    after ch0 W (Proc.devRef .tc r) = W (Proc.devRef .tc r) := by args_kept_by ch0
set_option maxHeartbeats 4000000 in
theorem ch1_keep : ∀ (W : Valuation τ sig (Elt F)) (r : Ref sig .tc), r ∈ argRefs →
    after ch1 W (Proc.devRef .tc r) = W (Proc.devRef .tc r) := by args_kept_by ch1
set_option maxHeartbeats 4000000 in
theorem ch2_keep : ∀ (W : Valuation τ sig (Elt F)) (r : Ref sig .tc), r ∈ argRefs →
    after ch2 W (Proc.devRef .tc r) = W (Proc.devRef .tc r) := by args_kept_by ch2
set_option maxHeartbeats 4000000 in
theorem ch3_keep : ∀ (W : Valuation τ sig (Elt F)) (r : Ref sig .tc), r ∈ argRefs →
    after ch3 W (Proc.devRef .tc r) = W (Proc.devRef .tc r) := by args_kept_by ch3
set_option maxHeartbeats 4000000 in
theorem ch4_keep : ∀ (W : Valuation τ sig (Elt F)) (r : Ref sig .tc), r ∈ argRefs →
    after ch4 W (Proc.devRef .tc r) = W (Proc.devRef .tc r) := by args_kept_by ch4
set_option maxHeartbeats 4000000 in
theorem ch5_keep : ∀ (W : Valuation τ sig (Elt F)) (r : Ref sig .tc), r ∈ argRefs →
    after ch5 W (Proc.devRef .tc r) = W (Proc.devRef .tc r) := by args_kept_by ch5
set_option maxHeartbeats 4000000 in
theorem ch6_keep : ∀ (W : Valuation τ sig (Elt F)) (r : Ref sig .tc), r ∈ argRefs →
    after ch6 W (Proc.devRef .tc r) = W (Proc.devRef .tc r) := by args_kept_by ch6
set_option maxHeartbeats 4000000 in
theorem ch7_keep : ∀ (W : Valuation τ sig (Elt F)) (r : Ref sig .tc), r ∈ argRefs →
    after ch7 W (Proc.devRef .tc r) = W (Proc.devRef .tc r) := by args_kept_by ch7
set_option maxHeartbeats 4000000 in
theorem ch8_keep : ∀ (W : Valuation τ sig (Elt F)) (r : Ref sig .tc), r ∈ argRefs →
    after ch8 W (Proc.devRef .tc r) = W (Proc.devRef .tc r) := by args_kept_by ch8
set_option maxHeartbeats 4000000 in
theorem ch9_keep : ∀ (W : Valuation τ sig (Elt F)) (r : Ref sig .tc), r ∈ argRefs →
    after ch9 W (Proc.devRef .tc r) = W (Proc.devRef .tc r) := by args_kept_by ch9
set_option maxHeartbeats 4000000 in
theorem ch10_keep : ∀ (W : Valuation τ sig (Elt F)) (r : Ref sig .tc), r ∈ argRefs →
    after ch10 W (Proc.devRef .tc r) = W (Proc.devRef .tc r) := by args_kept_by ch10
set_option maxHeartbeats 4000000 in
theorem ch11_keep : ∀ (W : Valuation τ sig (Elt F)) (r : Ref sig .tc), r ∈ argRefs →
    after ch11 W (Proc.devRef .tc r) = W (Proc.devRef .tc r) := by args_kept_by ch11
set_option maxHeartbeats 4000000 in
theorem ch12_keep : ∀ (W : Valuation τ sig (Elt F)) (r : Ref sig .tc), r ∈ argRefs →
    after ch12 W (Proc.devRef .tc r) = W (Proc.devRef .tc r) := by args_kept_by ch12

/-- The whole line writes no argument buffer. -/
theorem args_kept (V : Valuation τ sig (Elt F)) (r : Ref sig .tc) (hr : r ∈ argRefs) :
    after ops V (Proc.devRef .tc r) = V (Proc.devRef .tc r) := by
  simp only [ops, ops0, ops1, ops2, ops3, after_app]
  rw [ch12_keep _ r hr, ch11_keep _ r hr, ch10_keep _ r hr, ch9_keep _ r hr, ch8_keep _ r hr, ch7_keep _ r hr,
    ch6_keep _ r hr, ch5_keep _ r hr, ch4_keep _ r hr, ch3_keep _ r hr, ch2_keep _ r hr, ch1_keep _ r hr,
    ch0_keep _ r hr]

/-! ## The run, the result still as the line's fold -/

/-- On every device, for any float values, from any memory with zero counters: every weakly fair execution of @main
    terminates with the result buffer at the fold of the 288 operations over the launch contents, and each of the
    nine arguments as launched. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202)
          = after ops (fun b => m (c, b)) (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v202,
      (h c main_arg0).trans (args_kept _ main_arg0 (by decide)),
      (h c main_arg1).trans (args_kept _ main_arg1 (by decide)),
      (h c main_arg2).trans (args_kept _ main_arg2 (by decide)),
      (h c main_arg3).trans (args_kept _ main_arg3 (by decide)),
      (h c main_arg4).trans (args_kept _ main_arg4 (by decide)),
      (h c main_arg5).trans (args_kept _ main_arg5 (by decide)),
      (h c main_arg6).trans (args_kept _ main_arg6 (by decide)),
      (h c main_arg7).trans (args_kept _ main_arg7 (by decide)),
      (h c main_arg8).trans (args_kept _ main_arg8 (by decide))⟩)
    (run_seq scopedRefs_eq scopedSems_eq defs main (fun _ => ops) main_eq (fun _ => ops_sub) m ρ (fun _ => ops_fresh))

/-! ## What each block computes -/

/-- Chunk 0 ends with the bin words in their buffer: the hash table read at the token ids. -/
theorem pro_v6 (W : Valuation τ sig (Elt F)) :
    after ch0 W (Proc.devRef .tc main_v6)
      = bins (W (Proc.devRef .tc main_arg7)) (W (Proc.devRef .tc main_arg8)) := by
  after_results_simp
  rfl

/-- Chunk 0 ends with the accumulator's buffer at zero. -/
theorem pro_v7 (W : Valuation τ sig (Elt F)) :
    after ch0 W (Proc.devRef .tc main_v7)
      = (broadcastInDim S4x512x512 ![] bcast_S_S4x512x512 (constant S_ .f32 0x00000000#32) : FVec F S4x512x512 .f32) := by
  after_results_simp

/-- Expert 0's block: the new accumulator is the old one plus expert 0's output on the tokens of bin 0. -/
theorem e0_acc (W : Valuation τ sig (Elt F)) :
    after ch1 W (Proc.devRef .tc main_v29)
      = maskedAdd (W (Proc.devRef .tc main_v7)) (W (Proc.devRef .tc main_v6)) 0#32
          (y0 (W (Proc.devRef .tc main_arg0)) (W (Proc.devRef .tc main_arg1)) (W (Proc.devRef .tc main_arg2))
            (W (Proc.devRef .tc main_arg3)) (W (Proc.devRef .tc main_arg4))) := by
  after_results_simp
  rfl

/-- Expert 1's block. -/
theorem e1_acc (W : Valuation τ sig (Elt F)) :
    after ch2 W (Proc.devRef .tc main_v51)
      = maskedAdd (W (Proc.devRef .tc main_v29)) (W (Proc.devRef .tc main_v6)) 1#32
          (y1 (W (Proc.devRef .tc main_arg0)) (W (Proc.devRef .tc main_arg1)) (W (Proc.devRef .tc main_arg2))
            (W (Proc.devRef .tc main_arg3)) (W (Proc.devRef .tc main_arg4))) := by
  after_results_simp
  rfl

/-- Expert 2's block, which a window's end cuts after its first operation. -/
theorem e2_acc (W : Valuation τ sig (Elt F)) :
    after ch4 (after ch3 W) (Proc.devRef .tc main_v73)
      = maskedAdd (W (Proc.devRef .tc main_v51)) (W (Proc.devRef .tc main_v6)) 2#32
          (y2 (W (Proc.devRef .tc main_arg0)) (W (Proc.devRef .tc main_arg1)) (W (Proc.devRef .tc main_arg2))
            (W (Proc.devRef .tc main_arg3)) (W (Proc.devRef .tc main_arg4))) := by
  rw [← after_app]
  simp only [ch3, ch4, List.cons_append, List.nil_append]
  after_results_simp
  rfl

/-- Expert 3's block. -/
theorem e3_acc (W : Valuation τ sig (Elt F)) :
    after ch5 W (Proc.devRef .tc main_v95)
      = maskedAdd (W (Proc.devRef .tc main_v73)) (W (Proc.devRef .tc main_v6)) 3#32
          (y3 (W (Proc.devRef .tc main_arg0)) (W (Proc.devRef .tc main_arg1)) (W (Proc.devRef .tc main_arg2))
            (W (Proc.devRef .tc main_arg3)) (W (Proc.devRef .tc main_arg4))) := by
  after_results_simp
  rfl

/-- Expert 4's block, which a window's end cuts after its second bias slice. -/
theorem e4_acc (W : Valuation τ sig (Elt F)) :
    after ch7 (after ch6 W) (Proc.devRef .tc main_v117)
      = maskedAdd (W (Proc.devRef .tc main_v95)) (W (Proc.devRef .tc main_v6)) 4#32
          (y4 (W (Proc.devRef .tc main_arg0)) (W (Proc.devRef .tc main_arg1)) (W (Proc.devRef .tc main_arg2))
            (W (Proc.devRef .tc main_arg3)) (W (Proc.devRef .tc main_arg4))) := by
  rw [← after_app]
  simp only [ch6, ch7, List.cons_append, List.nil_append]
  after_results_simp
  rfl

/-- Expert 5's block. -/
theorem e5_acc (W : Valuation τ sig (Elt F)) :
    after ch8 W (Proc.devRef .tc main_v139)
      = maskedAdd (W (Proc.devRef .tc main_v117)) (W (Proc.devRef .tc main_v6)) 5#32
          (y5 (W (Proc.devRef .tc main_arg0)) (W (Proc.devRef .tc main_arg1)) (W (Proc.devRef .tc main_arg2))
            (W (Proc.devRef .tc main_arg3)) (W (Proc.devRef .tc main_arg4))) := by
  after_results_simp
  rfl

/-- Expert 6's block. -/
theorem e6_acc (W : Valuation τ sig (Elt F)) :
    after ch9 W (Proc.devRef .tc main_v161)
      = maskedAdd (W (Proc.devRef .tc main_v139)) (W (Proc.devRef .tc main_v6)) 6#32
          (y6 (W (Proc.devRef .tc main_arg0)) (W (Proc.devRef .tc main_arg1)) (W (Proc.devRef .tc main_arg2))
            (W (Proc.devRef .tc main_arg3)) (W (Proc.devRef .tc main_arg4))) := by
  after_results_simp
  rfl

/-- Expert 7's block, which a window's end cuts after its first operation. -/
theorem e7_acc (W : Valuation τ sig (Elt F)) :
    after ch11 (after ch10 W) (Proc.devRef .tc main_v183)
      = maskedAdd (W (Proc.devRef .tc main_v161)) (W (Proc.devRef .tc main_v6)) 7#32
          (y7 (W (Proc.devRef .tc main_arg0)) (W (Proc.devRef .tc main_arg1)) (W (Proc.devRef .tc main_arg2))
            (W (Proc.devRef .tc main_arg3)) (W (Proc.devRef .tc main_arg4))) := by
  rw [← after_app]
  simp only [ch10, ch11, List.cons_append, List.nil_append]
  after_results_simp
  rfl

/-- The last chunk: the layer norm of x plus the accumulator, scaled and shifted. -/
theorem epi (W : Valuation τ sig (Elt F)) :
    after ch12 W (Proc.devRef .tc main_v202)
      = layerNorm (addf (W (Proc.devRef .tc main_arg0)) (W (Proc.devRef .tc main_v183)))
          (W (Proc.devRef .tc main_arg5)) (W (Proc.devRef .tc main_arg6)) := by
  after_results_simp
  rfl

/-! ## The bin words stay where chunk 0 put them -/

theorem ch1_keep6 (W : Valuation τ sig (Elt F)) : after ch1 W (Proc.devRef .tc main_v6) = W (Proc.devRef .tc main_v6) :=
  after_of_forall_not_mem _ _ (List.forall_iff_forall_mem.mp (by no_write_of ch1))
theorem ch2_keep6 (W : Valuation τ sig (Elt F)) : after ch2 W (Proc.devRef .tc main_v6) = W (Proc.devRef .tc main_v6) :=
  after_of_forall_not_mem _ _ (List.forall_iff_forall_mem.mp (by no_write_of ch2))
theorem ch3_keep6 (W : Valuation τ sig (Elt F)) : after ch3 W (Proc.devRef .tc main_v6) = W (Proc.devRef .tc main_v6) :=
  after_of_forall_not_mem _ _ (List.forall_iff_forall_mem.mp (by no_write_of ch3))
theorem ch4_keep6 (W : Valuation τ sig (Elt F)) : after ch4 W (Proc.devRef .tc main_v6) = W (Proc.devRef .tc main_v6) :=
  after_of_forall_not_mem _ _ (List.forall_iff_forall_mem.mp (by no_write_of ch4))
theorem ch5_keep6 (W : Valuation τ sig (Elt F)) : after ch5 W (Proc.devRef .tc main_v6) = W (Proc.devRef .tc main_v6) :=
  after_of_forall_not_mem _ _ (List.forall_iff_forall_mem.mp (by no_write_of ch5))
theorem ch6_keep6 (W : Valuation τ sig (Elt F)) : after ch6 W (Proc.devRef .tc main_v6) = W (Proc.devRef .tc main_v6) :=
  after_of_forall_not_mem _ _ (List.forall_iff_forall_mem.mp (by no_write_of ch6))
theorem ch7_keep6 (W : Valuation τ sig (Elt F)) : after ch7 W (Proc.devRef .tc main_v6) = W (Proc.devRef .tc main_v6) :=
  after_of_forall_not_mem _ _ (List.forall_iff_forall_mem.mp (by no_write_of ch7))
theorem ch8_keep6 (W : Valuation τ sig (Elt F)) : after ch8 W (Proc.devRef .tc main_v6) = W (Proc.devRef .tc main_v6) :=
  after_of_forall_not_mem _ _ (List.forall_iff_forall_mem.mp (by no_write_of ch8))
theorem ch9_keep6 (W : Valuation τ sig (Elt F)) : after ch9 W (Proc.devRef .tc main_v6) = W (Proc.devRef .tc main_v6) :=
  after_of_forall_not_mem _ _ (List.forall_iff_forall_mem.mp (by no_write_of ch9))
theorem ch10_keep6 (W : Valuation τ sig (Elt F)) : after ch10 W (Proc.devRef .tc main_v6) = W (Proc.devRef .tc main_v6) :=
  after_of_forall_not_mem _ _ (List.forall_iff_forall_mem.mp (by no_write_of ch10))
theorem ch11_keep6 (W : Valuation τ sig (Elt F)) : after ch11 W (Proc.devRef .tc main_v6) = W (Proc.devRef .tc main_v6) :=
  after_of_forall_not_mem _ _ (List.forall_iff_forall_mem.mp (by no_write_of ch11))

/-! ## Chaining the blocks -/

/-- Where the run stands between two blocks, from launch contents V: the buffers W hold the arguments as launched
    and the bin words of the launched ids and table, and the accumulator's current buffer (its contents wacc) holds
    the partial masked sum a. -/
def Stage (V W : Valuation τ sig (Elt F)) (wacc a : FVec F S4x512x512 .f32) : Prop :=
  (∀ r ∈ argRefs, W (Proc.devRef .tc r) = V (Proc.devRef .tc r))
    ∧ W (Proc.devRef .tc main_v6) = bins (V (Proc.devRef .tc main_arg7)) (V (Proc.devRef .tc main_arg8))
    ∧ wacc = a

/-- One expert's block carries a stage to the next: a block that keeps the arguments and the bin words, and whose new
    accumulator is the old one plus the expert's output y on the tokens of bin e — all read in the buffers before
    it — leaves the same stated of the launch contents. -/
theorem Stage.step {V W : Valuation τ sig (Elt F)} {wacc wacc' a : FVec F S4x512x512 .f32}
    (W' : Valuation τ sig (Elt F)) (e : BitVec 32)
    (y : FVec F S4x512x512 .f32 → FVec F S8x512x2048 .f32 → FVec F S8x2048 .f32 → FVec F S8x2048x512 .f32 →
      FVec F S8x512 .f32 → FVec F S4x512x512 .f32)
    (h : Stage V W wacc a)
    (hkA : ∀ r ∈ argRefs, W' (Proc.devRef .tc r) = W (Proc.devRef .tc r))
    (hk6 : W' (Proc.devRef .tc main_v6) = W (Proc.devRef .tc main_v6))
    (hacc : wacc' = maskedAdd wacc (W (Proc.devRef .tc main_v6)) e
      (y (W (Proc.devRef .tc main_arg0)) (W (Proc.devRef .tc main_arg1)) (W (Proc.devRef .tc main_arg2))
        (W (Proc.devRef .tc main_arg3)) (W (Proc.devRef .tc main_arg4)))) :
    Stage V W' wacc' (maskedAdd a (bins (V (Proc.devRef .tc main_arg7)) (V (Proc.devRef .tc main_arg8))) e
      (y (V (Proc.devRef .tc main_arg0)) (V (Proc.devRef .tc main_arg1)) (V (Proc.devRef .tc main_arg2))
        (V (Proc.devRef .tc main_arg3)) (V (Proc.devRef .tc main_arg4)))) := by
  obtain ⟨hA, hB, hC⟩ := h
  refine ⟨fun r hr => (hkA r hr).trans (hA r hr), hk6.trans hB, ?_⟩
  rw [hacc, hC, hB, hA main_arg0 (by decide), hA main_arg1 (by decide), hA main_arg2 (by decide),
    hA main_arg3 (by decide), hA main_arg4 (by decide)]

/-- The result buffer ends at the reference function's value of the arguments' launch contents. -/
theorem out_eq (V : Valuation τ sig (Elt F)) :
    after ops V (Proc.devRef .tc main_v202)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  have s0 : Stage V (after ch0 V) (after ch0 V (Proc.devRef .tc main_v7))
      (broadcastInDim S4x512x512 ![] bcast_S_S4x512x512 (constant S_ .f32 0x00000000#32)) :=
    ⟨ch0_keep V, pro_v6 V, pro_v7 V⟩
  have s1 := s0.step (after ch1 (after ch0 V)) 0#32 y0 (ch1_keep _) (ch1_keep6 _) (e0_acc _)
  have s2 := s1.step (after ch2 (after ch1 (after ch0 V))) 1#32 y1 (ch2_keep _) (ch2_keep6 _) (e1_acc _)
  have s3 := s2.step (after ch4 (after ch3 (after ch2 (after ch1 (after ch0 V))))) 2#32 y2
    (fun r hr => (ch4_keep _ r hr).trans (ch3_keep _ r hr)) ((ch4_keep6 _).trans (ch3_keep6 _)) (e2_acc _)
  have s4 := s3.step (after ch5 (after ch4 (after ch3 (after ch2 (after ch1 (after ch0 V)))))) 3#32 y3
    (ch5_keep _) (ch5_keep6 _) (e3_acc _)
  have s5 := s4.step (after ch7 (after ch6 (after ch5 (after ch4 (after ch3 (after ch2 (after ch1 (after ch0 V)))))))) 4#32 y4
    (fun r hr => (ch7_keep _ r hr).trans (ch6_keep _ r hr)) ((ch7_keep6 _).trans (ch6_keep6 _)) (e4_acc _)
  have s6 := s5.step (after ch8 (after ch7 (after ch6 (after ch5 (after ch4 (after ch3 (after ch2 (after ch1
    (after ch0 V))))))))) 5#32 y5 (ch8_keep _) (ch8_keep6 _) (e5_acc _)
  have s7 := s6.step (after ch9 (after ch8 (after ch7 (after ch6 (after ch5 (after ch4 (after ch3 (after ch2 (after ch1
    (after ch0 V)))))))))) 6#32 y6 (ch9_keep _) (ch9_keep6 _) (e6_acc _)
  have s8 := s7.step (after ch11 (after ch10 (after ch9 (after ch8 (after ch7 (after ch6 (after ch5 (after ch4 (after ch3
    (after ch2 (after ch1 (after ch0 V)))))))))))) 7#32 y7
    (fun r hr => (ch11_keep _ r hr).trans (ch10_keep _ r hr)) ((ch11_keep6 _).trans (ch10_keep6 _)) (e7_acc _)
  obtain ⟨hA, -, hC⟩ := s8
  simp only [ops, ops0, ops1, ops2, ops3, after_app]
  rw [epi, hC, hA main_arg0 (by decide), hA main_arg5 (by decide), hA main_arg6 (by decide)]
  rfl

/-! ## The run -/

/-- On every device, for any float values, from any memory with zero counters: every weakly fair execution of @main
    terminates with the result buffer at the reference function's value of the nine arguments as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202)
          = RefTerm.refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (out_eq _), (h c).2⟩) (run_after m ρ)

end Cert.ReferenceIdeal.RefRun

end
-- ==== Proof.RefValue.lean ====
/-
  The reference function's value is the specified function of its argument arrays.

  Read at one index (b, s, d), every operation of the reference is elementary. The table lookup reads the hash table at
  the token's id (a negative id counted from the end, an id past the end clamped). A product with one contracted axis
  is the sum over that axis of the operands' products. A slice of expert e's slab followed by the drop of its unit
  axis reads the whole array at first coordinate e; a bias row broadcast over the tokens reads the row at the last
  coordinate. So expert e's block at (b, s, d) is relu(x[b, s] W1[e] + b1[e]) W2[e] + b2[e] at d.

  The accumulator is 0 + m_0 + m_1 + … + m_7 with m_e = (expert e's output if the token's bin word is e, else 0). When
  the bin word is one of 0 … 7 exactly one comparison holds, the other seven terms are the zero of the extended reals,
  and the sum is the output of the token's own expert.

  In the layer norm a row sum over the last axis is the sum over its 512 coordinates, the mean is that sum over 512,
  and the variance's divisor 512 - 0 is 512, which is positive, so its guard keeps the quotient; the rest is
  pointwise.
-/
import proofs.«414385_j85753317032356_3_alg».proof.Proof.RefTerm
import proofs.«414385_j85753317032356_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal Cert.ReferenceIdeal.Facts₀ Cert.ReferenceIdeal.RefTerm

/-! ## The two products read at an index -/

theorem dotA_lhs_0 (j : S4x512x2048.Idx) (k : (dot_S4x512x512_S512x2048_S4x512x2048_2_0_01_1_n_n).contr.Idx) :
    ((dot_S4x512x512_S512x2048_S4x512x2048_2_0_01_1_n_n).lhsIdx j k 0 : ℕ) = j 0 := by
  simp [DotDims.lhsIdx, dot_S4x512x512_S512x2048_S4x512x2048_2_0_01_1_n_n]; rfl
theorem dotA_lhs_1 (j : S4x512x2048.Idx) (k : (dot_S4x512x512_S512x2048_S4x512x2048_2_0_01_1_n_n).contr.Idx) :
    ((dot_S4x512x512_S512x2048_S4x512x2048_2_0_01_1_n_n).lhsIdx j k 1 : ℕ) = j 1 := by
  simp [DotDims.lhsIdx, dot_S4x512x512_S512x2048_S4x512x2048_2_0_01_1_n_n]; rfl
theorem dotA_lhs_2 (j : S4x512x2048.Idx) (k : (dot_S4x512x512_S512x2048_S4x512x2048_2_0_01_1_n_n).contr.Idx) :
    ((dot_S4x512x512_S512x2048_S4x512x2048_2_0_01_1_n_n).lhsIdx j k 2 : ℕ) = k ⟨0, by decide⟩ := by
  simp [DotDims.lhsIdx, dot_S4x512x512_S512x2048_S4x512x2048_2_0_01_1_n_n]; rfl
theorem dotA_rhs_0 (j : S4x512x2048.Idx) (k : (dot_S4x512x512_S512x2048_S4x512x2048_2_0_01_1_n_n).contr.Idx) :
    ((dot_S4x512x512_S512x2048_S4x512x2048_2_0_01_1_n_n).rhsIdx j k 0 : ℕ) = k ⟨0, by decide⟩ := by
  simp [DotDims.rhsIdx, dot_S4x512x512_S512x2048_S4x512x2048_2_0_01_1_n_n]; rfl
theorem dotA_rhs_1 (j : S4x512x2048.Idx) (k : (dot_S4x512x512_S512x2048_S4x512x2048_2_0_01_1_n_n).contr.Idx) :
    ((dot_S4x512x512_S512x2048_S4x512x2048_2_0_01_1_n_n).rhsIdx j k 1 : ℕ) = j 2 := by
  simp [DotDims.rhsIdx, dot_S4x512x512_S512x2048_S4x512x2048_2_0_01_1_n_n]; rfl

/-- x W at (b, s, h) is the sum over k of x[b, s, k] W[k, h]. -/
theorem dotA_apply (x : FVec Ideal S4x512x512 .f32) (w : FVec Ideal S512x2048 .f32) (b : Fin 4) (s : Fin 512) (h : Fin 2048) :
    Host.dotGeneral (F := Ideal) dot_S4x512x512_S512x2048_S4x512x2048_2_0_01_1_n_n none x w (ix3 b s h)
      = ∑ k : Fin 512, x (ix3 b s k) * w (ix2 k h) := by
  show FloatOps.dotGeneral dot_S4x512x512_S512x2048_S4x512x2048_2_0_01_1_n_n none .single x w (ix3 b s h) = _
  rw [Ideal.dotGeneral_apply,
    ← Equiv.sum_comp (contrEquiv1 dot_S4x512x512_S512x2048_S4x512x2048_2_0_01_1_n_n 512 rfl rfl).symm]
  refine Finset.sum_congr rfl fun k _ => ?_
  congr 2
  · funext a
    refine Fin.ext ?_
    match a with
    | ⟨0, _⟩ => exact dotA_lhs_0 _ _
    | ⟨1, _⟩ => exact dotA_lhs_1 _ _
    | ⟨2, _⟩ => exact (dotA_lhs_2 _ _).trans (contrEquiv1_symm_val _ 512 rfl rfl k)
  · funext a
    refine Fin.ext ?_
    match a with
    | ⟨0, _⟩ => exact (dotA_rhs_0 _ _).trans (contrEquiv1_symm_val _ 512 rfl rfl k)
    | ⟨1, _⟩ => exact dotA_rhs_1 _ _

theorem dotB_lhs_0 (j : S4x512x512.Idx) (k : (dot_S4x512x2048_S2048x512_S4x512x512_2_0_01_1_n_n).contr.Idx) :
    ((dot_S4x512x2048_S2048x512_S4x512x512_2_0_01_1_n_n).lhsIdx j k 0 : ℕ) = j 0 := by
  simp [DotDims.lhsIdx, dot_S4x512x2048_S2048x512_S4x512x512_2_0_01_1_n_n]; rfl
theorem dotB_lhs_1 (j : S4x512x512.Idx) (k : (dot_S4x512x2048_S2048x512_S4x512x512_2_0_01_1_n_n).contr.Idx) :
    ((dot_S4x512x2048_S2048x512_S4x512x512_2_0_01_1_n_n).lhsIdx j k 1 : ℕ) = j 1 := by
  simp [DotDims.lhsIdx, dot_S4x512x2048_S2048x512_S4x512x512_2_0_01_1_n_n]; rfl
theorem dotB_lhs_2 (j : S4x512x512.Idx) (k : (dot_S4x512x2048_S2048x512_S4x512x512_2_0_01_1_n_n).contr.Idx) :
    ((dot_S4x512x2048_S2048x512_S4x512x512_2_0_01_1_n_n).lhsIdx j k 2 : ℕ) = k ⟨0, by decide⟩ := by
  simp [DotDims.lhsIdx, dot_S4x512x2048_S2048x512_S4x512x512_2_0_01_1_n_n]; rfl
theorem dotB_rhs_0 (j : S4x512x512.Idx) (k : (dot_S4x512x2048_S2048x512_S4x512x512_2_0_01_1_n_n).contr.Idx) :
    ((dot_S4x512x2048_S2048x512_S4x512x512_2_0_01_1_n_n).rhsIdx j k 0 : ℕ) = k ⟨0, by decide⟩ := by
  simp [DotDims.rhsIdx, dot_S4x512x2048_S2048x512_S4x512x512_2_0_01_1_n_n]; rfl
theorem dotB_rhs_1 (j : S4x512x512.Idx) (k : (dot_S4x512x2048_S2048x512_S4x512x512_2_0_01_1_n_n).contr.Idx) :
    ((dot_S4x512x2048_S2048x512_S4x512x512_2_0_01_1_n_n).rhsIdx j k 1 : ℕ) = j 2 := by
  simp [DotDims.rhsIdx, dot_S4x512x2048_S2048x512_S4x512x512_2_0_01_1_n_n]; rfl

/-- h W at (b, s, d) is the sum over k of h[b, s, k] W[k, d]. -/
theorem dotB_apply (x : FVec Ideal S4x512x2048 .f32) (w : FVec Ideal S2048x512 .f32) (b : Fin 4) (s : Fin 512) (h : Fin 512) :
    Host.dotGeneral (F := Ideal) dot_S4x512x2048_S2048x512_S4x512x512_2_0_01_1_n_n none x w (ix3 b s h)
      = ∑ k : Fin 2048, x (ix3 b s k) * w (ix2 k h) := by
  show FloatOps.dotGeneral dot_S4x512x2048_S2048x512_S4x512x512_2_0_01_1_n_n none .single x w (ix3 b s h) = _
  rw [Ideal.dotGeneral_apply,
    ← Equiv.sum_comp (contrEquiv1 dot_S4x512x2048_S2048x512_S4x512x512_2_0_01_1_n_n 2048 rfl rfl).symm]
  refine Finset.sum_congr rfl fun k _ => ?_
  congr 2
  · funext a
    refine Fin.ext ?_
    match a with
    | ⟨0, _⟩ => exact dotB_lhs_0 _ _
    | ⟨1, _⟩ => exact dotB_lhs_1 _ _
    | ⟨2, _⟩ => exact (dotB_lhs_2 _ _).trans (contrEquiv1_symm_val _ 2048 rfl rfl k)
  · funext a
    refine Fin.ext ?_
    match a with
    | ⟨0, _⟩ => exact (dotB_rhs_0 _ _).trans (contrEquiv1_symm_val _ 2048 rfl rfl k)
    | ⟨1, _⟩ => exact dotB_rhs_1 _ _

/-! ## Slices, reshapes and broadcasts read at an index -/

/-- Expert e's slab of W1, as a matrix, at (k, h). -/
theorem sliceW1_apply (e : ℕ) (he : e < 8) (W1 : FVec Ideal S8x512x2048 .f32) (hs : S8x512x2048.Slices ![e, 0, 0] S1x512x2048)
    (k : Fin 512) (h : Fin 2048) :
    shapeCast S512x2048 (extractStridedSlice S1x512x2048 ![e, 0, 0] W1 hs) shapeCasts_S1x512x2048_S512x2048 (ix2 k h)
      = W1 (ix3 ⟨e, he⟩ k h) := by
  rw [shapeCast_1ab_ab_apply]
  exact extractStridedSlice_apply _ _ _ _ _ fun a => by
    match a with
    | ⟨0, _⟩ => rfl
    | ⟨1, _⟩ => exact (Nat.zero_add _).symm
    | ⟨2, _⟩ => exact (Nat.zero_add _).symm

/-- Expert e's slab of W2, as a matrix, at (h, d). -/
theorem sliceW2_apply (e : ℕ) (he : e < 8) (W2 : FVec Ideal S8x2048x512 .f32) (hs : S8x2048x512.Slices ![e, 0, 0] S1x2048x512)
    (h : Fin 2048) (d : Fin 512) :
    shapeCast S2048x512 (extractStridedSlice S1x2048x512 ![e, 0, 0] W2 hs) shapeCasts_S1x2048x512_S2048x512 (ix2 h d)
      = W2 (ix3 ⟨e, he⟩ h d) := by
  rw [shapeCast_1ab_ab_apply]
  exact extractStridedSlice_apply _ _ _ _ _ fun a => by
    match a with
    | ⟨0, _⟩ => rfl
    | ⟨1, _⟩ => exact (Nat.zero_add _).symm
    | ⟨2, _⟩ => exact (Nat.zero_add _).symm

/-- Expert e's row of b1, broadcast over the tokens, at (b, s, h). -/
theorem sliceB1_apply (e : ℕ) (he : e < 8) (b1 : FVec Ideal S8x2048 .f32) (hs : S8x2048.Slices ![e, 0] S1x2048)
    (b : Fin 4) (s : Fin 512) (h : Fin 2048) :
    broadcastInDim S4x512x2048 ![0, 1, 2] bcast_S1x1x2048_S4x512x2048_0_1_2
        (broadcastInDim S1x1x2048 ![2] bcast_S2048_S1x1x2048_2
          (shapeCast S2048 (extractStridedSlice S1x2048 ![e, 0] b1 hs) shapeCasts_S1x2048_S2048)) (ix3 b s h)
      = b1 (ix2 ⟨e, he⟩ h) := by
  rw [broadcastInDim_apply _ _ _ _ (ix3 (0 : Fin 1) (0 : Fin 1) h) (fun a => by
      match a with
      | ⟨0, _⟩ => rfl
      | ⟨1, _⟩ => rfl
      | ⟨2, _⟩ => rfl),
    broadcastInDim_apply _ _ _ _ (ix1 h) (fun a => by
      match a with
      | ⟨0, _⟩ => rfl),
    shapeCast_1a_a_apply]
  exact extractStridedSlice_apply _ _ _ _ _ fun a => by
    match a with
    | ⟨0, _⟩ => rfl
    | ⟨1, _⟩ => exact (Nat.zero_add _).symm

/-- Expert e's row of b2, broadcast over the tokens, at (b, s, d). -/
theorem sliceB2_apply (e : ℕ) (he : e < 8) (b2 : FVec Ideal S8x512 .f32) (hs : S8x512.Slices ![e, 0] S1x512)
    (b : Fin 4) (s : Fin 512) (d : Fin 512) :
    broadcastInDim S4x512x512 ![0, 1, 2] bcast_S1x1x512_S4x512x512_0_1_2
        (broadcastInDim S1x1x512 ![2] bcast_S512_S1x1x512_2
          (shapeCast S512 (extractStridedSlice S1x512 ![e, 0] b2 hs) shapeCasts_S1x512_S512)) (ix3 b s d)
      = b2 (ix2 ⟨e, he⟩ d) := by
  rw [broadcastInDim_apply _ _ _ _ (ix3 (0 : Fin 1) (0 : Fin 1) d) (fun a => by
      match a with
      | ⟨0, _⟩ => rfl
      | ⟨1, _⟩ => rfl
      | ⟨2, _⟩ => rfl),
    broadcastInDim_apply _ _ _ _ (ix1 d) (fun a => by
      match a with
      | ⟨0, _⟩ => rfl),
    shapeCast_1a_a_apply]
  exact extractStridedSlice_apply _ _ _ _ _ fun a => by
    match a with
    | ⟨0, _⟩ => rfl
    | ⟨1, _⟩ => exact (Nat.zero_add _).symm

/-- A vector over the features, broadcast over the tokens, at (b, s, d). -/
theorem rowVec_apply (g : FVec Ideal S512 .f32) (b : Fin 4) (s : Fin 512) (d : Fin 512) :
    broadcastInDim S4x512x512 ![0, 1, 2] bcast_S1x1x512_S4x512x512_0_1_2
        (broadcastInDim S1x1x512 ![2] bcast_S512_S1x1x512_2 g) (ix3 b s d) = g (ix1 d) := by
  rw [broadcastInDim_apply _ _ _ _ (ix3 (0 : Fin 1) (0 : Fin 1) d) (fun a => by
      match a with
      | ⟨0, _⟩ => rfl
      | ⟨1, _⟩ => rfl
      | ⟨2, _⟩ => rfl)]
  exact broadcastInDim_apply _ _ _ _ (ix1 d) (fun a => by
      match a with
      | ⟨0, _⟩ => rfl)

/-- A column (one value per token), broadcast over the features, at (b, s, d). -/
theorem col_apply {α : Type} (c : S4x512x1.Idx → α) (b : Fin 4) (s : Fin 512) (d : Fin 512) :
    broadcastInDim S4x512x512 ![0, 1, 2] bcast_S4x512x1_S4x512x512_0_1_2 c (ix3 b s d) = c (ix3 b s (0 : Fin 1)) :=
  broadcastInDim_apply _ _ _ _ _ (fun a => by
    match a with
    | ⟨0, _⟩ => rfl
    | ⟨1, _⟩ => rfl
    | ⟨2, _⟩ => rfl)

/-- One value per token, made a column, at (b, s, 0). -/
theorem toCol_apply {α : Type} (c : S4x512.Idx → α) (b : Fin 4) (s : Fin 512) (u : Fin 1) :
    broadcastInDim S4x512x1 ![0, 1] bcast_S4x512_S4x512x1_0_1 c (ix3 b s u) = c (ix2 b s) :=
  broadcastInDim_apply _ _ _ _ _ (fun a => by
    match a with
    | ⟨0, _⟩ => rfl
    | ⟨1, _⟩ => rfl)

/-- The sum of a row. -/
theorem rowSum_apply (z : FVec Ideal S4x512x512 .f32) (b : Fin 4) (s : Fin 512) :
    Host.reduceAdd (F := Ideal) z (constant S_ .f32 0x00000000#32) reducesTo_S4x512x512_S4x512_d2 h_S_ (ix2 b s)
      = ∑ d : Fin 512, z (ix3 b s d) := by
  show Ideal.hostReduceAdd reducesTo_S4x512x512_S4x512_d2 z (Ideal.ofBits .f32 0x00000000#32) (ix2 b s) = _
  rw [Ideal.hostReduceAdd_single _ (by decide : S4x512x512.Reduces [2] S4x512), Ideal.ofBits_zero_f32, zero_add]
  refine Finset.sum_congr rfl fun d _ => congrArg z ?_
  funext a
  refine Fin.ext ?_
  match a with
  | ⟨0, _⟩ => rfl
  | ⟨1, _⟩ => rfl
  | ⟨2, _⟩ => rfl

/-! ## The constants of the variance's guard -/

/-- The word of 512.0 is 512. -/
theorem c512_eq : Ideal.ofBits .f32 0x44000000#32 = ((512 : ℝ) : EReal) := by
  simp [Ideal.ofBits, Ideal.ieee]
  rw [← EReal.coe_mul]
  norm_num

/-- The variance's divisor 512 - 0 is 512. -/
theorem divisor_eq : Ideal.ofBits .f32 0x44000000#32 - (((0#32 : BitVec 32).toInt : ℝ) : EReal) = Ideal.ofBits .f32 0x44000000#32 := by
  simp

/-- The guard 512 - 0 > 0 holds. -/
theorem guard_eq : Ideal.cmp .ogt (Ideal.ofBits .f32 0x44000000#32 - (((0#32 : BitVec 32).toInt : ℝ) : EReal)) (Ideal.ofBits .f32 0x00000000#32) = 1#1 := by
  rw [divisor_eq, Ideal.ofBits_zero_f32, c512_eq]
  have h : (0 : EReal) < ((512 : ℝ) : EReal) := EReal.coe_pos.mpr (by norm_num)
  simp [Ideal.cmp, h]

/-! ## The masked sum -/

/-- Of the eight masked terms exactly the bin's own is kept. -/
theorem masked_chain (β : BitVec 32) (hβ : β.toNat < 8) (Y : Fin 8 → EReal) :
    ((((((((0 : EReal)
      + Scalar.select (IntOp.cmpi .eq β 0#32) (Y ⟨0, by norm_num⟩) 0)
      + Scalar.select (IntOp.cmpi .eq β 1#32) (Y ⟨1, by norm_num⟩) 0)
      + Scalar.select (IntOp.cmpi .eq β 2#32) (Y ⟨2, by norm_num⟩) 0)
      + Scalar.select (IntOp.cmpi .eq β 3#32) (Y ⟨3, by norm_num⟩) 0)
      + Scalar.select (IntOp.cmpi .eq β 4#32) (Y ⟨4, by norm_num⟩) 0)
      + Scalar.select (IntOp.cmpi .eq β 5#32) (Y ⟨5, by norm_num⟩) 0)
      + Scalar.select (IntOp.cmpi .eq β 6#32) (Y ⟨6, by norm_num⟩) 0)
      + Scalar.select (IntOp.cmpi .eq β 7#32) (Y ⟨7, by norm_num⟩) 0
      = Y ⟨β.toNat % 8, Nat.mod_lt _ (by norm_num)⟩ := by
  obtain ⟨n, hn, rfl⟩ : ∃ n, n < 8 ∧ β = BitVec.ofNat 32 n := ⟨β.toNat, hβ, by simp⟩
  interval_cases n <;> simp [Scalar.select, IntOp.cmpi]

/-- The id wrap, as the select the function applies. -/
theorem wrap_eq (o : BitVec 32) :
    Scalar.select (IntOp.cmpi .slt o 0#32) (IntOp.addi o 32000#32) o = Cert.Spec.wrapId o := by
  unfold Cert.Spec.wrapId IntOp.cmpi IntOp.addi Scalar.select
  cases h : o.slt 0#32 <;> simp

/-! ## The stages at an index -/

theorem splat_apply {t : Shape} (h : S_.BroadcastsInDim t ![]) (w : BitVec 32) (j : t.Idx) :
    broadcastInDim t ![] h (constant (F := Ideal) S_ .f32 w) j = Ideal.ofBits .f32 w := rfl
theorem hostDivf_apply {t : Shape} (a c : FVec Ideal t .f32) (i : t.Idx) : Host.divf a c i = Ideal.div (a i) (c i) := rfl
theorem hostRsqrt_apply {t : Shape} (a : FVec Ideal t .f32) (i : t.Idx) : Host.rsqrt a i = Ideal.rsqrt (a i) := rfl

/-- One expert's hidden layer at (b, s, h), over that expert's slab and row. -/
theorem expertHid_apply (e : ℕ) (he : e < 8) (x : FVec Ideal S4x512x512 .f32) (W1 : FVec Ideal S8x512x2048 .f32)
    (b1 : FVec Ideal S8x2048 .f32) (hs1 : S8x512x2048.Slices ![e, 0, 0] S1x512x2048) (hs2 : S8x2048.Slices ![e, 0] S1x2048)
    (b : Fin 4) (s : Fin 512) (h : Fin 2048) :
    expertHid x (extractStridedSlice S1x512x2048 ![e, 0, 0] W1 hs1) (extractStridedSlice S1x2048 ![e, 0] b1 hs2) (ix3 b s h)
      = Cert.Spec.hid (fun k => x (ix3 b s k)) (fun k h => W1 (ix3 ⟨e, he⟩ k h)) (fun h => b1 (ix2 ⟨e, he⟩ h)) h := by
  unfold expertHid Cert.Spec.hid
  simp only [maximumf_apply, addf_apply, dotA_apply, sliceW1_apply e he, sliceB1_apply e he]
  rw [splat_apply, Ideal.ofBits_zero_f32]

/-- What expert e gives token (b, s) at feature d. -/
def expertAt (x : FVec Ideal S4x512x512 .f32) (W1 : FVec Ideal S8x512x2048 .f32) (b1 : FVec Ideal S8x2048 .f32)
    (W2 : FVec Ideal S8x2048x512 .f32) (b2 : FVec Ideal S8x512 .f32) (b : Fin 4) (s : Fin 512) (d : Fin 512) (e : Fin 8) : EReal :=
  Cert.Spec.ffn (fun k => x (ix3 b s k)) (fun k h => W1 (ix3 e k h)) (fun h => b1 (ix2 e h))
    (fun h d => W2 (ix3 e h d)) (fun d => b2 (ix2 e d)) d

/-- One expert's output at (b, s, d), over that expert's slabs and rows. -/
theorem expert_apply (e : ℕ) (he : e < 8) (x : FVec Ideal S4x512x512 .f32) (W1 : FVec Ideal S8x512x2048 .f32)
    (b1 : FVec Ideal S8x2048 .f32) (W2 : FVec Ideal S8x2048x512 .f32) (b2 : FVec Ideal S8x512 .f32)
    (hs1 : S8x512x2048.Slices ![e, 0, 0] S1x512x2048) (hs2 : S8x2048.Slices ![e, 0] S1x2048)
    (hs3 : S8x2048x512.Slices ![e, 0, 0] S1x2048x512) (hs4 : S8x512.Slices ![e, 0] S1x512)
    (b : Fin 4) (s : Fin 512) (d : Fin 512) :
    expertOut (expertHid x (extractStridedSlice S1x512x2048 ![e, 0, 0] W1 hs1) (extractStridedSlice S1x2048 ![e, 0] b1 hs2))
        (extractStridedSlice S1x2048x512 ![e, 0, 0] W2 hs3) (extractStridedSlice S1x512 ![e, 0] b2 hs4) (ix3 b s d)
      = expertAt x W1 b1 W2 b2 b s d ⟨e, he⟩ := by
  unfold expertOut expertAt Cert.Spec.ffn
  simp only [addf_apply, dotB_apply, sliceW2_apply e he, sliceB2_apply e he, expertHid_apply e he]

/-- The accumulator after one expert, at (b, s, d). -/
theorem maskedAdd_apply (acc : FVec Ideal S4x512x512 .f32) (bn : IVec S4x512 32) (e : BitVec 32) (y : FVec Ideal S4x512x512 .f32)
    (b : Fin 4) (s : Fin 512) (d : Fin 512) :
    maskedAdd acc bn e y (ix3 b s d)
      = acc (ix3 b s d) + Scalar.select (IntOp.cmpi .eq (bn (ix2 b s)) e) (y (ix3 b s d)) 0 := by
  unfold maskedAdd
  simp only [addf_apply, select_apply, id_eq]
  rw [col_apply, toCol_apply, splat_apply, Ideal.ofBits_zero_f32]
  rfl

/-- The mean of a row. -/
theorem rowMean_apply (z : FVec Ideal S4x512x512 .f32) (b : Fin 4) (s : Fin 512) (u : Fin 1) :
    rowMean z (ix3 b s u) = Cert.Spec.mean (fun d => z (ix3 b s d)) := by
  unfold rowMean Cert.Spec.mean
  simp only [hostDivf_apply]
  rw [toCol_apply, rowSum_apply, splat_apply]

theorem guard_apply (j : S4x512x1.Idx) :
    broadcastInDim S4x512x1 ![] bcast_S_S4x512x1
      (cmpf .ogt (subf (constant (F := Ideal) S_ .f32 0x44000000#32) (sitofp .f32 (constantI S_ 32 0#32)))
        (constant S_ .f32 0x00000000#32)) j = 1#1 := guard_eq
theorem divisor_apply (j : S4x512x1.Idx) :
    broadcastInDim S4x512x1 ![] bcast_S_S4x512x1
      (subf (constant (F := Ideal) S_ .f32 0x44000000#32) (sitofp .f32 (constantI S_ 32 0#32))) j
      = Ideal.ofBits .f32 0x44000000#32 := divisor_eq

/-- The variance of a row: the divisor is 512 and the guard holds, so the quotient is kept. -/
theorem rowVar_apply (z : FVec Ideal S4x512x512 .f32) (b : Fin 4) (s : Fin 512) (u : Fin 1) :
    rowVar z (constantI S_ 32 0#32) (ix3 b s u) = Cert.Spec.var (fun d => z (ix3 b s d)) := by
  unfold rowVar Cert.Spec.var
  simp only [select_apply, id_eq, hostDivf_apply]
  rw [guard_apply, select_one, divisor_apply, toCol_apply, rowSum_apply]
  congr 1
  refine Finset.sum_congr rfl fun d _ => ?_
  simp only [mulf_apply, subf_apply]
  rw [col_apply, rowMean_apply]

/-- The layer norm of a row. -/
theorem layerNorm_apply (z : FVec Ideal S4x512x512 .f32) (g be : FVec Ideal S512 .f32) (b : Fin 4) (s : Fin 512) (d : Fin 512) :
    layerNorm z g be (ix3 b s d)
      = Cert.Spec.ln (fun d => z (ix3 b s d)) (fun d => g (ix1 d)) (fun d => be (ix1 d)) d := by
  unfold layerNorm Cert.Spec.ln
  simp only [addf_apply, mulf_apply, subf_apply]
  rw [rowVec_apply, rowVec_apply, col_apply, col_apply, rowMean_apply, hostRsqrt_apply, addf_apply, rowVar_apply, splat_apply]

/-! ## The bins, the masked sum, and the result -/

/-- The bin word of token (b, s). -/
theorem bins_apply (orig : IVec S4x512 32) (hbm : IVec S32000 32) (b : Fin 4) (s : Fin 512) :
    bins orig hbm (ix2 b s) = Cert.Spec.binWord (fun v => hbm (ix1 v)) (fun b s => orig (ix2 b s)) b s := by
  have ht : takeIdx (ix2 b s) = ix3 b s (0 : Fin 1) := by
    funext a
    match a with
    | ⟨0, _⟩ => rfl
    | ⟨1, _⟩ => rfl
    | ⟨2, _⟩ => rfl
  unfold bins Cert.Spec.binWord
  show Host.gather (takeDims 32000 4 512 gather_S32000_S4x512x1_S4x512_n_0_n_n_0_2_1_wf) hbm _ (ix2 b s) = hbm (ix1 _)
  rw [gather_take_apply (by norm_num)]
  refine congrArg hbm (congrArg ix1 (Fin.ext ?_))
  show min (BitVec.toInt _).toNat (32000 - 1) = min (BitVec.toInt _).toNat 31999
  rw [ht, toCol_apply, select_apply, ← wrap_eq]
  rfl

/-- The masked sum at (b, s, d) is the output of the token's own expert. -/
theorem ffnOut_apply (x : FVec Ideal S4x512x512 .f32) (W1 : FVec Ideal S8x512x2048 .f32) (b1 : FVec Ideal S8x2048 .f32)
    (W2 : FVec Ideal S8x2048x512 .f32) (b2 : FVec Ideal S8x512 .f32) (bn : IVec S4x512 32)
    (b : Fin 4) (s : Fin 512) (d : Fin 512) (hβ : (bn (ix2 b s)).toNat < 8) :
    ffnOut x W1 b1 W2 b2 bn (ix3 b s d)
      = expertAt x W1 b1 W2 b2 b s d ⟨(bn (ix2 b s)).toNat % 8, Nat.mod_lt _ (by norm_num)⟩ := by
  unfold ffnOut
  simp only [maskedAdd_apply]
  rw [splat_apply, Ideal.ofBits_zero_f32]
  unfold y0 y1 y2 y3 y4 y5 y6 y7
  rw [expert_apply 0 (by norm_num), expert_apply 1 (by norm_num), expert_apply 2 (by norm_num), expert_apply 3 (by norm_num),
    expert_apply 4 (by norm_num), expert_apply 5 (by norm_num), expert_apply 6 (by norm_num), expert_apply 7 (by norm_num)]
  exact masked_chain (bn (ix2 b s)) hβ (expertAt x W1 b1 W2 b2 b s d)

/-- The reference function's value is the specified function of the argument arrays, when every entry of the hash
    table is one of the bins 0 … 7. -/
theorem refTerm_eq (x : FVec Ideal S4x512x512 .f32) (W1 : FVec Ideal S8x512x2048 .f32) (b1 : FVec Ideal S8x2048 .f32)
    (W2 : FVec Ideal S8x2048x512 .f32) (b2 : FVec Ideal S8x512 .f32) (g be : FVec Ideal S512 .f32) (orig : IVec S4x512 32)
    (hbm : IVec S32000 32) (hr : ∀ v : Fin 32000, (hbm (ValueIdx.ix1 v)).toNat < 8) :
    RefTerm.refTerm (F := Ideal) x W1 b1 W2 b2 g be orig hbm = Cert.Spec.out x W1 b1 W2 b2 g be orig hbm := by
  funext i
  obtain ⟨b, s, d, rfl⟩ : ∃ (b : Fin 4) (s : Fin 512) (d : Fin 512), i = ix3 b s d := ⟨i 0, i 1, i 2, eq_ix3 i⟩
  have hb := bins_apply orig hbm b s
  have hβ : (bins orig hbm (ix2 b s)).toNat < 8 := by
    rw [hb]; exact hr _
  show layerNorm (addf x (ffnOut x W1 b1 W2 b2 (bins orig hbm))) g be (ix3 b s d)
    = Cert.Spec.outAt _ _ _ _ _ _ _ _ _ b s d
  rw [layerNorm_apply]
  unfold Cert.Spec.outAt Cert.Spec.row Cert.Spec.binOf
  refine congrArg (fun z => Cert.Spec.ln z _ _ d) (funext fun d' => ?_)
  rw [addf_apply, ffnOut_apply _ _ _ _ _ _ _ _ _ hβ]
  unfold expertAt
  generalize bins orig hbm (ix2 b s) = β at hb
  subst hb
  rfl

end Cert.ReferenceIdeal.RefValue

end
-- ==== Proof.lean ====
/-
  The certificate of the hash-routed mixture-of-experts feed-forward layer with residual and layer norm.

  Token (b, s) has the bin e = hash_bin_map[orig_input[b, s]]; the precondition says every entry of the hash table is
  one of the experts 0 … 7. The reference runs all eight experts on every token and keeps, by a mask, the output of the
  token's own expert (the seven other summands are zero); the kernel sorts the tokens by bin into a padded array of
  24 tiles of 128 rows, runs each tile through the expert that owns it, and gathers the rows back. On the extended
  reals both are, row by row, the layer norm of x + (relu(x W1[e] + b1[e]) W2[e] + b2[e]) (`Cert.Spec.out`):
  changes of float format are the identity, the kernel's two matrix products into zero accumulators and the
  reference's contractions are the same sums, and mean, variance and rsqrt are the same operations on both sides.
  No algebraic law beyond 0 + a = a is needed, so the finiteness of the float inputs is never used.

  The three frames: the kernel's two are its frame theorem, whose side condition on the prefetched tile-owner table
  holds for every input because the table is clipped into [0, 7]; the reference's is its run with the result dropped.
-/
import proofs.«414385_j85753317032356_3_alg».proof.Defs
import proofs.«414385_j85753317032356_3_alg».proof.Proof.Gen.Kernel.Frame
import proofs.«414385_j85753317032356_3_alg».proof.Proof.Gen.KernelIdeal.Frame
import proofs.«414385_j85753317032356_3_alg».proof.Proof.Gen.ReferenceIdeal
import proofs.«414385_j85753317032356_3_alg».proof.Proof.Gen.Pre_finite_inputs
import proofs.«414385_j85753317032356_3_alg».proof.Proof.KOk
import proofs.«414385_j85753317032356_3_alg».proof.Proof.KOkBits
import proofs.«414385_j85753317032356_3_alg».proof.Proof.KValue
import proofs.«414385_j85753317032356_3_alg».proof.Proof.PreFacts
import proofs.«414385_j85753317032356_3_alg».proof.Proof.RefRun
import proofs.«414385_j85753317032356_3_alg».proof.Proof.RefValue

noncomputable section

namespace Cert.Proof

open Idealize.ShloMosaic Idealize.ShloMosaic.ValueIdx Idealize.SL.Sem

theorem frame_k : Cert.frame_Kernel := fun m ρ _ => Cert.Kernel.Gen.frame m ρ (Cert.Kernel.KOk.ok m)

theorem frame_ki : Cert.frame_KernelIdeal := fun m ρ _ => Cert.KernelIdeal.Gen.frame m ρ (Cert.KernelIdeal.KOk.ok m)

theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the specification's array of their (agreeing) arguments. -/
theorem algebraic : Cert.algebraic_KernelIdeal_ReferenceIdeal := by
  intro m ρ m' ρ' hpre hagree
  have hr : ∀ (c : Dev Cert.KernelIdeal.nD) (v : Fin 32000),
      ((m ((c.tc : Thread Cert.KernelIdeal.nD Cert.KernelIdeal.τ).loc Cert.KernelIdeal.main_arg8) : IVec Cert.KernelIdeal.S32000 32) (ix1 v)).toNat < 8 :=
    fun c v => Cert.PreFacts.hbm_range _ _ _ _ _ _ _ _ _ (hpre c) v
  refine ⟨_, Cert.KernelIdeal.KValue.run m ρ hr, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact Cert.ReferenceIdeal.RefValue.refTerm_eq _ _ _ _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
